-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S528x128 : Shape := ⟨2, ![528, 128]⟩
abbrev S528 : Shape := ⟨1, ![528]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S528x128 : S_.BroadcastsInDim S528x128 (![] : Fin 0 → Fin S528x128.rank)
  reducesTo_S528x128_S_d0_1 : S528x128.ReducesTo [0, 1] S_
  bcast_S_S528 : S_.BroadcastsInDim S528 (![] : Fin 0 → Fin S528.rank)
  reducesTo_S528_S_d0 : S528.ReducesTo [0] S_

variable [Facts]

def fn {F : FTy → Type} [FloatOps F] (main_arg0 : FVec F S50000x128 .f32) (main_arg1 : FVec F S528x128 .f32) (main_arg2 : FVec F S528 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S528x128 .f32 := Host.absf main_arg1
  let main_cst_0 : FVec F S_ .f32 := constant S_ .f32 0x7F800000#32
  let main_v5 : FVec F S528x128 .f32 := broadcastInDim S528x128 ![] bcast_S_S528x128 main_cst_0
  let main_v6 : IVec S528x128 1 := cmpf .olt main_v4 main_v5
  let main_c_1 : IVec S_ 1 := constantI S_ 1 1#1
  let main_v7 : IVec S_ 1 := (fun x v => Host.reduce IntOp.andi x v reducesTo_S528x128_S_d0_1 h_S_) main_v6 main_c_1
  let main_v8 : IVec S_ 1 := andi main_v3 main_v7
  let main_v9 : FVec F S528 .f32 := Host.absf main_arg2
  let main_cst_2 : FVec F S_ .f32 := constant S_ .f32 0x7F800000#32
  let main_v10 : FVec F S528 .f32 := broadcastInDim S528 ![] bcast_S_S528 main_cst_2
  let main_v11 : IVec S528 1 := cmpf .olt main_v9 main_v10
  let main_c_3 : IVec S_ 1 := constantI S_ 1 1#1
  let main_v12 : IVec S_ 1 := (fun x v => Host.reduce IntOp.andi x v reducesTo_S528_S_d0 h_S_) main_v11 main_c_3
  let main_v13 : IVec S_ 1 := andi main_v8 main_v12
  main_v13
-- ==== Kernel.lean ====
abbrev S50000x128 : Shape := ⟨2, ![50000, 128]⟩
abbrev S528x128 : Shape := ⟨2, ![528, 128]⟩
abbrev S528 : Shape := ⟨1, ![528]⟩
abbrev S1024 : Shape := ⟨1, ![1024]⟩
abbrev S_ : Shape := ⟨0, ![]⟩
abbrev S1024x1 : Shape := ⟨2, ![1024, 1]⟩
abbrev S1024x128 : Shape := ⟨2, ![1024, 128]⟩
abbrev S128x1024 : Shape := ⟨2, ![128, 1024]⟩
abbrev S1x1024 : Shape := ⟨2, ![1, 1024]⟩
abbrev S50000x8x128 : Shape := ⟨3, ![50000, 8, 128]⟩
abbrev S2000x128 : Shape := ⟨2, ![2000, 128]⟩
abbrev S2000x8x128 : Shape := ⟨3, ![2000, 8, 128]⟩
abbrev S2000x1024 : Shape := ⟨2, ![2000, 1024]⟩
abbrev S50000x32x32 : Shape := ⟨3, ![50000, 32, 32]⟩

abbrev nBuf : Space → Nat
  | .hbm => 22
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S528x128, .f32⟩
  | .hbm, ⟨2, _⟩ => ⟨S528, .f32⟩
  | .hbm, ⟨3, _⟩ => ⟨S1024, .i32⟩
  | .hbm, ⟨4, _⟩ => ⟨S1024, .i1⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024x1, .i32⟩
  | .hbm, ⟨11, _⟩ => ⟨S1024x128, .f32⟩
  | .hbm, ⟨12, _⟩ => ⟨S128x1024, .f32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S1024x1, .i32⟩
  | .hbm, ⟨18, _⟩ => ⟨S1024, .f32⟩
  | .hbm, ⟨19, _⟩ => ⟨S1x1024, .f32⟩
  | .hbm, ⟨20, _⟩ => ⟨S50000x8x128, .f32⟩
  | .hbm, ⟨21, _⟩ => ⟨S50000x32x32, .f32⟩
  | .local _ .vmem, ⟨0, _⟩ => ⟨S2000x128, .f32⟩
  | .local _ .vmem, ⟨1, _⟩ => ⟨S2000x128, .f32⟩
  | .local _ .vmem, ⟨2, _⟩ => ⟨S128x1024, .f32⟩
  | .local _ .vmem, ⟨3, _⟩ => ⟨S1x1024, .f32⟩
  | .local _ .vmem, ⟨4, _⟩ => ⟨S2000x8x128, .f32⟩
  | .local _ .vmem, ⟨5, _⟩ => ⟨S2000x8x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  transposes_S1024x128_S128x1024_1_0 : S1024x128.Transposes [1, 0] S128x1024
  bcast_S1024_S1x1024_1 : S1024.BroadcastsInDim S1x1024 (![1] : Fin 1 → Fin S1x1024.rank)
  inb_S2000x128_S2000x128_0_0 : ∀ a, (![0, 0] : Fin 2 → Nat) a + S2000x128.size a ≤ S2000x128.size a
  h_S2000x128 : 0 < S2000x128.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  shapeCasts_S2000x1024_S2000x8x128 : S2000x1024.ShapeCasts S2000x8x128
  inb_S2000x8x128_S2000x8x128_0_0_0 : ∀ a, (![0, 0, 0] : Fin 3 → Nat) a + S2000x8x128.size a ≤ S2000x8x128.size a
  h_S2000x8x128 : 0 < S2000x8x128.numel
  shapeCasts_S50000x8x128_S50000x32x32 : S50000x8x128.ShapeCasts S50000x32x32
  gather_S528x128_S1024x1_S1024x128_1_0_n_n_0_1_1128_wf : GatherDims.WF S528x128 S1024x1 S1024x128 [1] [0] [] [0] [] 1 ![1, 128]
  gather_S528_S1024x1_S1024_n_0_n_n_0_1_1_wf : GatherDims.WF S528 S1024x1 S1024 [] [0] [] [0] [] 1 ![1]
  dot_S2000x128_S128x1024_S2000x1024_1_0_0_1_n_n_wf : DotDims.WF S2000x128 S128x1024 S2000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x8x128.size a ≤ S50000x8x128.size a
  hwx0_3 : ∀ i : grid0.Coords, EltTy.bits .f32 = 32 ∨ (Rect.block (s := S50000x8x128) S2000x8x128.size (cc0_transform_3 i) (hinb0_3 i)).WholeWords (EltTy.packing .f32)

variable [Facts₀]

def gather_S528x128_S1024x1_S1024x128_1_0_n_n_0_1_1128 : GatherDims S528x128 S1024x1 S1024x128 where
  offsetDims := [1]
  collapsedSliceDims := [0]
  operandBatchingDims := []
  startIndicesBatchingDims := []
  startIndexMap := [0]
  indexVectorDim := 1
  sliceSizes := ![1, 128]
  wf := gather_S528x128_S1024x1_S1024x128_1_0_n_n_0_1_1128_wf
def gather_S528_S1024x1_S1024_n_0_n_n_0_1_1 : GatherDims S528 S1024x1 S1024 where
  offsetDims := []
  collapsedSliceDims := [0]
  operandBatchingDims := []
  startIndicesBatchingDims := []
  startIndexMap := [0]
  indexVectorDim := 1
  sliceSizes := ![1]
  wf := gather_S528_S1024x1_S1024_n_0_n_n_0_1_1_wf
def dot_S2000x128_S128x1024_S2000x1024_1_0_0_1_n_n : DotDims S2000x128 S128x1024 S2000x1024 where
  lhsContracting := [1]
  rhsContracting := [0]
  lhsNonContracting := [0]
  rhsNonContracting := [1]
  lhsBatch := []
  rhsBatch := []
  wf := dot_S2000x128_S128x1024_S2000x1024_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S528x128 : Shape := ⟨2, ![528, 128]⟩
abbrev S528 : Shape := ⟨1, ![528]⟩
abbrev S128x528 : Shape := ⟨2, ![128, 528]⟩
abbrev S50000x528 : Shape := ⟨2, ![50000, 528]⟩
abbrev S1x528 : Shape := ⟨2, ![1, 528]⟩
abbrev S_ : Shape := ⟨0, ![]⟩
abbrev S32x32 : Shape := ⟨2, ![32, 32]⟩
abbrev S1024 : Shape := ⟨1, ![1024]⟩
abbrev S1024x1 : Shape := ⟨2, ![1024, 1]⟩
abbrev S50000x32x32 : Shape := ⟨3, ![50000, 32, 32]⟩
abbrev S528x1 : Shape := ⟨2, ![528, 1]⟩
abbrev S528x2 : Shape := ⟨2, ![528, 2]⟩

abbrev nBuf : Space → Nat
  | .hbm => 163
  | .vmem => 0
  | .smem => 0
  | _ => 0

abbrev hbmTy0_0 (i : Nat) : BufTy := match i % 128 with
  | 0 => ⟨S50000x128, .f32⟩
  | 1 => ⟨S528x128, .f32⟩
  | 2 => ⟨S528, .f32⟩
  | 3 => ⟨S128x528, .f32⟩
  | 4 => ⟨S50000x528, .f32⟩
  | 5 => ⟨S1x528, .f32⟩
  | 6 => ⟨S50000x528, .f32⟩
  | 7 => ⟨S50000x528, .f32⟩
  | 8 => ⟨S_, .f32⟩
  | 9 => ⟨S32x32, .f32⟩
  | 10 => ⟨S32x32, .i32⟩
  | 11 => ⟨S_, .i32⟩
  | 12 => ⟨S32x32, .i32⟩
  | 13 => ⟨S32x32, .i32⟩
  | 14 => ⟨S32x32, .i32⟩
  | 15 => ⟨S32x32, .i1⟩
  | 16 => ⟨S_, .f32⟩
  | 17 => ⟨S32x32, .f32⟩
  | 18 => ⟨S32x32, .f32⟩
  | 19 => ⟨S_, .f32⟩
  | 20 => ⟨S32x32, .f32⟩
  | 21 => ⟨S32x32, .i1⟩
  | 22 => ⟨S1024, .i1⟩
  | 23 => ⟨S1024, .i32⟩
  | 24 => ⟨S_, .i32⟩
  | 25 => ⟨S_, .i32⟩
  | 26 => ⟨S1024, .i32⟩
  | 27 => ⟨S_, .i32⟩
  | 28 => ⟨S528, .i32⟩
  | 29 => ⟨S_, .i32⟩
  | 30 => ⟨S_, .i32⟩
  | 31 => ⟨S1024, .i32⟩
  | 32 => ⟨S1024, .i32⟩
  | 33 => ⟨S_, .i32⟩
  | 34 => ⟨S1024, .i32⟩
  | 35 => ⟨S1024, .i1⟩
  | 36 => ⟨S_, .i32⟩
  | 37 => ⟨S1024, .i32⟩
  | 38 => ⟨S1024, .i32⟩
  | 39 => ⟨S1024, .i32⟩
  | 40 => ⟨S1024x1, .i32⟩
  | 41 => ⟨S_, .i32⟩
  | 42 => ⟨S1024, .i32⟩
  | 43 => ⟨S528, .i32⟩
  | 44 => ⟨S_, .i32⟩
  | 45 => ⟨S_, .i32⟩
  | 46 => ⟨S528, .i32⟩
  | 47 => ⟨S_, .i32⟩
  | 48 => ⟨S528, .i32⟩
  | 49 => ⟨S528, .i32⟩
  | 50 => ⟨S528, .i32⟩
  | 51 => ⟨S_, .i32⟩
  | 52 => ⟨S528, .i32⟩
  | 53 => ⟨S528, .i1⟩
  | 54 => ⟨S528, .i32⟩
  | 55 => ⟨S528, .i32⟩
  | 56 => ⟨S_, .i32⟩
  | 57 => ⟨S528, .i32⟩
  | 58 => ⟨S528, .i1⟩
  | 59 => ⟨S528, .i1⟩
  | 60 => ⟨S_, .i32⟩
  | 61 => ⟨S528, .i32⟩
  | 62 => ⟨S528, .i32⟩
  | 63 => ⟨S528, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S528, .i32⟩
  | 71 => ⟨S528, .i32⟩
  | 72 => ⟨S_, .i32⟩
  | 73 => ⟨S528, .i32⟩
  | 74 => ⟨S528, .i1⟩
  | 75 => ⟨S_, .i32⟩
  | 76 => ⟨S528, .i32⟩
  | 77 => ⟨S528, .i1⟩
  | 78 => ⟨S_, .i32⟩
  | 79 => ⟨S_, .i1⟩
  | 80 => ⟨S528, .i1⟩
  | 81 => ⟨S528, .i1⟩
  | 82 => ⟨S528, .i1⟩
  | 83 => ⟨S528, .i32⟩
  | 84 => ⟨S528, .i32⟩
  | 85 => ⟨S528, .i32⟩
  | 86 => ⟨S_, .i32⟩
  | 87 => ⟨S528, .i32⟩
  | 88 => ⟨S528, .i32⟩
  | 89 => ⟨S528, .i32⟩
  | 90 => ⟨S_, .i32⟩
  | 91 => ⟨S528, .i32⟩
  | 92 => ⟨S528, .i1⟩
  | 93 => ⟨S528, .i32⟩
  | 94 => ⟨S528, .i32⟩
  | 95 => ⟨S_, .i32⟩
  | 96 => ⟨S528, .i32⟩
  | 97 => ⟨S528, .i1⟩
  | 98 => ⟨S528, .i1⟩
  | 99 => ⟨S_, .i32⟩
  | 100 => ⟨S528, .i32⟩
  | 101 => ⟨S528, .i32⟩
  | 102 => ⟨S528, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S528, .i32⟩
  | 110 => ⟨S528, .i32⟩
  | 111 => ⟨S_, .i32⟩
  | 112 => ⟨S528, .i32⟩
  | 113 => ⟨S528, .i1⟩
  | 114 => ⟨S_, .i32⟩
  | 115 => ⟨S528, .i32⟩
  | 116 => ⟨S528, .i1⟩
  | 117 => ⟨S_, .i32⟩
  | 118 => ⟨S_, .i1⟩
  | 119 => ⟨S528, .i1⟩
  | 120 => ⟨S528, .i1⟩
  | 121 => ⟨S528, .i1⟩
  | 122 => ⟨S528, .i32⟩
  | 123 => ⟨S528, .i32⟩
  | 124 => ⟨S528, .i32⟩
  | 125 => ⟨S_, .f32⟩
  | 126 => ⟨S50000x32x32, .f32⟩
  | 127 => ⟨S_, .i32⟩
  | _ => ⟨S50000x128, .f32⟩

abbrev hbmTy0_1 (i : Nat) : BufTy := match i % 128 with
  | 0 => ⟨S528, .i32⟩
  | 1 => ⟨S528, .i1⟩
  | 2 => ⟨S_, .i32⟩
  | 3 => ⟨S528, .i32⟩
  | 4 => ⟨S528, .i32⟩
  | 5 => ⟨S528, .i32⟩
  | 6 => ⟨S_, .i32⟩
  | 7 => ⟨S528, .i32⟩
  | 8 => ⟨S528, .i1⟩
  | 9 => ⟨S_, .i32⟩
  | 10 => ⟨S528, .i32⟩
  | 11 => ⟨S528, .i32⟩
  | 12 => ⟨S528, .i32⟩
  | 13 => ⟨S528x1, .i32⟩
  | 14 => ⟨S528x1, .i32⟩
  | 15 => ⟨S528x2, .i32⟩
  | 16 => ⟨S50000x32x32, .f32⟩
  | 17 => ⟨S_, .i32⟩
  | 18 => ⟨S528, .i32⟩
  | 19 => ⟨S528, .i1⟩
  | 20 => ⟨S_, .i32⟩
  | 21 => ⟨S528, .i32⟩
  | 22 => ⟨S528, .i32⟩
  | 23 => ⟨S528, .i32⟩
  | 24 => ⟨S_, .i32⟩
  | 25 => ⟨S528, .i32⟩
  | 26 => ⟨S528, .i1⟩
  | 27 => ⟨S_, .i32⟩
  | 28 => ⟨S528, .i32⟩
  | 29 => ⟨S528, .i32⟩
  | 30 => ⟨S528, .i32⟩
  | 31 => ⟨S528x1, .i32⟩
  | 32 => ⟨S528x1, .i32⟩
  | 33 => ⟨S528x2, .i32⟩
  | 34 => ⟨S50000x32x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_cst : Ref sig .tc := ⟨.hbm, 16, rfl⟩
abbrev main_call0_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_call1_v0 : Ref sig .tc := ⟨.hbm, 22, rfl⟩
abbrev main_call1_v1 : Ref sig .tc := ⟨.hbm, 23, rfl⟩
abbrev main_call1_call0_c : Ref sig .tc := ⟨.hbm, 24, rfl⟩
abbrev main_call1_call0_v0 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_c_1 : Ref sig .tc := ⟨.hbm, 29, rfl⟩
abbrev main_call2_v0 : Ref sig .tc := ⟨.hbm, 30, rfl⟩
abbrev main_call2_v1 : Ref sig .tc := ⟨.hbm, 31, rfl⟩
abbrev main_v11 : Ref sig .tc := ⟨.hbm, 32, rfl⟩
abbrev main_c_2 : Ref sig .tc := ⟨.hbm, 33, rfl⟩
abbrev main_v12 : Ref sig .tc := ⟨.hbm, 34, rfl⟩
abbrev main_v13 : Ref sig .tc := ⟨.hbm, 35, rfl⟩
abbrev main_c_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_4 : Ref sig .tc := ⟨.hbm, 41, rfl⟩
abbrev main_v18 : Ref sig .tc := ⟨.hbm, 42, rfl⟩
abbrev main_v19 : Ref sig .tc := ⟨.hbm, 43, rfl⟩
abbrev main_call3_call0_c : Ref sig .tc := ⟨.hbm, 44, rfl⟩
abbrev main_call3_call0_v0 : Ref sig .tc := ⟨.hbm, 45, rfl⟩
abbrev main_v20 : Ref sig .tc := ⟨.hbm, 46, rfl⟩
abbrev main_c_5 : Ref sig .tc := ⟨.hbm, 47, rfl⟩
abbrev main_call4_v0 : Ref sig .tc := ⟨.hbm, 48, rfl⟩
abbrev main_call4_v1 : Ref sig .tc := ⟨.hbm, 49, rfl⟩
abbrev main_call4_v2 : Ref sig .tc := ⟨.hbm, 50, rfl⟩
abbrev main_call4_v3 : Ref sig .tc := ⟨.hbm, 51, rfl⟩
abbrev main_call4_v4 : Ref sig .tc := ⟨.hbm, 52, rfl⟩
abbrev main_call4_v5 : Ref sig .tc := ⟨.hbm, 53, rfl⟩
abbrev main_call4_v6 : Ref sig .tc := ⟨.hbm, 54, rfl⟩
abbrev main_call4_v7 : Ref sig .tc := ⟨.hbm, 55, rfl⟩
abbrev main_call4_c : Ref sig .tc := ⟨.hbm, 56, rfl⟩
abbrev main_call4_v8 : Ref sig .tc := ⟨.hbm, 57, rfl⟩
abbrev main_call4_v9 : Ref sig .tc := ⟨.hbm, 58, rfl⟩
abbrev main_call4_v10 : Ref sig .tc := ⟨.hbm, 59, rfl⟩
abbrev main_call4_c_0 : Ref sig .tc := ⟨.hbm, 60, rfl⟩
abbrev main_call4_v11 : Ref sig .tc := ⟨.hbm, 61, rfl⟩
abbrev main_call4_v12 : Ref sig .tc := ⟨.hbm, 62, rfl⟩
abbrev main_v21 : Ref sig .tc := ⟨.hbm, 63, rfl⟩
abbrev main_c_6 : Ref sig .tc := ⟨.hbm, 64, rfl⟩
abbrev main_call5_v0 : Ref sig .tc := ⟨.hbm, 65, rfl⟩
abbrev main_call5_c : Ref sig .tc := ⟨.hbm, 66, rfl⟩
abbrev main_call5_v1 : Ref sig .tc := ⟨.hbm, 67, rfl⟩
abbrev main_call5_c_0 : Ref sig .tc := ⟨.hbm, 68, rfl⟩
abbrev main_call5_v2 : Ref sig .tc := ⟨.hbm, 69, rfl⟩
abbrev main_call5_v3 : Ref sig .tc := ⟨.hbm, 70, rfl⟩
abbrev main_call5_v4 : Ref sig .tc := ⟨.hbm, 71, rfl⟩
abbrev main_call5_c_1 : Ref sig .tc := ⟨.hbm, 72, rfl⟩
abbrev main_call5_v5 : Ref sig .tc := ⟨.hbm, 73, rfl⟩
abbrev main_call5_v6 : Ref sig .tc := ⟨.hbm, 74, rfl⟩
abbrev main_call5_c_2 : Ref sig .tc := ⟨.hbm, 75, rfl⟩
abbrev main_call5_v7 : Ref sig .tc := ⟨.hbm, 76, rfl⟩
abbrev main_call5_v8 : Ref sig .tc := ⟨.hbm, 77, rfl⟩
abbrev main_call5_c_3 : Ref sig .tc := ⟨.hbm, 78, rfl⟩
abbrev main_call5_v9 : Ref sig .tc := ⟨.hbm, 79, rfl⟩
abbrev main_call5_v10 : Ref sig .tc := ⟨.hbm, 80, rfl⟩
abbrev main_call5_v11 : Ref sig .tc := ⟨.hbm, 81, rfl⟩
abbrev main_call5_v12 : Ref sig .tc := ⟨.hbm, 82, rfl⟩
abbrev main_call5_v13 : Ref sig .tc := ⟨.hbm, 83, rfl⟩
abbrev main_call5_v14 : Ref sig .tc := ⟨.hbm, 84, rfl⟩
abbrev main_v22 : Ref sig .tc := ⟨.hbm, 85, rfl⟩
abbrev main_c_7 : Ref sig .tc := ⟨.hbm, 86, rfl⟩
abbrev main_call6_v0 : Ref sig .tc := ⟨.hbm, 87, rfl⟩
abbrev main_call6_v1 : Ref sig .tc := ⟨.hbm, 88, rfl⟩
abbrev main_call6_v2 : Ref sig .tc := ⟨.hbm, 89, rfl⟩
abbrev main_call6_v3 : Ref sig .tc := ⟨.hbm, 90, rfl⟩
abbrev main_call6_v4 : Ref sig .tc := ⟨.hbm, 91, rfl⟩
abbrev main_call6_v5 : Ref sig .tc := ⟨.hbm, 92, rfl⟩
abbrev main_call6_v6 : Ref sig .tc := ⟨.hbm, 93, rfl⟩
abbrev main_call6_v7 : Ref sig .tc := ⟨.hbm, 94, rfl⟩
abbrev main_call6_c : Ref sig .tc := ⟨.hbm, 95, rfl⟩
abbrev main_call6_v8 : Ref sig .tc := ⟨.hbm, 96, rfl⟩
abbrev main_call6_v9 : Ref sig .tc := ⟨.hbm, 97, rfl⟩
abbrev main_call6_v10 : Ref sig .tc := ⟨.hbm, 98, rfl⟩
abbrev main_call6_c_0 : Ref sig .tc := ⟨.hbm, 99, rfl⟩
abbrev main_call6_v11 : Ref sig .tc := ⟨.hbm, 100, rfl⟩
abbrev main_call6_v12 : Ref sig .tc := ⟨.hbm, 101, rfl⟩
abbrev main_v23 : Ref sig .tc := ⟨.hbm, 102, rfl⟩
abbrev main_c_8 : Ref sig .tc := ⟨.hbm, 103, rfl⟩
abbrev main_call7_v0 : Ref sig .tc := ⟨.hbm, 104, rfl⟩
abbrev main_call7_c : Ref sig .tc := ⟨.hbm, 105, rfl⟩
abbrev main_call7_v1 : Ref sig .tc := ⟨.hbm, 106, rfl⟩
abbrev main_call7_c_0 : Ref sig .tc := ⟨.hbm, 107, rfl⟩
abbrev main_call7_v2 : Ref sig .tc := ⟨.hbm, 108, rfl⟩
abbrev main_call7_v3 : Ref sig .tc := ⟨.hbm, 109, rfl⟩
abbrev main_call7_v4 : Ref sig .tc := ⟨.hbm, 110, rfl⟩
abbrev main_call7_c_1 : Ref sig .tc := ⟨.hbm, 111, rfl⟩
abbrev main_call7_v5 : Ref sig .tc := ⟨.hbm, 112, rfl⟩
abbrev main_call7_v6 : Ref sig .tc := ⟨.hbm, 113, rfl⟩
abbrev main_call7_c_2 : Ref sig .tc := ⟨.hbm, 114, rfl⟩
abbrev main_call7_v7 : Ref sig .tc := ⟨.hbm, 115, rfl⟩
abbrev main_call7_v8 : Ref sig .tc := ⟨.hbm, 116, rfl⟩
abbrev main_call7_c_3 : Ref sig .tc := ⟨.hbm, 117, rfl⟩
abbrev main_call7_v9 : Ref sig .tc := ⟨.hbm, 118, rfl⟩
abbrev main_call7_v10 : Ref sig .tc := ⟨.hbm, 119, rfl⟩
abbrev main_call7_v11 : Ref sig .tc := ⟨.hbm, 120, rfl⟩
abbrev main_call7_v12 : Ref sig .tc := ⟨.hbm, 121, rfl⟩
abbrev main_call7_v13 : Ref sig .tc := ⟨.hbm, 122, rfl⟩
abbrev main_call7_v14 : Ref sig .tc := ⟨.hbm, 123, rfl⟩
abbrev main_v24 : Ref sig .tc := ⟨.hbm, 124, rfl⟩
abbrev main_cst_9 : Ref sig .tc := ⟨.hbm, 125, rfl⟩
abbrev main_v25 : Ref sig .tc := ⟨.hbm, 126, rfl⟩
abbrev main_c_10 : Ref sig .tc := ⟨.hbm, 127, rfl⟩
abbrev main_v26 : Ref sig .tc := ⟨.hbm, 128, rfl⟩
abbrev main_v27 : Ref sig .tc := ⟨.hbm, 129, rfl⟩
abbrev main_c_11 : Ref sig .tc := ⟨.hbm, 130, rfl⟩
abbrev main_v28 : Ref sig .tc := ⟨.hbm, 131, rfl⟩
abbrev main_v29 : Ref sig .tc := ⟨.hbm, 132, rfl⟩
abbrev main_v30 : Ref sig .tc := ⟨.hbm, 133, rfl⟩
abbrev main_c_12 : Ref sig .tc := ⟨.hbm, 134, rfl⟩
abbrev main_v31 : Ref sig .tc := ⟨.hbm, 135, rfl⟩
abbrev main_v32 : Ref sig .tc := ⟨.hbm, 136, rfl⟩
abbrev main_c_13 : Ref sig .tc := ⟨.hbm, 137, rfl⟩
abbrev main_v33 : Ref sig .tc := ⟨.hbm, 138, rfl⟩
abbrev main_v34 : Ref sig .tc := ⟨.hbm, 139, rfl⟩
abbrev main_v35 : Ref sig .tc := ⟨.hbm, 140, rfl⟩
abbrev main_v36 : Ref sig .tc := ⟨.hbm, 141, rfl⟩
abbrev main_v37 : Ref sig .tc := ⟨.hbm, 142, rfl⟩
abbrev main_v38 : Ref sig .tc := ⟨.hbm, 143, rfl⟩
abbrev main_v39 : Ref sig .tc := ⟨.hbm, 144, rfl⟩
abbrev main_c_14 : Ref sig .tc := ⟨.hbm, 145, rfl⟩
abbrev main_v40 : Ref sig .tc := ⟨.hbm, 146, rfl⟩
abbrev main_v41 : Ref sig .tc := ⟨.hbm, 147, rfl⟩
abbrev main_c_15 : Ref sig .tc := ⟨.hbm, 148, rfl⟩
abbrev main_v42 : Ref sig .tc := ⟨.hbm, 149, rfl⟩
abbrev main_v43 : Ref sig .tc := ⟨.hbm, 150, rfl⟩
abbrev main_v44 : Ref sig .tc := ⟨.hbm, 151, rfl⟩
abbrev main_c_16 : Ref sig .tc := ⟨.hbm, 152, rfl⟩
abbrev main_v45 : Ref sig .tc := ⟨.hbm, 153, rfl⟩
abbrev main_v46 : Ref sig .tc := ⟨.hbm, 154, rfl⟩
abbrev main_c_17 : Ref sig .tc := ⟨.hbm, 155, rfl⟩
abbrev main_v47 : Ref sig .tc := ⟨.hbm, 156, rfl⟩
abbrev main_v48 : Ref sig .tc := ⟨.hbm, 157, rfl⟩
abbrev main_v49 : Ref sig .tc := ⟨.hbm, 158, rfl⟩
abbrev main_v50 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩

abbrev nD : Nat := 1
abbrev τ : Topo := Topo.v7x

variable {F : FTy → Type} [FloatOps F]

class Facts₀ : Prop where
  transposes_S528x128_S128x528_1_0 : S528x128.Transposes [1, 0] S128x528
  bcast_S528_S1x528_1 : S528.BroadcastsInDim S1x528 (![1] : Fin 1 → Fin S1x528.rank)
  bcast_S1x528_S50000x528_0_1 : S1x528.BroadcastsInDim S50000x528 (![0, 1] : Fin 2 → Fin S50000x528.rank)
  bcast_S_S32x32 : S_.BroadcastsInDim S32x32 (![] : Fin 0 → Fin S32x32.rank)
  shapeCasts_S32x32_S1024 : S32x32.ShapeCasts S1024
  natLt_1_32 : 1 < 32
  bcast_S_S_ : S_.BroadcastsInDim S_ (![] : Fin 0 → Fin S_.rank)
  reduceWindows_S1024_S1024_w1024s1p1023_0 : S1024.ReduceWindows (![1024] : Fin 1 → Nat) ![1] ![1023] ![0] S1024
  h_S_ : 0 < S_.numel
  bcast_S_S528 : S_.BroadcastsInDim S528 (![] : Fin 0 → Fin S528.rank)
  bcast_S_S1024 : S_.BroadcastsInDim S1024 (![] : Fin 0 → Fin S1024.rank)
  bcast_S1024_S1024x1_0 : S1024.BroadcastsInDim S1024x1 (![0] : Fin 1 → Fin S1024x1.rank)
  reduceWindows_S528_S528_w528s1p527_0 : S528.ReduceWindows (![528] : Fin 1 → Nat) ![1] ![527] ![0] S528
  bcast_S_S50000x32x32 : S_.BroadcastsInDim S50000x32x32 (![] : Fin 0 → Fin S50000x32x32.rank)
  bcast_S528_S528x1_0 : S528.BroadcastsInDim S528x1 (![0] : Fin 1 → Fin S528x1.rank)
  concatenates_S528x1_S528x1_S528x2_d1 : Shape.Concatenates [S528x1, S528x1] S528x2 1
  dot_S50000x128_S128x528_S50000x528_1_0_0_1_n_n_wf : DotDims.WF S50000x128 S128x528 S50000x528 [1] [0] [0] [1] [] []
  scatter_S528_S1024x1_S1024_n_0_0_1_wf : ScatterDims.WF S528 S1024x1 S1024 [] [0] [0] 1
  scatter_S50000x32x32_S528x2_S50000x528_0_12_12_1_wf : ScatterDims.WF S50000x32x32 S528x2 S50000x528 [0] [1, 2] [1, 2] 1

variable [Facts₀]

def dot_S50000x128_S128x528_S50000x528_1_0_0_1_n_n : DotDims S50000x128 S128x528 S50000x528 where
  lhsContracting := [1]
  rhsContracting := [0]
  lhsNonContracting := [0]
  rhsNonContracting := [1]
  lhsBatch := []
  rhsBatch := []
  wf := dot_S50000x128_S128x528_S50000x528_1_0_0_1_n_n_wf
def scatter_S528_S1024x1_S1024_n_0_0_1 : ScatterDims S528 S1024x1 S1024 where
  updateWindowDims := []
  insertedWindowDims := [0]
  scatterDimsToOperandDims := [0]
  indexVectorDim := 1
  wf := scatter_S528_S1024x1_S1024_n_0_0_1_wf
def scatter_S50000x32x32_S528x2_S50000x528_0_12_12_1 : ScatterDims S50000x32x32 S528x2 S50000x528 where
  updateWindowDims := [0]
  insertedWindowDims := [1, 2]
  scatterDimsToOperandDims := [1, 2]
  indexVectorDim := 1
  wf := scatter_S50000x32x32_S528x2_S50000x528_0_12_12_1_wf

class Facts : Prop extends Facts₀ where

variable [Facts]
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.KerPayload.lean ====
/-
  What the kernel body stores, index by index.

  The body multiplies its block of 2000 node rows by the 128 × 1024 weight block, adds the 1 × 1024 bias row to every
  row, and stores the 2000 × 1024 result re-laid as 2000 × 8 × 128: entry (r, q, l) of the store is entry
  (r, 128·q + l) of the product plus bias, i.e.  Σ_k x (r, k) · w (k, 128·q + l) + bias (0, 128·q + l).
-/
import proofs.«117816_g68075231641772_cont_9to1c4b_264_8_alg».proof.Proof.Gen.KernelIdeal.Skeleton
import proofs.«117816_g68075231641772_cont_9to1c4b_264_8_alg».proof.Proof.LibDotPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerPayload

open Cert.KernelIdeal Cert.KernelIdeal.Gen Idealize.ShloMosaic Idealize.ShloMosaic.ValueIdx
open scoped BigOperators

/-- The stored value at (r, q, l). -/
theorem pay_apply (x0 : Vec Ideal S2000x128 .f32) (x1 : Vec Ideal S128x1024 .f32) (x2 : Vec Ideal S1x1024 .f32)
    (r : Fin 2000) (q : Fin 8) (l : Fin 128) :
    k0_pay1 (F := Ideal) x0 x1 x2 (ix3 r q l)
      = (∑ k : Fin 128, x0 (ix2 r k) * x1 (ix2 k (⟨128 * q.val + l.val, by omega⟩ : Fin 1024)))
        + x2 (ix2 (0 : Fin 1) (⟨128 * q.val + l.val, by omega⟩ : Fin 1024)) := by
  unfold k0_pay1
  -- the re-lay is row-major: (r, q, l) of the store sits at the position of (r, 128·q + l) of the sum
  refine (shapeCast_apply _ _ (ix3 r q l) (ix2 r (⟨128 * q.val + l.val, by omega⟩ : Fin 1024)) ?_).trans ?_
  · rw [Shape.rowMajor_val_two, Shape.rowMajor_val_three]
    show r.val * 1024 + (128 * q.val + l.val) = (r.val * 8 + q.val) * 128 + l.val
    omega
  -- the two casts to the same shape are identities
  rw [shapeCast_self, shapeCast_self]
  refine (addf_apply _ _ _).trans ?_
  refine congrArg₂ (· + ·) ?_ ?_
  · -- the product into the zero accumulator is the sum over the contracted coordinate
    exact Cert.DotPlain.matmul_zero_rows_cols dot_S2000x128_S128x1024_S2000x1024_1_0_0_1_n_n rfl rfl rfl rfl rfl rfl none
      x0 x1 r (⟨128 * q.val + l.val, by omega⟩ : Fin 1024)
  · -- the bias row copied down the rows: row coordinate 0, the same column
    exact broadcastTo_apply x2 broadcasts_S1x1024_S2000x1024 (ix2 r (⟨128 * q.val + l.val, by omega⟩ : Fin 1024))
      (ix2 (0 : Fin 1) (⟨128 * q.val + l.val, by omega⟩ : Fin 1024))
      (fun a => match a with
        | ⟨0, _⟩ => rfl
        | ⟨1, _⟩ => rfl)

end Cert.KernelIdeal.KerPayload

end
-- ==== Proof.Spec.lean ====
/-
  The function both programs compute, stated once over the argument arrays.

  A projection row proj[n, ·] = x[n, ·] · Wᵀ + b has 528 entries, one per unordered pair {i, j} of 0 ≤ i, j < 32.
  The pairs with i ≤ j are numbered row by row: pair (i, j) has the number
      tri (i, j) = 32·i − i·(i − 1)/2 + (j − i),
  the count of pairs that precede it. The symmetric 32 × 32 matrix built from the row has, at (i, j), entry number
  tri (min i j, max i j) of the row. So, index by index,
      G x W b (n, i, j) = Σ_k x (n, k) · W (tri i j, k) + b (tri i j).

  The inverse numbering: `nzN p` is the flat position 32·i + j of the pair numbered p, i.e. the p-th position of the
  32 × 32 grid, in row-major order, that lies on or above the diagonal. The two numberings are inverse to each other
  (`nzN_tri`, `tri_nz`); both facts are finite checks over the 32 × 32 grid.
-/
import Idealize.ShloMosaic.PureOps.Ideal
import Idealize.ShloMosaic.Lib.ValueIdx

noncomputable section

namespace Cert.Spec

open Idealize.ShloMosaic Idealize.ShloMosaic.ValueIdx
open scoped BigOperators

/-- Flat position f = 32·i + j lies on or above the diagonal: i ≤ j. -/
def upper (f : Nat) : Bool := decide (f / 32 ≤ f % 32)

/-- The flat positions on or above the diagonal, in increasing order. -/
def nzList : List Nat := (List.range 1024).filter upper

/-- The flat position of the pair numbered `p` (0 past the last pair). -/
def nzN (p : Nat) : Nat := nzList.getD p 0

/-- The number of flat positions ≤ f on or above the diagonal. -/
def cntN (f : Nat) : Nat := ((List.range (f + 1)).filter upper).length

/-- The number of the unordered pair {i, j}. -/
def triN (i j : Nat) : Nat := 32 * min i j - min i j * (min i j - 1) / 2 + (max i j - min i j)

theorem triN_comm (i j : Nat) : triN i j = triN j i := by
  unfold triN; rw [Nat.min_comm, Nat.max_comm]

theorem triN_lt : ∀ i j : Fin 32, triN i.val j.val < 528 := by decide +kernel

/-- The number of the unordered pair {i, j}, as an index into a projection row. -/
def tri (i j : Fin 32) : Fin 528 := ⟨triN i.val j.val, triN_lt i j⟩

theorem tri_comm (i j : Fin 32) : tri i j = tri j i := Fin.ext (triN_comm _ _)

/-- The flat position of (i, j) in the 32 × 32 grid. -/
def flat32 (i j : Fin 32) : Fin 1024 := ⟨32 * i.val + j.val, by omega⟩

/-- The number of the pair a flat position belongs to. -/
def triF (f : Fin 1024) : Fin 528 := tri ⟨f.val / 32, by omega⟩ ⟨f.val % 32, Nat.mod_lt _ (by decide)⟩

theorem triF_flat32 (i j : Fin 32) : triF (flat32 i j) = tri i j := by
  unfold triF flat32
  congr 1 <;> apply Fin.ext <;> simp only <;> omega

/-- The pair numbered tri (i, j), i ≤ j, sits at flat position 32·i + j. -/
theorem nzN_tri : ∀ i j : Fin 32, i ≤ j → nzN (triN i.val j.val) = 32 * i.val + j.val := by decide +kernel

/-- Every number p < 528 is the number of the pair at its flat position, which is on or above the diagonal. -/
theorem tri_nz : ∀ p : Fin 528, nzN p.val < 1024 ∧ nzN p.val / 32 ≤ nzN p.val % 32
    ∧ triN (nzN p.val / 32) (nzN p.val % 32) = p.val := by decide +kernel

/-- The common result at (n, i, j). -/
def Gat (x : (⟨2, ![50000, 128]⟩ : Shape).Idx → EReal) (W : (⟨2, ![528, 128]⟩ : Shape).Idx → EReal)
    (b : (⟨1, ![528]⟩ : Shape).Idx → EReal) (n : Fin 50000) (i j : Fin 32) : EReal :=
  (∑ k : Fin 128, x (ix2 n k) * W (ix2 (tri i j) k)) + b (ix1 (tri i j))

/-- The common result array. -/
def G (x : (⟨2, ![50000, 128]⟩ : Shape).Idx → EReal) (W : (⟨2, ![528, 128]⟩ : Shape).Idx → EReal)
    (b : (⟨1, ![528]⟩ : Shape).Idx → EReal) : (⟨3, ![50000, 32, 32]⟩ : Shape).Idx → EReal :=
  fun y => Gat x W b (y 0) (y 1) (y 2)

theorem G_apply (x : (⟨2, ![50000, 128]⟩ : Shape).Idx → EReal) (W : (⟨2, ![528, 128]⟩ : Shape).Idx → EReal)
    (b : (⟨1, ![528]⟩ : Shape).Idx → EReal) (n : Fin 50000) (i j : Fin 32) :
    G x W b (ix3 n i j) = Gat x W b n i j := rfl

end Cert.Spec

end
-- ==== Proof.LibScatterGather.lean ====
/- The host's accumulating scatter and its row gather, read at one index, for the shapes that a segment sum
   over a list of edges and a row lookup by a list of edges take: a vector or a matrix of rows indexed by an
   [E × 1] column of signed index words.

   An update whose index word, read signed, lies in [0, N) is added into that row; any other update is dropped.
   A gathered row is the row at the index word read signed and clamped into [0, N − 1]. -/
import Idealize.ShloMosaic.PureOps.Ideal
import Idealize.ShloMosaic.Lib.ValueIdx
import Idealize.ShloMosaic.Lib.StableHlo.Predicate

noncomputable section

namespace Cert.ScatterGather

open Idealize.ShloMosaic Idealize.ShloMosaic.ValueIdx
open scoped BigOperators

/-- The row an index word names for a scatter into `N` rows: the word read signed, when it lies in [0, N);
    no row otherwise (the update is dropped). -/
def tgtW (N : Nat) {w : Nat} (x : BitVec w) : Option (Fin N) :=
  if h : 0 ≤ x.toInt ∧ x.toInt < (N : Int) then some ⟨x.toInt.toNat, by omega⟩ else none

/-- The row an index word names for a gather from `N` rows: the word read signed and clamped into [0, N − 1]. -/
def rowW (N : Nat) (hN : 0 < N) {w : Nat} (x : BitVec w) : Fin N := ⟨min x.toInt.toNat (N - 1), by omega⟩

/-- A word that names row `i` for the scatter names the same row for the gather. -/
theorem rowW_of_tgtW {N : Nat} (hN : 0 < N) {w : Nat} (x : BitVec w) (i : Fin N) (h : tgtW N x = some i) :
    rowW N hN x = i := by
  unfold tgtW at h
  split at h
  · next hx =>
    have hi : (⟨x.toInt.toNat, by omega⟩ : Fin N) = i := Option.some.inj h
    subst hi
    apply Fin.ext
    show min x.toInt.toNat (N - 1) = x.toInt.toNat
    omega
  · exact absurd h (by simp)

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The scatter into a vector -/

section Vec

variable {N E w : Nat} (d : ScatterDims ⟨1, ![N]⟩ ⟨2, ![E, 1]⟩ ⟨1, ![E]⟩)

/-- The start of update `e`'s window on the operand's one axis: the e-th index word, read signed. -/
theorem start_vec (hs : d.scatterDimsToOperandDims = [0]) (hv : d.indexVectorDim = 1)
    (idx : IVec ⟨2, ![E, 1]⟩ w) (e : Fin E) :
    d.start (ix1 e) idx 0 = (idx (ix2 e 0)).toInt := by
  have hm : (0 : Fin 1) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    have e' : ∀ X : Fin 1, ((ix1 e : (⟨1, ![E]⟩ : Shape).Idx) X).val = e.val := fun X => by
      have hX : X = 0 := Subsingleton.elim _ _
      subst hX; rfl
    exact e' _
  | ⟨1, _⟩ =>
    unfold ScatterDims.siIdx
    rw [dif_pos (by rw [hv])]
    apply Fin.ext
    show List.idxOf (0 : Fin 1) d.scatterDimsToOperandDims = 0
    rw [hs]; simp

/-- The operand's one axis is inserted: the window coordinate there is 0. -/
theorem window_vec (hi : d.insertedWindowDims = [0]) (j : (⟨1, ![E]⟩ : Shape).Idx) : d.window j 0 = 0 := by
  have hk : (0 : Fin 1) ∉ d.sKept := by simp [ScatterDims.sKept, Shape.kept, hi]
  unfold ScatterDims.window
  rw [dif_neg hk]

/-- Where update `e` lands: the row its index word names, when it names one. -/
theorem resultIdx?_vec (hi : d.insertedWindowDims = [0])
    (hs : d.scatterDimsToOperandDims = [0]) (hv : d.indexVectorDim = 1)
    (idx : IVec ⟨2, ![E, 1]⟩ w) (e : Fin E) :
    d.resultIdx? (ix1 e) idx = (tgtW N (idx (ix2 e 0))).map ix1 := by
  have hst := start_vec d hs hv idx e
  have hwi := window_vec d hi (ix1 e)
  unfold ScatterDims.resultIdx? tgtW
  by_cases hx : 0 ≤ (idx (ix2 e 0)).toInt ∧ (idx (ix2 e 0)).toInt < (N : Int)
  · have hall : ∀ a : Fin 1, 0 ≤ d.start (ix1 e) idx a + d.window (ix1 e) a ∧
        d.start (ix1 e) idx a + d.window (ix1 e) a < (⟨1, ![N]⟩ : Shape).size a := fun a => by
      obtain rfl : a = 0 := Subsingleton.elim _ _
      rw [hst, hwi]
      show 0 ≤ (idx (ix2 e 0)).toInt + ((0 : Nat) : Int) ∧ (idx (ix2 e 0)).toInt + ((0 : Nat) : Int) < (N : Int)
      omega
    rw [dif_pos hall, dif_pos hx]
    show some _ = some _
    congr 1
    funext a
    obtain rfl : a = 0 := Subsingleton.elim _ _
    apply Fin.ext
    show (d.start (ix1 e) idx 0 + d.window (ix1 e) 0).toNat = (idx (ix2 e 0)).toInt.toNat
    rw [hst, hwi]
    simp
  · have hnall : ¬ ∀ a : Fin 1, 0 ≤ d.start (ix1 e) idx a + d.window (ix1 e) a ∧
        d.start (ix1 e) idx a + d.window (ix1 e) a < (⟨1, ![N]⟩ : Shape).size a := fun hall => by
      have h0 := hall 0
      rw [hst, hwi] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Vec

/-- The scatter-add into a vector, at row `i`: the operand there plus the updates whose index word names row `i`. -/
theorem scatterAdd_vec_apply {N E w : Nat}
    (d : ScatterDims ⟨1, ![N]⟩ ⟨2, ![E, 1]⟩ ⟨1, ![E]⟩)
    (hu : d.updateWindowDims = []) (hi : d.insertedWindowDims = [0])
    (hs : d.scatterDimsToOperandDims = [0]) (hv : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e ∈ Finset.univ.filter (fun e : Fin E => tgtW N (idx (ix2 e 0)) = some i), upd (ix1 e) := by
  show x (ix1 i) + ∑ j ∈ Finset.univ.filter (fun j => d.resultIdx? j idx = some (ix1 i)), upd j = _
  congr 1
  rw [Finset.sum_filter, Finset.sum_filter, sum_idx1]
  refine Finset.sum_congr rfl fun e _ => ?_
  have hiff : d.resultIdx? (ix1 e) idx = some (ix1 i) ↔ tgtW N (idx (ix2 e 0)) = some i := by
    rw [resultIdx?_vec d hi hs hv idx e]
    cases tgtW N (idx (ix2 e 0)) with
    | none => simp
    | some r =>
      simp only [Option.map_some, Option.some.injEq]
      constructor
      · intro h'
        exact congrFun h' 0
      · intro h'
        rw [h']
  exact if_congr hiff rfl rfl

/-! ## The scatter of rows into a matrix -/

/-- The first coordinate of a rank-2 index, read on an axis known to be axis 0. -/
theorem ix2_val_axis0 {n0 n1 : Nat} (a : Fin n0) (b : Fin n1) (X : Fin 2) (hX : X = 0) :
    ((ix2 a b : (⟨2, ![n0, n1]⟩ : Shape).Idx) X).val = a.val := by
  subst hX; rfl

/-- The second coordinate of a rank-2 index, read on an axis known to be axis 1. -/
theorem ix2_val_axis1 {n0 n1 : Nat} (a : Fin n0) (b : Fin n1) (X : Fin 2) (hX : X = 1) :
    ((ix2 a b : (⟨2, ![n0, n1]⟩ : Shape).Idx) X).val = b.val := by
  subst hX; rfl

section Rows

variable {N H E w : Nat} (d : ScatterDims ⟨2, ![N, H]⟩ ⟨2, ![E, 1]⟩ ⟨2, ![E, H]⟩)

/-- The updates' scatter axis is axis 0 (axis 1 is the window axis). -/
theorem uScatter_rows (hu : d.updateWindowDims = [1]) : d.uScatter = [0] := by
  show (List.finRange 2).filter (fun a => a ∉ d.updateWindowDims) = [0]
  rw [hu]
  exact (by decide : (List.finRange 2).filter (fun a : Fin 2 => a ∉ [(1 : Fin 2)]) = [(0 : Fin 2)])

/-- The operand's kept axis is axis 1 (axis 0 is inserted). -/
theorem sKept_rows (hi : d.insertedWindowDims = [0]) : d.sKept = [1] := by
  show (List.finRange 2).filter (fun a => a ∉ d.insertedWindowDims) = [1]
  rw [hi]
  exact (by decide : (List.finRange 2).filter (fun a : Fin 2 => a ∉ [(0 : Fin 2)]) = [(1 : Fin 2)])

/-- The start of update (e, c)'s window on the operand's row axis: the e-th index word, read signed. -/
theorem start_rows0 (hu : d.updateWindowDims = [1])
    (hs : d.scatterDimsToOperandDims = [0]) (hv : d.indexVectorDim = 1)
    (idx : IVec ⟨2, ![E, 1]⟩ w) (e : Fin E) (c : Fin H) :
    d.start (ix2 e c) idx 0 = (idx (ix2 e 0)).toInt := by
  have hm : (0 : Fin 2) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    refine ix2_val_axis0 e c _ ?_
    have hall : ∀ X ∈ d.uScatter, X = 0 := by
      rw [uScatter_rows d hu]; intro X hX; exact List.mem_singleton.mp hX
    exact hall _ (List.getElem_mem _)
  | ⟨1, _⟩ =>
    unfold ScatterDims.siIdx
    rw [dif_pos (by rw [hv])]
    apply Fin.ext
    show List.idxOf (0 : Fin 2) d.scatterDimsToOperandDims = 0
    rw [hs]; simp

/-- The start index names no column: the window starts at column 0. -/
theorem start_rows1 (hs : d.scatterDimsToOperandDims = [0])
    (idx : IVec ⟨2, ![E, 1]⟩ w) (j : (⟨2, ![E, H]⟩ : Shape).Idx) : d.start j idx 1 = 0 := by
  have hm : (1 : Fin 2) ∉ d.scatterDimsToOperandDims := by
    rw [hs]; exact (by decide : (1 : Fin 2) ∉ [(0 : Fin 2)])
  unfold ScatterDims.start
  rw [dif_neg hm]

/-- The operand's row axis is inserted: the window coordinate there is 0. -/
theorem window_rows0 (hi : d.insertedWindowDims = [0]) (j : (⟨2, ![E, H]⟩ : Shape).Idx) : d.window j 0 = 0 := by
  have hk : (0 : Fin 2) ∉ d.sKept := by
    rw [sKept_rows d hi]; exact (by decide : (0 : Fin 2) ∉ [(1 : Fin 2)])
  unfold ScatterDims.window
  rw [dif_neg hk]

/-- The operand's column axis is the window axis: the window coordinate there is the update's column. -/
theorem window_rows1 (hu : d.updateWindowDims = [1]) (hi : d.insertedWindowDims = [0]) (e : Fin E) (c : Fin H) :
    d.window (ix2 e c) 1 = c.val := by
  have hk : (1 : Fin 2) ∈ d.sKept := by rw [sKept_rows d hi]; exact List.mem_singleton.mpr rfl
  unfold ScatterDims.window
  rw [dif_pos hk]
  refine ix2_val_axis1 e c _ ?_
  have hall : ∀ X ∈ d.updateWindowDims, X = 1 := by
    rw [hu]; intro X hX; exact List.mem_singleton.mp hX
  exact hall _ (List.getElem_mem _)

/-- Where update (e, c) lands: column `c` of the row its index word names, when it names one. -/
theorem resultIdx?_rows (hu : d.updateWindowDims = [1]) (hi : d.insertedWindowDims = [0])
    (hs : d.scatterDimsToOperandDims = [0]) (hv : d.indexVectorDim = 1)
    (idx : IVec ⟨2, ![E, 1]⟩ w) (e : Fin E) (c : Fin H) :
    d.resultIdx? (ix2 e c) idx = (tgtW N (idx (ix2 e 0))).map (fun r => ix2 r c) := by
  have hst0 := start_rows0 d hu hs hv idx e c
  have hst1 := start_rows1 d hs idx (ix2 e c)
  have hwi0 := window_rows0 d hi (ix2 e c)
  have hwi1 := window_rows1 d hu hi e c
  have hc := c.isLt
  unfold ScatterDims.resultIdx? tgtW
  by_cases hx : 0 ≤ (idx (ix2 e 0)).toInt ∧ (idx (ix2 e 0)).toInt < (N : Int)
  · have hall : ∀ a : Fin 2, 0 ≤ d.start (ix2 e c) idx a + d.window (ix2 e c) a ∧
        d.start (ix2 e c) idx a + d.window (ix2 e c) a < (⟨2, ![N, H]⟩ : Shape).size a := by
      refine Fin.forall_fin_two.2 ⟨?_, ?_⟩
      · rw [hst0, hwi0]
        show 0 ≤ (idx (ix2 e 0)).toInt + ((0 : Nat) : Int) ∧ (idx (ix2 e 0)).toInt + ((0 : Nat) : Int) < (N : Int)
        omega
      · rw [hst1, hwi1]
        show 0 ≤ (0 : Int) + (c.val : Int) ∧ (0 : Int) + (c.val : Int) < (H : Int)
        omega
    rw [dif_pos hall, dif_pos hx]
    show some _ = some _
    congr 1
    have hpt : ∀ a : Fin 2,
        (⟨(d.start (ix2 e c) idx a + d.window (ix2 e c) a).toNat, by have := hall a; omega⟩ :
          Fin ((⟨2, ![N, H]⟩ : Shape).size a))
        = (ix2 (⟨(idx (ix2 e 0)).toInt.toNat, by omega⟩ : Fin N) c : (⟨2, ![N, H]⟩ : Shape).Idx) a := by
      refine Fin.forall_fin_two.2 ⟨?_, ?_⟩
      · apply Fin.ext
        show (d.start (ix2 e c) idx 0 + d.window (ix2 e c) 0).toNat = (idx (ix2 e 0)).toInt.toNat
        rw [hst0, hwi0]
        simp
      · apply Fin.ext
        show (d.start (ix2 e c) idx 1 + d.window (ix2 e c) 1).toNat = c.val
        rw [hst1, hwi1]
        simp
    funext a
    exact hpt a
  · have hnall : ¬ ∀ a : Fin 2, 0 ≤ d.start (ix2 e c) idx a + d.window (ix2 e c) a ∧
        d.start (ix2 e c) idx a + d.window (ix2 e c) a < (⟨2, ![N, H]⟩ : Shape).size a := fun hall => by
      have h0 := hall 0
      rw [hst0, hwi0] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Rows

/-- The scatter-add of rows into a matrix, at (i, j): the operand there plus column `j` of the update rows whose
    index word names row `i`. -/
theorem scatterAdd_rows_apply {N H E w : Nat}
    (d : ScatterDims ⟨2, ![N, H]⟩ ⟨2, ![E, 1]⟩ ⟨2, ![E, H]⟩)
    (hu : d.updateWindowDims = [1]) (hi : d.insertedWindowDims = [0])
    (hs : d.scatterDimsToOperandDims = [0]) (hv : d.indexVectorDim = 1)
    (x : (⟨2, ![N, H]⟩ : Shape).Idx → EReal) (idx : IVec ⟨2, ![E, 1]⟩ w) (upd : (⟨2, ![E, H]⟩ : Shape).Idx → EReal)
    (i : Fin N) (j : Fin H) :
    Ideal.hostScatterAdd d x idx upd (ix2 i j)
      = x (ix2 i j) + ∑ e ∈ Finset.univ.filter (fun e : Fin E => tgtW N (idx (ix2 e 0)) = some i), upd (ix2 e j) := by
  show x (ix2 i j) + ∑ u ∈ Finset.univ.filter (fun u => d.resultIdx? u idx = some (ix2 i j)), upd u = _
  congr 1
  rw [Finset.sum_filter, Finset.sum_filter, sum_idx2]
  refine Finset.sum_congr rfl fun e _ => ?_
  have hiff : ∀ c : Fin H, d.resultIdx? (ix2 e c) idx = some (ix2 i j) ↔ (tgtW N (idx (ix2 e 0)) = some i ∧ c = j) := by
    intro c
    rw [resultIdx?_rows d hu hi hs hv idx e c]
    cases tgtW N (idx (ix2 e 0)) with
    | none => simp
    | some r =>
      simp only [Option.map_some, Option.some.injEq]
      constructor
      · intro h'
        exact ⟨congrFun h' 0, congrFun h' 1⟩
      · rintro ⟨h1, h2⟩
        rw [h1, h2]
  by_cases hq : tgtW N (idx (ix2 e 0)) = some i
  · rw [if_pos hq]
    rw [Finset.sum_eq_single j]
    · rw [if_pos ((hiff j).2 ⟨hq, rfl⟩)]
    · intro c _ hcj
      rw [if_neg (fun h => hcj ((hiff c).1 h).2)]
    · intro hj
      exact absurd (Finset.mem_univ j) hj
  · rw [if_neg hq]
    refine Finset.sum_eq_zero fun c _ => ?_
    rw [if_neg (fun h => hq ((hiff c).1 h).1)]

/-! ## The row gather -/

section GatherRows

variable {N H E w : Nat} (d : GatherDims ⟨2, ![N, H]⟩ ⟨2, ![E, 1]⟩ ⟨2, ![E, H]⟩)

/-- The operand's kept axis is the column axis (the row axis is collapsed). -/
theorem gather_sKept_rows (hcoll : d.collapsedSliceDims = [0]) (hob : d.operandBatchingDims = []) : d.sKept = [1] := by
  show (List.finRange 2).filter (fun a => a ∉ d.collapsedSliceDims ++ d.operandBatchingDims) = [1]
  rw [hcoll, hob]
  exact (by decide : (List.finRange 2).filter (fun a : Fin 2 => a ∉ [(0 : Fin 2)] ++ []) = [(1 : Fin 2)])

/-- The result's batch axis is axis 0 (axis 1 is the offset axis). -/
theorem gather_batchDims_rows (hoff : d.offsetDims = [1]) : d.batchDims = [0] := by
  show (List.finRange 2).filter (fun a => a ∉ d.offsetDims) = [0]
  rw [hoff]
  exact (by decide : (List.finRange 2).filter (fun a : Fin 2 => a ∉ [(1 : Fin 2)]) = [(0 : Fin 2)])

/-- Result index (e, j) reads its start index at row `e` of the column of index words. -/
theorem gather_siIdx_rows (hoff : d.offsetDims = [1]) (hsim : d.startIndexMap = [0]) (hivd : d.indexVectorDim = 1)
    (e : Fin E) (j : Fin H) (c : Fin d.startIndexMap.length) :
    d.siIdx (ix2 e j) c = ix2 e 0 := by
  funext b
  match b with
  | ⟨0, _⟩ =>
    unfold GatherDims.siIdx
    rw [dif_neg (by rw [hivd]; simp)]
    unfold GatherDims.siCoord
    apply Fin.ext
    simp only [Fin.val_cast]
    refine ix2_val_axis0 e j _ ?_
    have hall : ∀ X ∈ d.batchDims, X = 0 := by
      rw [gather_batchDims_rows d hoff]; intro X hX; exact List.mem_singleton.mp hX
    exact hall _ (List.getElem_mem _)
  | ⟨1, _⟩ =>
    unfold GatherDims.siIdx
    rw [dif_pos (by rw [hivd])]
    apply Fin.ext
    show c.val = 0
    have hlen : d.startIndexMap.length = 1 := by rw [hsim]; rfl
    have hc := c.isLt
    omega

/-- The start of the slice on the row axis: the e-th index word read signed and clamped into [0, N − 1]. -/
theorem gather_start_rows0 (hoff : d.offsetDims = [1]) (hcoll : d.collapsedSliceDims = [0])
    (hsim : d.startIndexMap = [0]) (hivd : d.indexVectorDim = 1)
    (idx : IVec ⟨2, ![E, 1]⟩ w) (e : Fin E) (j : Fin H) :
    d.start (ix2 e j) idx 0 = min (idx (ix2 e 0)).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, gather_siIdx_rows d hoff hsim hivd e j]
  show min (idx (ix2 e 0)).toInt.toNat (N - d.sliceSizes 0) = _
  rw [hsl]

/-- The start index names no column: the slice starts at column 0. -/
theorem gather_start_rows1 (hsim : d.startIndexMap = [0])
    (idx : IVec ⟨2, ![E, 1]⟩ w) (y : (⟨2, ![E, H]⟩ : Shape).Idx) : d.start y idx 1 = 0 := by
  have hm : (1 : Fin 2) ∉ d.startIndexMap := by
    rw [hsim]; exact (by decide : (1 : Fin 2) ∉ [(0 : Fin 2)])
  unfold GatherDims.start
  rw [dif_neg hm]

/-- The offset coordinate on the column axis is the result's column. -/
theorem gather_offCoord_rows1 (hoff : d.offsetDims = [1]) (hcoll : d.collapsedSliceDims = [0])
    (hob : d.operandBatchingDims = []) (e : Fin E) (j : Fin H) :
    d.offCoord (ix2 e j) 1 = j.val := by
  have hk : (1 : Fin 2) ∈ d.sKept := by rw [gather_sKept_rows d hcoll hob]; exact List.mem_singleton.mpr rfl
  unfold GatherDims.offCoord
  rw [dif_pos hk]
  refine ix2_val_axis1 e j _ ?_
  have hall : ∀ X ∈ d.offsetDims, X = 1 := by
    rw [hoff]; intro X hX; exact List.mem_singleton.mp hX
  exact hall _ (List.getElem_mem _)

end GatherRows

/-- The gather of rows of a matrix, at (e, j): column `j` of the row the e-th index word names. -/
theorem gather_rows_apply {α : Type} {N H E w : Nat} (hN : 0 < N)
    (d : GatherDims ⟨2, ![N, H]⟩ ⟨2, ![E, 1]⟩ ⟨2, ![E, H]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, H])
    (x : (⟨2, ![N, H]⟩ : Shape).Idx → α) (idx : IVec ⟨2, ![E, 1]⟩ w) (e : Fin E) (j : Fin H) :
    Host.gather d x idx (ix2 e j) = x (ix2 (rowW N hN (idx (ix2 e 0))) j) := by
  unfold Host.gather
  congr 1
  have hb : ∀ a : Fin 2, a ∉ d.operandBatchingDims := fun a => by rw [hob]; exact List.not_mem_nil
  have hk0 : (0 : Fin 2) ∉ d.sKept := by
    rw [gather_sKept_rows d hcoll hob]; exact (by decide : (0 : Fin 2) ∉ [(1 : Fin 2)])
  have hpt : ∀ a : Fin 2, d.operandIdx (ix2 e j) idx a
      = (ix2 (rowW N hN (idx (ix2 e 0))) j : (⟨2, ![N, H]⟩ : Shape).Idx) a := by
    refine Fin.forall_fin_two.2 ⟨?_, ?_⟩
    · apply Fin.ext
      show d.start (ix2 e j) idx 0 + d.batchCoord (ix2 e j) 0 + d.offCoord (ix2 e j) 0
        = min (idx (ix2 e 0)).toInt.toNat (N - 1)
      rw [GatherDims.batchCoord_eq_zero _ _ _ (hb 0), GatherDims.offCoord_eq_zero _ _ _ hk0,
        gather_start_rows0 d hoff hcoll hsim hivd idx e j]
      simp only [Nat.add_zero]
    · apply Fin.ext
      show d.start (ix2 e j) idx 1 + d.batchCoord (ix2 e j) 1 + d.offCoord (ix2 e j) 1 = j.val
      rw [GatherDims.batchCoord_eq_zero _ _ _ (hb 1), gather_offCoord_rows1 d hoff hcoll hob e j,
        gather_start_rows1 d hsim idx (ix2 e j)]
      omega
  funext a
  exact hpt a

/-- The gather of entries of a vector, at `e`: the entry the e-th index word names (the library's take, restated
    with `rowW`). -/
theorem gather_vec_apply {α : Type} {N E w : Nat} (hN : 0 < N)
    (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) :
    Host.gather d x idx (ix1 e) = x (ix1 (rowW N hN (idx (ix2 e 0)))) := by
  have h := StableHlo.Predicate.gather_take d hcoll hob hsim hivd x idx e hN
  have h1 : (Shape.Idx.ofFin e : (⟨1, ![E]⟩ : Shape).Idx) = ix1 e := by
    funext a
    match a with
    | ⟨0, _⟩ => rfl
  have h2 : (StableHlo.Predicate.ixP e : (⟨2, ![E, 1]⟩ : Shape).Idx) = ix2 e 0 := by
    funext a
    match a with
    | ⟨0, _⟩ => rfl
    | ⟨1, _⟩ => rfl
  rw [h1] at h
  rw [h]
  congr 1
  funext a
  match a with
  | ⟨0, _⟩ =>
    apply Fin.ext
    show min (idx (StableHlo.Predicate.ixP e)).toInt.toNat (N - 1) = min (idx (ix2 e 0)).toInt.toNat (N - 1)
    rw [h2]

end Cert.ScatterGather

end
-- ==== Proof.KerHost.lean ====
/-
  The two arrays the host prepares for the kernel, index by index.

  The host gathers the rows of W and the entries of b through a constant table of 1024 words: word f = 32·i + j is
  the number tri {i, j} of the unordered pair (a finite check of the table against the closed form). So the
  transposed gathered weights have, at (k, f), the entry W (tri {i, j}, k), and the gathered bias row has, at (0, f),
  the entry b (tri {i, j}).
-/
import proofs.«117816_g68075231641772_cont_9to1c4b_264_8_alg».proof.Proof.Gen.KernelIdeal.Frame
import proofs.«117816_g68075231641772_cont_9to1c4b_264_8_alg».proof.Proof.Spec
import proofs.«117816_g68075231641772_cont_9to1c4b_264_8_alg».proof.Proof.LibScatterGather
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KerHost

open Cert.KernelIdeal Cert.KernelIdeal.Gen Idealize.ShloMosaic Idealize.ShloMosaic.TcCoe Idealize.ShloMosaic.ValueIdx Idealize.SL.Sem

/-- The column of 1024 index words as the host builds it: the constant table where a constant-false mask selects the
    table itself over the table shifted by 528. -/
def idxCol : IVec S1024x1 32 :=
  broadcastInDim S1024x1 ![0] bcast_S1024_S1024x1_0
    (select (constantI S1024 1 0#1)
      (addi (fun i => lit0 (S1024.rowMajor i)) (broadcastInDim S1024 ![] bcast_S_S1024 (constantI S_ 32 528#32)))
      (fun i => lit0 (S1024.rowMajor i)))

/-- Row f of the column is word f of the table: the mask is false everywhere, so the unshifted table is selected, and a
    rank-1 row-major position is the coordinate. -/
theorem idxCol_apply (f : Fin 1024) : idxCol (ix2 f (0 : Fin 1)) = lit0 f := by
  unfold idxCol
  refine (broadcastInDim_apply _ _ _ (ix2 f (0 : Fin 1)) (ix1 f) (fun a => match a with | ⟨0, _⟩ => rfl)).trans ?_
  refine (select_apply _ _ _ _).trans ?_
  refine (select_zero _ _).trans ?_
  exact congrArg lit0 (Fin.ext (Shape.rowMajor_val_one _))

/-- Word f = 32·i + j of the table, read as a row of a 528-row array, is the number of the pair {i, j}: a finite check
    of the 1024 words. -/
theorem table_eq : ∀ f : Fin 1024, Cert.ScatterGather.rowW 528 (by decide) (lit0 f) = Cert.Spec.triF f := by
  decide +kernel

variable (m : (ℓ : Loc nD τ sig) → Buf (Elt Ideal) ℓ)

/-- The weight array the region finds is the transposed row gather of W through the index column. -/
theorem V_v5_eq (c : Dev nD) :
    (V m c main_v5 : FVec Ideal S128x1024 .f32)
      = transpose S128x1024 [1, 0]
          (Host.gather gather_S528x128_S1024x1_S1024x128_1_0_n_n_0_1_1128
            (m ((c : Thread nD τ).loc main_arg1) : FVec Ideal S528x128 .f32) idxCol)
          transposes_S1024x128_S128x1024_1_0 := by
  show StableHlo.after hostOps0 (fun b => m (c, b)) (Proc.devRef .tc main_v5) = _
  after_results
  rfl

/-- The bias row the region finds is the gather of b through the index column, laid as one row. -/
theorem V_v11_eq (c : Dev nD) :
    (V m c main_v11 : FVec Ideal S1x1024 .f32)
      = broadcastInDim S1x1024 ![1] bcast_S1024_S1x1024_1
          (Host.gather gather_S528_S1024x1_S1024_n_0_n_n_0_1_1
            (m ((c : Thread nD τ).loc main_arg2) : FVec Ideal S528 .f32) idxCol) := by
  show StableHlo.after hostOps0 (fun b => m (c, b)) (Proc.devRef .tc main_v11) = _
  after_results
  rfl

/-- The weight array the region finds: at (k, f), the entry of W at row tri {f / 32, f mod 32}, column k. -/
theorem V_v5_apply (c : Dev nD) (k : Fin 128) (f : Fin 1024) :
    (V m c main_v5 : FVec Ideal S128x1024 .f32) (ix2 k f)
      = (m ((c : Thread nD τ).loc main_arg1) : FVec Ideal S528x128 .f32) (ix2 (Cert.Spec.triF f) k) := by
  rw [V_v5_eq m c]
  -- the transpose reads the gathered rows at (f, k)
  refine (transpose_apply _ _ _ (ix2 k f) (ix2 f k) (fun b => match b with
    | ⟨0, _⟩ => rfl
    | ⟨1, _⟩ => rfl)).trans ?_
  -- a gathered row is the row of W its index word names
  refine (Cert.ScatterGather.gather_rows_apply (by decide) gather_S528x128_S1024x1_S1024x128_1_0_n_n_0_1_1128
    rfl rfl rfl rfl rfl rfl rfl _ _ f k).trans ?_
  rw [idxCol_apply, table_eq]

/-- The bias row the region finds: at (0, f), the entry of b at tri {f / 32, f mod 32}. -/
theorem V_v11_apply (c : Dev nD) (f : Fin 1024) :
    (V m c main_v11 : FVec Ideal S1x1024 .f32) (ix2 (0 : Fin 1) f)
      = (m ((c : Thread nD τ).loc main_arg2) : FVec Ideal S528 .f32) (ix1 (Cert.Spec.triF f)) := by
  rw [V_v11_eq m c]
  -- the one row of the result reads the gathered vector at f
  refine (broadcastInDim_apply _ _ _ (ix2 (0 : Fin 1) f) (ix1 f) (fun a => match a with | ⟨0, _⟩ => rfl)).trans ?_
  -- a gathered entry is the entry of b its index word names
  refine (Cert.ScatterGather.gather_vec_apply (by decide) gather_S528_S1024x1_S1024_n_0_n_n_0_1_1
    rfl rfl rfl rfl _ _ f).trans ?_
  rw [idxCol_apply, table_eq]

end Cert.KernelIdeal.KerHost

end
-- ==== Proof.KerValue.lean ====
/-
  The kernel program's result, as one function of its argument arrays.

  Grid point t writes rows 2000·t … 2000·t + 1999 of the 50000 × 8 × 128 output from the same rows of x and the
  whole weight and bias blocks; the 25 blocks tile the output. The host then re-lays 50000 × 8 × 128 as
  50000 × 32 × 32: entry (n, i, j) is entry (n, q, l) with 128·q + l = 32·i + j. With the host's weight and bias
  arrays read through the pair numbering, entry (n, i, j) is  Σ_k x (n, k) · W (tri {i, j}, k) + b (tri {i, j}).
-/
import proofs.«117816_g68075231641772_cont_9to1c4b_264_8_alg».proof.Proof.Gen.KernelIdeal.Frame
import proofs.«117816_g68075231641772_cont_9to1c4b_264_8_alg».proof.Proof.KerPayload
import proofs.«117816_g68075231641772_cont_9to1c4b_264_8_alg».proof.Proof.KerHost
import proofs.«117816_g68075231641772_cont_9to1c4b_264_8_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KerValue

open Cert.KernelIdeal Cert.KernelIdeal.Gen Idealize.ShloMosaic Idealize.ShloMosaic.TcCoe Idealize.ShloMosaic.ValueIdx Idealize.SL.Sem
open Idealize.ShloMosaic.Pipeline (Dat)
open scoped BigOperators

section Value

variable (m : (ℓ : Loc nD τ sig) → Buf (Elt Ideal) ℓ)

/-! ## The index maps, the arrays and the blocks -/

/-- The zero offsets of a whole-buffer rectangle, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the grid: point t reads block t of x and writes block t of the output; the weight and bias
    windows do not move. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The three arrays the region reads, as the region finds them: x, the weight array, the bias row. -/
abbrev xarr (c : Dev nD) : FVec Ideal S50000x128 .f32 := V m c main_arg0
abbrev warr (c : Dev nD) : FVec Ideal S128x1024 .f32 := V m c main_v5
abbrev barr (c : Dev nD) : FVec Ideal S1x1024 .f32 := V m c main_v11

/-- Their blocks at point t. -/
abbrev xblk (c : Dev nD) (t : Fin cfg0.N) : Vec Ideal S2000x128 .f32 := iblk m c 0 t
abbrev wblk (c : Dev nD) (t : Fin cfg0.N) : Vec Ideal S128x1024 .f32 := iblk m c 1 t
abbrev bblk (c : Dev nD) (t : Fin cfg0.N) : Vec Ideal S1x1024 .f32 := iblk m c 2 t

/-- The block of x at point t is rows 2000·t … 2000·t + 1999 of x. -/
theorem xblk_apply (c : Dev nD) (t : Fin cfg0.N) (r : Fin 2000) (k : Fin 128) (n : Fin 50000) (hn : n.val = 2000 * t.val + r.val) :
    xblk m c t (ix2 r k) = xarr m c (ix2 n k) := by
  obtain ⟨e0, e1, -⟩ := idx_facts t
  unfold xblk iblk
  rw [View.read_apply]
  show V m c main_arg0 _ = V m c main_arg0 _
  congr 1
  funext a
  apply Fin.ext
  match a with
  | ⟨0, _⟩ => show win0_0.index t (0 : Fin 2) * 2000 + 1 * r.val = n.val; rw [e0, hn]; omega
  | ⟨1, _⟩ => show win0_0.index t (1 : Fin 2) * 128 + 1 * k.val = k.val; rw [e1]; omega

/-- The block of the weight array at every point is the whole array. -/
theorem wblk_eq (c : Dev nD) (t : Fin cfg0.N) : wblk m c t = warr m c := by
  obtain ⟨-, -, e0, e1, -⟩ := idx_facts t
  funext j
  unfold wblk iblk
  rw [View.read_apply]
  show V m c main_v5 _ = V m c main_v5 _
  congr 1
  funext a
  apply Fin.ext
  match a with
  | ⟨0, _⟩ => show win0_1.index t (0 : Fin 2) * 128 + 1 * (j 0).val = (j 0).val; rw [e0]; omega
  | ⟨1, _⟩ => show win0_1.index t (1 : Fin 2) * 1024 + 1 * (j 1).val = (j 1).val; rw [e1]; omega

/-- The block of the bias row at every point is the whole row. -/
theorem bblk_eq (c : Dev nD) (t : Fin cfg0.N) : bblk m c t = barr m c := by
  obtain ⟨-, -, -, -, e0, e1, -⟩ := idx_facts t
  funext j
  unfold bblk iblk
  rw [View.read_apply]
  show V m c main_v11 _ = V m c main_v11 _
  congr 1
  funext a
  apply Fin.ext
  match a with
  | ⟨0, _⟩ => show win0_2.index t (0 : Fin 2) * 1 + 1 * (j 0).val = (j 0).val; rw [e0]; omega
  | ⟨1, _⟩ => show win0_2.index t (1 : Fin 2) * 1024 + 1 * (j 1).val = (j 1).val; rw [e1]; omega

/-! ## The whole output, and what each point writes of it -/

/-- Row n of x against column f of the weight array, plus entry f of the bias row. -/
def Hrow (x : FVec Ideal S50000x128 .f32) (w : FVec Ideal S128x1024 .f32) (b : FVec Ideal S1x1024 .f32)
    (n : Fin 50000) (f : Fin 1024) : EReal :=
  (∑ k : Fin 128, x (ix2 n k) * w (ix2 k f)) + b (ix2 (0 : Fin 1) f)

/-- Entry (n, q, l) of the kernel's whole output from whole arrays: column 128·q + l. -/
def Hat (x : FVec Ideal S50000x128 .f32) (w : FVec Ideal S128x1024 .f32) (b : FVec Ideal S1x1024 .f32)
    (n : Fin 50000) (q : Fin 8) (l : Fin 128) : EReal :=
  Hrow x w b n (⟨128 * q.val + l.val, by omega⟩ : Fin 1024)

/-- The kernel's whole output as one function of whole arrays. -/
def Hof (x : FVec Ideal S50000x128 .f32) (w : FVec Ideal S128x1024 .f32) (b : FVec Ideal S1x1024 .f32) :
    S50000x8x128.Idx → EReal := fun y => Hat x w b (y 0) (y 1) (y 2)

theorem Hof_apply (x : FVec Ideal S50000x128 .f32) (w : FVec Ideal S128x1024 .f32) (b : FVec Ideal S1x1024 .f32)
    (n : Fin 50000) (q : Fin 8) (l : Fin 128) : Hof x w b (ix3 n q l) = Hat x w b n q l := rfl

/-- The kernel's whole output on core c, from the arrays the region finds. -/
abbrev H (c : Dev nD) : S50000x8x128.Idx → EReal := Hof (xarr m c) (warr m c) (barr m c)

/-- One stored entry is one entry of the whole output: the stored block's entry (r, q, l), computed from a block of
    x that is rows 2000·t … of the whole x, is entry (2000·t + r, q, l). -/
theorem point_eq (x0 : Vec Ideal S2000x128 .f32) (x1 : Vec Ideal S128x1024 .f32) (x2 : Vec Ideal S1x1024 .f32)
    (X : FVec Ideal S50000x128 .f32) (tv : Nat) (htv : tv < 25)
    (hx : ∀ (r : Fin 2000) (k : Fin 128), x0 (ix2 r k) = X (ix2 (⟨2000 * tv + r.val, by omega⟩ : Fin 50000) k))
    (j : S2000x8x128.Idx) (i : S50000x8x128.Idx)
    (h0 : (i 0).val = 2000 * tv + (j 0).val) (h1 : (i 1).val = (j 1).val) (h2 : (i 2).val = (j 2).val) :
    k0_pay1 (F := Ideal) x0 x1 x2 j = Hof X x1 x2 i := by
  obtain ⟨r, q, l, rfl⟩ : ∃ (r : Fin 2000) (q : Fin 8) (l : Fin 128), j = ix3 r q l := ⟨j 0, j 1, j 2, eq_ix3 j⟩
  have hlt : 2000 * tv + r.val < 50000 := by omega
  obtain ⟨n, q', l', rfl⟩ : ∃ (n : Fin 50000) (q' : Fin 8) (l' : Fin 128), i = ix3 n q' l' := ⟨i 0, i 1, i 2, eq_ix3 i⟩
  obtain rfl : q' = q := Fin.ext h1
  obtain rfl : l' = l := Fin.ext h2
  obtain rfl : n = ⟨2000 * tv + r.val, hlt⟩ := Fin.ext h0
  rw [KerPayload.pay_apply, Hof_apply]
  unfold Hat Hrow
  simp only [hx]

/-- What point t writes back is block t of the whole output. -/
theorem flushed_eq (c : Dev nD) (t : Fin cfg0.N) :
    (dats m 0 c).flushed 3 t = ((cfg0.win 3).blk t).view.read (Elt Ideal) (H m c) := by
  show (cfg0.win 3).cut (grid0.coords t) ((dats m 0 c).after 3 t) = _
  rw [after0_3]
  unfold out0_3
  rw [View.canon_unit_zero hz3]
  simp only [View.ld_unit_zero (S := S2000x128) hz2, View.ld_unit_zero (S := S128x1024) hz2, View.ld_unit_zero (S := S1x1024) hz2]
  obtain ⟨-, -, -, -, -, -, e0, e1, e2⟩ := idx_facts t
  have htN : t.val < 25 := t.isLt
  funext j
  rw [View.read_apply]
  show k0_pay1 (F := Ideal) (xblk m c t) (wblk m c t) (bblk m c t) ((cfg0.win 3).xinj (grid0.coords t) j)
    = Hof (xarr m c) (warr m c) (barr m c) (((cfg0.win 3).blk t).view.emb j)
  rw [wblk_eq, bblk_eq]
  refine point_eq (xblk m c t) (warr m c) (barr m c) (xarr m c) t.val htN (fun r k => xblk_apply m c t r k _ rfl) _ _ ?_ ?_ ?_
  · show win0_3.index t (0 : Fin 3) * 2000 + 1 * (j 0).val = 2000 * t.val + (j 0).val
    rw [e0]; omega
  · show win0_3.index t (1 : Fin 3) * 8 + 1 * (j 1).val = (j 1).val
    rw [e1]; omega
  · show win0_3.index t (2 : Fin 3) * 128 + 1 * (j 2).val = (j 2).val
    rw [e2]; omega

/-! ## The blocks tile the output -/

/-- An index of the output array is in point t's block iff each coordinate is in the block's range on its axis. -/
theorem mem_blk (t : Fin cfg0.N) (i : S50000x8x128.Idx) :
    i ∈ ((cfg0.win 3).blk t).view.set ↔ ∀ a : Fin 3, win0_3.index t a * S2000x8x128.size a ≤ (i a).val ∧ (i a).val < win0_3.index t a * S2000x8x128.size a + S2000x8x128.size a := by
  show i ∈ ((View.whole main_v12).slice (win0_3.rect t)).set ↔ _
  rw [View.set_slice_whole, Rect.mem_set_unit]
  exact Iff.rfl

/-- The 25 blocks tile the output: row n lies in the block of point n / 2000. -/
theorem cover (i : S50000x8x128.Idx) :
    ∃ t : Fin cfg0.N, (cfg0.win 3).flush t = true ∧ i ∈ ((cfg0.win 3).blk t).view.set := by
  have h0 : (i 0).val < 50000 := (i 0).isLt
  have h1 : (i 1).val < 8 := (i 1).isLt
  have h2 : (i 2).val < 128 := (i 2).isLt
  have hd : (i 0).val / 2000 < 25 := by omega
  obtain ⟨t, ht⟩ : ∃ t : Fin cfg0.N, t.val = (i 0).val / 2000 := ⟨⟨(i 0).val / 2000, hd⟩, rfl⟩
  obtain ⟨-, -, -, -, -, -, e0, e1, e2⟩ := idx_facts t
  refine ⟨t, flush0_3 t, ?_⟩
  rw [mem_blk]
  intro a
  match a with
  | ⟨0, _⟩ =>
    show win0_3.index t (0 : Fin 3) * 2000 ≤ (i 0).val ∧ (i 0).val < win0_3.index t (0 : Fin 3) * 2000 + 2000
    rw [e0, ht]; omega
  | ⟨1, _⟩ =>
    show win0_3.index t (1 : Fin 3) * 8 ≤ (i 1).val ∧ (i 1).val < win0_3.index t (1 : Fin 3) * 8 + 8
    rw [e1]; omega
  | ⟨2, _⟩ =>
    show win0_3.index t (2 : Fin 3) * 128 ≤ (i 2).val ∧ (i 2).val < win0_3.index t (2 : Fin 3) * 128 + 128
    rw [e2]; omega

/-- So the output array ends holding the whole output. -/
theorem final (c : Dev nD) : (dats m 0 c).arrAt 3 cfg0.N = H m c :=
  (dats m 0 c).arrAt_eq_of_cover 3 (H m c) (fun t _ => flushed_eq m c t) (fun i => cover i)

/-! ## The host's re-lay, and the common result -/

/-- The host's last line re-lays the output array: the result buffer ends holding the whole output read at the same
    row-major position. -/
theorem tail_eq (c : Dev nD) :
    Pipeline.afterTail₀ cfgs (dats m) 0 (V0 m) [hostOps1] c main_v13
      = shapeCast S50000x32x32 (H m c) shapeCasts_S50000x8x128_S50000x32x32 := by
  have e : Pipeline.withArrays (cfgs 0).spec c (V0 m c) (fun w => (dats m 0 c).arrAt w (cfgs 0).N) (Proc.devRef .tc main_v12) = H m c :=
    (Pipeline.withArrays_arr spec0 winFacts0.arr_inj c (V0 m c) (fun w => (dats m 0 c).arrAt w cfg0.N) 3).trans (final m c)
  unfold Pipeline.afterTail₀
  show StableHlo.after hostOps1 _ (Proc.devRef .tc main_v13) = _
  after_results
  rw [e]
  rfl

/-- Entry (n, i, j) of the re-laid array is entry (n, q, l) of the original with 128·q + l = 32·i + j: the two have
    the same row-major position. -/
theorem reshape_at (Y : S50000x8x128.Idx → EReal) (n : Fin 50000) (i j : Fin 32) (q : Fin 8) (l : Fin 128)
    (h : 128 * q.val + l.val = 32 * i.val + j.val) :
    shapeCast S50000x32x32 Y shapeCasts_S50000x8x128_S50000x32x32 (ix3 n i j) = Y (ix3 n q l) := by
  refine shapeCast_apply _ _ _ _ ?_
  rw [Shape.rowMajor_val_three, Shape.rowMajor_val_three]
  show (n.val * 8 + q.val) * 128 + l.val = (n.val * 32 + i.val) * 32 + j.val
  omega

/-- At column 32·i + j the weight array holds row tri {i, j} of W and the bias row holds entry tri {i, j} of b, so
    the row-against-column sum there is the common result at (n, i, j). -/
theorem Hrow_flat (c : Dev nD) (n : Fin 50000) (i j : Fin 32) :
    Hrow (xarr m c) (warr m c) (barr m c) n (Cert.Spec.flat32 i j)
      = Cert.Spec.Gat (m ((c.tc : Thread nD τ).loc main_arg0)) (m ((c.tc : Thread nD τ).loc main_arg1)) (m ((c.tc : Thread nD τ).loc main_arg2)) n i j := by
  unfold Hrow Cert.Spec.Gat
  exact congrArg₂ (· + ·)
    (Finset.sum_congr rfl fun k _ => congrArg₂ (· * ·) (congrFun (V_main_arg0 m c) (ix2 n k))
      ((KerHost.V_v5_apply m c k (Cert.Spec.flat32 i j)).trans (by rw [Cert.Spec.triF_flat32])))
    ((KerHost.V_v11_apply m c (Cert.Spec.flat32 i j)).trans (by rw [Cert.Spec.triF_flat32]))

/-- The whole output at (n, q, l) with 128·q + l = 32·i + j is the common result at (n, i, j). -/
theorem H_at (c : Dev nD) (n : Fin 50000) (i j : Fin 32) (q : Fin 8) (l : Fin 128)
    (h : 128 * q.val + l.val = 32 * i.val + j.val) :
    H m c (ix3 n q l)
      = Cert.Spec.G (m ((c.tc : Thread nD τ).loc main_arg0)) (m ((c.tc : Thread nD τ).loc main_arg1)) (m ((c.tc : Thread nD τ).loc main_arg2)) (ix3 n i j) := by
  have hlt : 128 * q.val + l.val < 1024 := by omega
  have hf : (⟨128 * q.val + l.val, hlt⟩ : Fin 1024) = Cert.Spec.flat32 i j := Fin.ext h
  exact (congrArg (Hrow (xarr m c) (warr m c) (barr m c) n) hf).trans (Hrow_flat m c n i j)

/-- The re-laid whole output is the common result array. -/
theorem result_eq (c : Dev nD) :
    shapeCast S50000x32x32 (H m c) shapeCasts_S50000x8x128_S50000x32x32
      = Cert.Spec.G (m ((c.tc : Thread nD τ).loc main_arg0)) (m ((c.tc : Thread nD τ).loc main_arg1)) (m ((c.tc : Thread nD τ).loc main_arg2)) := by
  funext y
  obtain ⟨n, i, j, rfl⟩ : ∃ (n : Fin 50000) (i j : Fin 32), y = ix3 n i j := ⟨y 0, y 1, y 2, eq_ix3 y⟩
  have hq : (32 * i.val + j.val) / 128 < 8 := by omega
  have hl : (32 * i.val + j.val) % 128 < 128 := by omega
  have hql : 128 * ((32 * i.val + j.val) / 128) + (32 * i.val + j.val) % 128 = 32 * i.val + j.val := by omega
  exact (reshape_at (H m c) n i j ⟨(32 * i.val + j.val) / 128, hq⟩ ⟨(32 * i.val + j.val) % 128, hl⟩ hql).trans
    (H_at m c n i j ⟨(32 * i.val + j.val) / 128, hq⟩ ⟨(32 * i.val + j.val) % 128, hl⟩ hql)

end Value

/-! ## The run -/

/-- Every weakly fair execution of the kernel program at the ideal values terminates with the result array at the
    common function of the arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13)
          = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v13 (Pipeline.mem_restRefs_of main_v13 (by decide) (by decide))).trans ((tail_eq m c).trans (result_eq m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KerValue

end
-- ==== Proof.RefTerms.lean ====
/-
  The reference program's stages as pure terms of its argument arrays, in the order @main computes them.

  The projection  proj = x · Wᵀ + b  (one row of 528 entries per node).
  The index tables, computed by @main itself from nothing but constants: the 32 × 32 grid's upper-triangle mask
  (ones above or on the diagonal), the running count of its flattened entries, the histogram of those counts over
  528 bins, the running sum of the histogram — the flat position of the p-th upper-triangle entry — and from it the
  row and the column tables (quotient and remainder by 32, written with jnp's sign-correcting floor division and
  remainder).  Two scatters then write each projection row into the 32 × 32 matrix: entry p at (row p, col p), and
  again at (col p, row p).
-/
import proofs.«117816_g68075231641772_cont_9to1c4b_264_8_alg».proof.Proof.Gen.ReferenceIdeal

noncomputable section

namespace Cert.ReferenceIdeal.RefTerms

open Cert.ReferenceIdeal Cert.ReferenceIdeal.Gen Idealize.ShloMosaic

variable {F : FTy → Type} [FloatOps F]

/-! ## The projection -/

/-- proj = x · Wᵀ + b, the bias broadcast along the rows. -/
def proj (x : FVec F S50000x128 .f32) (W : FVec F S528x128 .f32) (b : FVec F S528 .f32) : FVec F S50000x528 .f32 :=
  addf (Host.dotGeneral dot_S50000x128_S128x528_S50000x528_1_0_0_1_n_n none x
      (transpose S128x528 [1, 0] W transposes_S528x128_S128x528_1_0))
    (broadcastInDim S50000x528 ![0, 1] bcast_S1x528_S50000x528_0_1 (broadcastInDim S1x528 ![1] bcast_S528_S1x528_1 b))

/-! ## Splat constants -/

/-- The integer word `w` at every position of a length-1024 vector. -/
def splat1024 (w : BitVec 32) : IVec S1024 32 := broadcastInDim S1024 ![] bcast_S_S1024 (constantI S_ 32 w)
/-- The integer word `w` at every position of a length-528 vector. -/
def splat528 (w : BitVec 32) : IVec S528 32 := broadcastInDim S528 ![] bcast_S_S528 (constantI S_ 32 w)
/-- The rank-zero integer zero the running sums start from. -/
def zeroS : IVec S_ 32 := broadcastInDim S_ ![] bcast_S_S_ (constantI S_ 32 0#32)
/-- The 32 × 32 matrix of float zeros. -/
def zeros32 : FVec F S32x32 .f32 := broadcastInDim S32x32 ![] bcast_S_S32x32 (constant S_ .f32 0x00000000#32)
/-- The 32 × 32 matrix of float ones. -/
def ones32 : FVec F S32x32 .f32 := broadcastInDim S32x32 ![] bcast_S_S32x32 (constant S_ .f32 0x3F800000#32)

/-! ## The upper-triangle mask and its running count -/

/-- The ones matrix with the entries strictly below the diagonal (row − 1 ≥ column) zeroed. -/
def triuM : FVec F S32x32 .f32 :=
  select (cmpi .sge (addi (iotaInDim S32x32 32 0) (broadcastInDim S32x32 ![] bcast_S_S32x32 (constantI S_ 32 4294967295#32)))
      (iotaInDim S32x32 32 1)) zeros32 ones32

/-- Its nonzero entries, as a bit mask. -/
def maskV : IVec S32x32 1 := cmpf .une (triuM (F := F)) zeros32

/-- The mask flattened row-major and widened to 32-bit words. -/
def maskFlat : IVec S1024 32 := extui 32 (shapeCast S1024 (maskV (F := F)) shapeCasts_S32x32_S1024) natLt_1_32

/-- The running count of mask bits: entry f counts the set bits at flat positions ≤ f. -/
def csum1 : IVec S1024 32 :=
  Host.reduceWindow IntOp.addi ![1024] ![1] ![1023] ![0] (maskFlat (F := F)) zeroS reduceWindows_S1024_S1024_w1024s1p1023_0 h_S_

/-- The counts clipped below at zero. -/
def clipped : IVec S1024 32 := maxsi (broadcastInDim S1024 ![] bcast_S_S1024 (constantI S_ 32 0#32)) (csum1 (F := F))

/-- Negative bin numbers wrapped by the bin count 528. -/
def wrapped : IVec S1024 32 :=
  select (cmpi .slt (clipped (F := F)) (splat1024 0#32)) (addi (clipped (F := F)) (splat1024 528#32)) (clipped (F := F))

/-- The histogram of the counts over 528 bins: a one added at bin `count f` for every flat position f (a count
    outside [0, 528) is dropped). -/
def binc : IVec S528 32 :=
  Host.scatter scatter_S528_S1024x1_S1024_n_0_0_1 IntOp.addi (splat528 0#32)
    (broadcastInDim S1024x1 ![0] bcast_S1024_S1024x1_0 (wrapped (F := F))) (splat1024 1#32)

/-- The running sum of the histogram: entry p is the number of flat positions whose count is ≤ p. -/
def flatIdx : IVec S528 32 :=
  Host.reduceWindow IntOp.addi ![528] ![1] ![527] ![0] (binc (F := F)) zeroS reduceWindows_S528_S528_w528s1p527_0 h_S_

/-! ## jnp's floor division and remainder by a scalar -/

/-- jnp.floor_divide of a vector by a scalar: the truncating quotient, less one where the signs differ and the
    division is inexact. -/
def floorDiv (a : IVec S528 32) (cst : IVec S_ 32) : IVec S528 32 :=
  select
    (andi (cmpi .ne (signi a) (broadcastInDim S528 ![] bcast_S_S528 (signi cst)))
      (cmpi .ne (Host.remsi a (broadcastInDim S528 ![] bcast_S_S528 cst)) (splat528 0#32)))
    (subi (Host.divsi a (broadcastInDim S528 ![] bcast_S_S528 cst)) (splat528 1#32))
    (Host.divsi a (broadcastInDim S528 ![] bcast_S_S528 cst))

/-- The divisor jnp.remainder uses: the scalar, or one where the scalar is zero. -/
def safeDiv (cst : IVec S_ 32) : IVec S_ 32 := select (cmpi .eq cst (constantI S_ 32 0#32)) (constantI S_ 32 1#32) cst

/-- jnp.remainder of a vector by a scalar: the truncating remainder, plus the divisor where it is nonzero and its sign
    differs from the divisor's. -/
def remainder (a : IVec S528 32) (cst : IVec S_ 32) : IVec S528 32 :=
  select
    (andi
      (cmpi .ne (cmpi .slt (Host.remsi a (broadcastInDim S528 ![] bcast_S_S528 (safeDiv cst))) (splat528 0#32))
        (broadcastInDim S528 ![] bcast_S_S528 (cmpi .slt (safeDiv cst) (constantI S_ 32 0#32))))
      (cmpi .ne (Host.remsi a (broadcastInDim S528 ![] bcast_S_S528 (safeDiv cst))) (splat528 0#32)))
    (addi (Host.remsi a (broadcastInDim S528 ![] bcast_S_S528 (safeDiv cst))) (broadcastInDim S528 ![] bcast_S_S528 (safeDiv cst)))
    (Host.remsi a (broadcastInDim S528 ![] bcast_S_S528 (safeDiv cst)))

/-! ## The row and column tables, and the scatter indices -/

/-- The row of the p-th upper-triangle position: (flat ÷ 32) mod 32. -/
def rowsTbl : IVec S528 32 := remainder (floorDiv (flatIdx (F := F)) (constantI S_ 32 32#32)) (constantI S_ 32 32#32)

/-- The column of the p-th upper-triangle position: (flat ÷ 1) mod 32. -/
def colsTbl : IVec S528 32 := remainder (floorDiv (flatIdx (F := F)) (constantI S_ 32 1#32)) (constantI S_ 32 32#32)

/-- A negative index wrapped by the axis length 32. -/
def wrap32 (a : IVec S528 32) : IVec S528 32 := select (cmpi .slt a (splat528 0#32)) (addi a (splat528 32#32)) a

/-- A vector as a one-column matrix. -/
def asCol (a : IVec S528 32) : IVec S528x1 32 := broadcastInDim S528x1 ![0] bcast_S528_S528x1_0 a

/-- The scatter indices of the upper triangle: row p is (row p, col p). -/
def idxUp : IVec S528x2 32 :=
  concatenate S528x2 1 [⟨S528x1, asCol (wrap32 (rowsTbl (F := F)))⟩, ⟨S528x1, asCol (wrap32 (colsTbl (F := F)))⟩]
    concatenates_S528x1_S528x1_S528x2_d1

/-- The scatter indices of the lower triangle: row p is (col p, row p). -/
def idxLo : IVec S528x2 32 :=
  concatenate S528x2 1 [⟨S528x1, asCol (wrap32 (colsTbl (F := F)))⟩, ⟨S528x1, asCol (wrap32 (rowsTbl (F := F)))⟩]
    concatenates_S528x1_S528x1_S528x2_d1

/-- The zero array the scatters start from. -/
def zeros3 : FVec F S50000x32x32 .f32 := broadcastInDim S50000x32x32 ![] bcast_S_S50000x32x32 (constant S_ .f32 0x00000000#32)

/-- After the first scatter: the upper triangles written. -/
def up (x : FVec F S50000x128 .f32) (W : FVec F S528x128 .f32) (b : FVec F S528 .f32) : FVec F S50000x32x32 .f32 :=
  Host.scatter scatter_S50000x32x32_S528x2_S50000x528_0_12_12_1 (fun _ v => v) zeros3 (idxUp (F := F)) (proj x W b)

/-- The reference's result: the lower triangles written over that. -/
def out (x : FVec F S50000x128 .f32) (W : FVec F S528x128 .f32) (b : FVec F S528 .f32) : FVec F S50000x32x32 .f32 :=
  Host.scatter scatter_S50000x32x32_S528x2_S50000x528_0_12_12_1 (fun _ v => v) (up x W b) (idxLo (F := F)) (proj x W b)

end Cert.ReferenceIdeal.RefTerms

end
-- ==== Proof.RefOps.lean ====
/-
  The reference program's @main as lists of host operations, stage by stage, in program order: a helper function's body
  stands at its call, over the call's buffers and the caller's operands. With each stage: the references its operations
  write, in the same order, and that its operations touch TensorCore references only. A table transcribed from the
  printed program; nothing is proved about values here.
-/
import proofs.«117816_g68075231641772_cont_9to1c4b_264_8_alg».proof.Proof.RefTerms
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

abbrev opsProj : List (HloOp τ sig (Elt F)) :=
  [ StableHlo.unary main_arg1 main_v0 ((transpose S128x528 [1, 0] · transposes_S528x128_S128x528_1_0) : (⟨S528x128, .f32⟩ : BufTy).Contents (Elt F) → (⟨S128x528, .f32⟩ : BufTy).Contents (Elt F)),
    StableHlo.binary main_arg0 main_v0 main_v1 ((fun l r => Host.dotGeneral dot_S50000x128_S128x528_S50000x528_1_0_0_1_n_n none l r) : (⟨S50000x128, .f32⟩ : BufTy).Contents (Elt F) → (⟨S128x528, .f32⟩ : BufTy).Contents (Elt F) → (⟨S50000x528, .f32⟩ : BufTy).Contents (Elt F)),
    StableHlo.unary main_arg2 main_v2 (broadcastInDim S1x528 ![1] bcast_S528_S1x528_1 : (⟨S528, .f32⟩ : BufTy).Contents (Elt F) → (⟨S1x528, .f32⟩ : BufTy).Contents (Elt F)),
    StableHlo.unary main_v2 main_v3 (broadcastInDim S50000x528 ![0, 1] bcast_S1x528_S50000x528_0_1 : (⟨S1x528, .f32⟩ : BufTy).Contents (Elt F) → (⟨S50000x528, .f32⟩ : BufTy).Contents (Elt F)),
    StableHlo.binary main_v1 main_v3 main_v4 (addf : (⟨S50000x528, .f32⟩ : BufTy).Contents (Elt F) → (⟨S50000x528, .f32⟩ : BufTy).Contents (Elt F) → (⟨S50000x528, .f32⟩ : BufTy).Contents (Elt F)) ]
abbrev wProj : List (Ref sig .tc) :=
  [main_v0, main_v1, main_v2, main_v3, main_v4]
theorem opsProj_sub : (opsProj : List (HloOp τ sig (Elt F))).Forall fun op => op.bufs ⊆ tcRefs τ sig :=
  ⟨unary_bufs_sub .., binary_bufs_sub .., unary_bufs_sub .., unary_bufs_sub .., binary_bufs_sub ..⟩

abbrev opsMask : List (HloOp τ sig (Elt F)) :=
  [ StableHlo.nullary main_cst (constant S_ .f32 0x3F800000#32),
    StableHlo.unary main_cst main_v5 (broadcastInDim S32x32 ![] bcast_S_S32x32 : (⟨S_, .f32⟩ : BufTy).Contents (Elt F) → (⟨S32x32, .f32⟩ : BufTy).Contents (Elt F)),
    StableHlo.TRef.nullary main_call0.v0 (iotaInDim S32x32 32 0),
    StableHlo.TRef.nullary main_call0.c (constantI S_ 32 4294967295#32),
    StableHlo.TRef.unary main_call0.c main_call0.v1 (broadcastInDim S32x32 ![] bcast_S_S32x32),
    StableHlo.TRef.binary main_call0.v0 main_call0.v1 main_call0.v2 addi,
    StableHlo.TRef.nullary main_call0.v3 (iotaInDim S32x32 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S32x32 ![] bcast_S_S32x32),
    StableHlo.TRef.ternary main_call0.v4 main_call0.v5 (.of main_v5 : StableHlo.TRef sig ⟨S32x32, .f32⟩) main_call0.v6 select,
    StableHlo.nullary main_cst_0 (constant S_ .f32 0x00000000#32),
    StableHlo.unary main_cst_0 main_v7 (broadcastInDim S32x32 ![] bcast_S_S32x32 : (⟨S_, .f32⟩ : BufTy).Contents (Elt F) → (⟨S32x32, .f32⟩ : BufTy).Contents (Elt F)),
    StableHlo.binary main_v6 main_v7 main_v8 (cmpf .une : (⟨S32x32, .f32⟩ : BufTy).Contents (Elt F) → (⟨S32x32, .f32⟩ : BufTy).Contents (Elt F) → (⟨S32x32, .i1⟩ : BufTy).Contents (Elt F)) ]
abbrev wMask : List (Ref sig .tc) :=
  [main_cst, main_v5, main_call0.v0.ref, main_call0.c.ref, main_call0.v1.ref, main_call0.v2.ref, main_call0.v3.ref, main_call0.v4.ref, main_call0.cst.ref, main_call0.v5.ref, main_call0.v6.ref, main_cst_0, main_v7, main_v8]
theorem opsMask_sub : (opsMask : List (HloOp τ sig (Elt F))).Forall fun op => op.bufs ⊆ tcRefs τ sig :=
  ⟨nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub ..⟩

abbrev opsCount : List (HloOp τ sig (Elt F)) :=
  [ StableHlo.TRef.reshape (.of main_v8 : StableHlo.TRef sig ⟨S32x32, .i1⟩) main_call1.v0 rfl shapeCasts_S32x32_S1024,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![1024] ![1] ![1023] ![0] x v reduceWindows_S1024_S1024_w1024s1p1023_0 h_S_) ]
abbrev wCount : List (Ref sig .tc) :=
  [main_call1.v0.ref, main_call1.v1.ref, main_call1.call0.c.ref, main_call1.call0.v0.ref, main_call1.call0.v1.ref]
theorem opsCount_sub : (opsCount : List (HloOp τ sig (Elt F))).Forall fun op => op.bufs ⊆ tcRefs τ sig :=
  ⟨reshape_bufs_sub .., unary_bufs_sub .., nullary_bufs_sub .., unary_bufs_sub .., binary_bufs_sub ..⟩

abbrev opsHist : List (HloOp τ sig (Elt F)) :=
  [ StableHlo.nullary main_c (constantI S_ 32 0#32),
    StableHlo.unary main_c main_v10 (broadcastInDim S528 ![] bcast_S_S528 : (⟨S_, .i32⟩ : BufTy).Contents (Elt F) → (⟨S528, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S1024 ![] bcast_S_S1024),
    StableHlo.TRef.binary main_call2.v1 (.of main_v9 : StableHlo.TRef sig ⟨S1024, .i32⟩) main_call2.v2 maxsi,
    StableHlo.nullary main_c_2 (constantI S_ 32 0#32),
    StableHlo.unary main_c_2 main_v12 (broadcastInDim S1024 ![] bcast_S_S1024 : (⟨S_, .i32⟩ : BufTy).Contents (Elt F) → (⟨S1024, .i32⟩ : BufTy).Contents (Elt F)),
    StableHlo.binary main_v11 main_v12 main_v13 (cmpi .slt : (⟨S1024, .i32⟩ : BufTy).Contents (Elt F) → (⟨S1024, .i32⟩ : BufTy).Contents (Elt F) → (⟨S1024, .i1⟩ : BufTy).Contents (Elt F)),
    StableHlo.nullary main_c_3 (constantI S_ 32 528#32),
    StableHlo.unary main_c_3 main_v14 (broadcastInDim S1024 ![] bcast_S_S1024 : (⟨S_, .i32⟩ : BufTy).Contents (Elt F) → (⟨S1024, .i32⟩ : BufTy).Contents (Elt F)),
    StableHlo.binary main_v11 main_v14 main_v15 (addi : (⟨S1024, .i32⟩ : BufTy).Contents (Elt F) → (⟨S1024, .i32⟩ : BufTy).Contents (Elt F) → (⟨S1024, .i32⟩ : BufTy).Contents (Elt F)),
    StableHlo.ternary main_v13 main_v15 main_v11 main_v16 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v16 main_v17 (broadcastInDim S1024x1 ![0] bcast_S1024_S1024x1_0 : (⟨S1024, .i32⟩ : BufTy).Contents (Elt F) → (⟨S1024x1, .i32⟩ : BufTy).Contents (Elt F)),
    StableHlo.nullary main_c_4 (constantI S_ 32 1#32),
    StableHlo.unary main_c_4 main_v18 (broadcastInDim S1024 ![] bcast_S_S1024 : (⟨S_, .i32⟩ : BufTy).Contents (Elt F) → (⟨S1024, .i32⟩ : BufTy).Contents (Elt F)),
    StableHlo.ternary main_v10 main_v17 main_v18 main_v19 ((fun x i u => Host.scatter scatter_S528_S1024x1_S1024_n_0_0_1 IntOp.addi x i u) : (⟨S528, .i32⟩ : BufTy).Contents (Elt F) → (⟨S1024x1, .i32⟩ : BufTy).Contents (Elt F) → (⟨S1024, .i32⟩ : BufTy).Contents (Elt F) → (⟨S528, .i32⟩ : BufTy).Contents (Elt F)) ]
abbrev wHist : List (Ref sig .tc) :=
  [main_c, main_v10, main_c_1, main_call2.v0.ref, main_call2.v1.ref, main_call2.v2.ref, main_c_2, main_v12, main_v13, main_c_3, main_v14, main_v15, main_v16, main_v17, main_c_4, main_v18, main_v19]
theorem opsHist_sub : (opsHist : List (HloOp τ sig (Elt F))).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

abbrev opsFlat : List (HloOp τ sig (Elt F)) :=
  [ StableHlo.TRef.nullary main_call3.call0.c (constantI S_ 32 0#32),
    StableHlo.TRef.unary main_call3.call0.c main_call3.call0.v0 (broadcastInDim S_ ![] bcast_S_S_),
    StableHlo.TRef.binary (.of main_v19 : StableHlo.TRef sig ⟨S528, .i32⟩) main_call3.call0.v0 main_call3.call0.v1 (fun x v => Host.reduceWindow IntOp.addi ![528] ![1] ![527] ![0] x v reduceWindows_S528_S528_w528s1p527_0 h_S_) ]
abbrev wFlat : List (Ref sig .tc) :=
  [main_call3.call0.c.ref, main_call3.call0.v0.ref, main_call3.call0.v1.ref]
theorem opsFlat_sub : (opsFlat : List (HloOp τ sig (Elt F))).Forall fun op => op.bufs ⊆ tcRefs τ sig :=
  ⟨nullary_bufs_sub .., unary_bufs_sub .., binary_bufs_sub ..⟩

abbrev opsDivR : List (HloOp τ sig (Elt F)) :=
  [ StableHlo.nullary main_c_5 (constantI S_ 32 32#32),
    StableHlo.TRef.unary (.of main_c_5 : StableHlo.TRef sig ⟨S_, .i32⟩) main_call4.v0 (broadcastInDim S528 ![] bcast_S_S528),
    StableHlo.TRef.binary (.of main_v20 : StableHlo.TRef sig ⟨S528, .i32⟩) main_call4.v0 main_call4.v1 Host.divsi,
    StableHlo.TRef.unary (.of main_v20 : StableHlo.TRef sig ⟨S528, .i32⟩) main_call4.v2 signi,
    StableHlo.TRef.unary (.of main_c_5 : StableHlo.TRef sig ⟨S_, .i32⟩) main_call4.v3 signi,
    StableHlo.TRef.unary main_call4.v3 main_call4.v4 (broadcastInDim S528 ![] bcast_S_S528),
    StableHlo.TRef.binary main_call4.v2 main_call4.v4 main_call4.v5 (cmpi .ne),
    StableHlo.TRef.unary (.of main_c_5 : StableHlo.TRef sig ⟨S_, .i32⟩) main_call4.v6 (broadcastInDim S528 ![] bcast_S_S528),
    StableHlo.TRef.binary (.of main_v20 : StableHlo.TRef sig ⟨S528, .i32⟩) main_call4.v6 main_call4.v7 Host.remsi,
    StableHlo.TRef.nullary main_call4.c (constantI S_ 32 0#32),
    StableHlo.TRef.unary main_call4.c main_call4.v8 (broadcastInDim S528 ![] bcast_S_S528),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S528 ![] bcast_S_S528),
    StableHlo.TRef.binary main_call4.v1 main_call4.v11 main_call4.v12 subi,
    StableHlo.TRef.ternary main_call4.v10 main_call4.v12 main_call4.v1 main_call4.call0.v0 select ]
abbrev wDivR : List (Ref sig .tc) :=
  [main_c_5, main_call4.v0.ref, main_call4.v1.ref, main_call4.v2.ref, main_call4.v3.ref, main_call4.v4.ref, main_call4.v5.ref, main_call4.v6.ref, main_call4.v7.ref, main_call4.c.ref, main_call4.v8.ref, main_call4.v9.ref, main_call4.v10.ref, main_call4.c_0.ref, main_call4.v11.ref, main_call4.v12.ref, main_call4.call0.v0.ref]
theorem opsDivR_sub : (opsDivR : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

abbrev opsRows : List (HloOp τ sig (Elt F)) :=
  [ StableHlo.nullary main_c_6 (constantI S_ 32 32#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S528 ![] bcast_S_S528),
    StableHlo.TRef.binary (.of main_v21 : StableHlo.TRef sig ⟨S528, .i32⟩) main_call5.v3 main_call5.v4 Host.remsi,
    StableHlo.TRef.nullary main_call5.c_1 (constantI S_ 32 0#32),
    StableHlo.TRef.unary main_call5.c_1 main_call5.v5 (broadcastInDim S528 ![] bcast_S_S528),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S528 ![] bcast_S_S528),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S528 ![] bcast_S_S528),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S528 ![] bcast_S_S528),
    StableHlo.TRef.binary main_call5.v4 main_call5.v13 main_call5.v14 addi,
    StableHlo.TRef.ternary main_call5.v12 main_call5.v14 main_call5.v4 main_call5.v15 select ]
abbrev wRows : List (Ref sig .tc) :=
  [main_c_6, main_call5.v0.ref, main_call5.c.ref, main_call5.v1.ref, main_call5.c_0.ref, main_call5.call0.v0.ref, main_call5.v3.ref, main_call5.v4.ref, main_call5.c_1.ref, main_call5.v5.ref, main_call5.v6.ref, main_call5.c_2.ref, main_call5.v7.ref, main_call5.v8.ref, main_call5.c_3.ref, main_call5.v9.ref, main_call5.v10.ref, main_call5.v11.ref, main_call5.v12.ref, main_call5.v13.ref, main_call5.v14.ref, main_call5.v15.ref]
theorem opsRows_sub : (opsRows : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

abbrev opsDivC : List (HloOp τ sig (Elt F)) :=
  [ StableHlo.nullary main_c_7 (constantI S_ 32 1#32),
    StableHlo.TRef.unary (.of main_c_7 : StableHlo.TRef sig ⟨S_, .i32⟩) main_call6.v0 (broadcastInDim S528 ![] bcast_S_S528),
    StableHlo.TRef.binary (.of main_v20 : StableHlo.TRef sig ⟨S528, .i32⟩) main_call6.v0 main_call6.v1 Host.divsi,
    StableHlo.TRef.unary (.of main_v20 : StableHlo.TRef sig ⟨S528, .i32⟩) main_call6.v2 signi,
    StableHlo.TRef.unary (.of main_c_7 : StableHlo.TRef sig ⟨S_, .i32⟩) main_call6.v3 signi,
    StableHlo.TRef.unary main_call6.v3 main_call6.v4 (broadcastInDim S528 ![] bcast_S_S528),
    StableHlo.TRef.binary main_call6.v2 main_call6.v4 main_call6.v5 (cmpi .ne),
    StableHlo.TRef.unary (.of main_c_7 : StableHlo.TRef sig ⟨S_, .i32⟩) main_call6.v6 (broadcastInDim S528 ![] bcast_S_S528),
    StableHlo.TRef.binary (.of main_v20 : StableHlo.TRef sig ⟨S528, .i32⟩) main_call6.v6 main_call6.v7 Host.remsi,
    StableHlo.TRef.nullary main_call6.c (constantI S_ 32 0#32),
    StableHlo.TRef.unary main_call6.c main_call6.v8 (broadcastInDim S528 ![] bcast_S_S528),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S528 ![] bcast_S_S528),
    StableHlo.TRef.binary main_call6.v1 main_call6.v11 main_call6.v12 subi,
    StableHlo.TRef.ternary main_call6.v10 main_call6.v12 main_call6.v1 main_call6.call0.v0 select ]
abbrev wDivC : List (Ref sig .tc) :=
  [main_c_7, main_call6.v0.ref, main_call6.v1.ref, main_call6.v2.ref, main_call6.v3.ref, main_call6.v4.ref, main_call6.v5.ref, main_call6.v6.ref, main_call6.v7.ref, main_call6.c.ref, main_call6.v8.ref, main_call6.v9.ref, main_call6.v10.ref, main_call6.c_0.ref, main_call6.v11.ref, main_call6.v12.ref, main_call6.call0.v0.ref]
theorem opsDivC_sub : (opsDivC : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

abbrev opsCols : List (HloOp τ sig (Elt F)) :=
  [ StableHlo.nullary main_c_8 (constantI S_ 32 32#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S528 ![] bcast_S_S528),
    StableHlo.TRef.binary (.of main_v23 : StableHlo.TRef sig ⟨S528, .i32⟩) main_call7.v3 main_call7.v4 Host.remsi,
    StableHlo.TRef.nullary main_call7.c_1 (constantI S_ 32 0#32),
    StableHlo.TRef.unary main_call7.c_1 main_call7.v5 (broadcastInDim S528 ![] bcast_S_S528),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S528 ![] bcast_S_S528),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S528 ![] bcast_S_S528),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S528 ![] bcast_S_S528),
    StableHlo.TRef.binary main_call7.v4 main_call7.v13 main_call7.v14 addi,
    StableHlo.TRef.ternary main_call7.v12 main_call7.v14 main_call7.v4 main_call7.v15 select ]
abbrev wCols : List (Ref sig .tc) :=
  [main_c_8, main_call7.v0.ref, main_call7.c.ref, main_call7.v1.ref, main_call7.c_0.ref, main_call7.call0.v0.ref, main_call7.v3.ref, main_call7.v4.ref, main_call7.c_1.ref, main_call7.v5.ref, main_call7.v6.ref, main_call7.c_2.ref, main_call7.v7.ref, main_call7.v8.ref, main_call7.c_3.ref, main_call7.v9.ref, main_call7.v10.ref, main_call7.v11.ref, main_call7.v12.ref, main_call7.v13.ref, main_call7.v14.ref, main_call7.v15.ref]
theorem opsCols_sub : (opsCols : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

abbrev opsUp : List (HloOp τ sig (Elt F)) :=
  [ StableHlo.nullary main_cst_9 (constant S_ .f32 0x00000000#32),
    StableHlo.unary main_cst_9 main_v25 (broadcastInDim S50000x32x32 ![] bcast_S_S50000x32x32 : (⟨S_, .f32⟩ : BufTy).Contents (Elt F) → (⟨S50000x32x32, .f32⟩ : BufTy).Contents (Elt F)),
    StableHlo.nullary main_c_10 (constantI S_ 32 0#32),
    StableHlo.unary main_c_10 main_v26 (broadcastInDim S528 ![] bcast_S_S528 : (⟨S_, .i32⟩ : BufTy).Contents (Elt F) → (⟨S528, .i32⟩ : BufTy).Contents (Elt F)),
    StableHlo.binary main_v22 main_v26 main_v27 (cmpi .slt : (⟨S528, .i32⟩ : BufTy).Contents (Elt F) → (⟨S528, .i32⟩ : BufTy).Contents (Elt F) → (⟨S528, .i1⟩ : BufTy).Contents (Elt F)),
    StableHlo.nullary main_c_11 (constantI S_ 32 32#32),
    StableHlo.unary main_c_11 main_v28 (broadcastInDim S528 ![] bcast_S_S528 : (⟨S_, .i32⟩ : BufTy).Contents (Elt F) → (⟨S528, .i32⟩ : BufTy).Contents (Elt F)),
    StableHlo.binary main_v22 main_v28 main_v29 (addi : (⟨S528, .i32⟩ : BufTy).Contents (Elt F) → (⟨S528, .i32⟩ : BufTy).Contents (Elt F) → (⟨S528, .i32⟩ : BufTy).Contents (Elt F)),
    StableHlo.ternary main_v27 main_v29 main_v22 main_v30 (select : (⟨S528, .i1⟩ : BufTy).Contents (Elt F) → (⟨S528, .i32⟩ : BufTy).Contents (Elt F) → (⟨S528, .i32⟩ : BufTy).Contents (Elt F) → (⟨S528, .i32⟩ : BufTy).Contents (Elt F)),
    StableHlo.nullary main_c_12 (constantI S_ 32 0#32),
    StableHlo.unary main_c_12 main_v31 (broadcastInDim S528 ![] bcast_S_S528 : (⟨S_, .i32⟩ : BufTy).Contents (Elt F) → (⟨S528, .i32⟩ : BufTy).Contents (Elt F)),
    StableHlo.binary main_v24 main_v31 main_v32 (cmpi .slt : (⟨S528, .i32⟩ : BufTy).Contents (Elt F) → (⟨S528, .i32⟩ : BufTy).Contents (Elt F) → (⟨S528, .i1⟩ : BufTy).Contents (Elt F)),
    StableHlo.nullary main_c_13 (constantI S_ 32 32#32),
    StableHlo.unary main_c_13 main_v33 (broadcastInDim S528 ![] bcast_S_S528 : (⟨S_, .i32⟩ : BufTy).Contents (Elt F) → (⟨S528, .i32⟩ : BufTy).Contents (Elt F)),
    StableHlo.binary main_v24 main_v33 main_v34 (addi : (⟨S528, .i32⟩ : BufTy).Contents (Elt F) → (⟨S528, .i32⟩ : BufTy).Contents (Elt F) → (⟨S528, .i32⟩ : BufTy).Contents (Elt F)),
    StableHlo.ternary main_v32 main_v34 main_v24 main_v35 (select : (⟨S528, .i1⟩ : BufTy).Contents (Elt F) → (⟨S528, .i32⟩ : BufTy).Contents (Elt F) → (⟨S528, .i32⟩ : BufTy).Contents (Elt F) → (⟨S528, .i32⟩ : BufTy).Contents (Elt F)),
    StableHlo.unary main_v30 main_v36 (broadcastInDim S528x1 ![0] bcast_S528_S528x1_0 : (⟨S528, .i32⟩ : BufTy).Contents (Elt F) → (⟨S528x1, .i32⟩ : BufTy).Contents (Elt F)),
    StableHlo.unary main_v35 main_v37 (broadcastInDim S528x1 ![0] bcast_S528_S528x1_0 : (⟨S528, .i32⟩ : BufTy).Contents (Elt F) → (⟨S528x1, .i32⟩ : BufTy).Contents (Elt F)),
    StableHlo.binary main_v36 main_v37 main_v38 ((fun a b => concatenate S528x2 1 [⟨S528x1, a⟩, ⟨S528x1, b⟩] concatenates_S528x1_S528x1_S528x2_d1) : (⟨S528x1, .i32⟩ : BufTy).Contents (Elt F) → (⟨S528x1, .i32⟩ : BufTy).Contents (Elt F) → (⟨S528x2, .i32⟩ : BufTy).Contents (Elt F)),
    StableHlo.ternary main_v25 main_v38 main_v4 main_v39 ((fun x i u => Host.scatter scatter_S50000x32x32_S528x2_S50000x528_0_12_12_1 (fun _ b => b) x i u) : (⟨S50000x32x32, .f32⟩ : BufTy).Contents (Elt F) → (⟨S528x2, .i32⟩ : BufTy).Contents (Elt F) → (⟨S50000x528, .f32⟩ : BufTy).Contents (Elt F) → (⟨S50000x32x32, .f32⟩ : BufTy).Contents (Elt F)) ]
abbrev wUp : List (Ref sig .tc) :=
  [main_cst_9, main_v25, main_c_10, main_v26, main_v27, main_c_11, main_v28, main_v29, main_v30, main_c_12, main_v31, main_v32, main_c_13, main_v33, main_v34, main_v35, main_v36, main_v37, main_v38, main_v39]
theorem opsUp_sub : (opsUp : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩

abbrev opsLo : List (HloOp τ sig (Elt F)) :=
  [ StableHlo.nullary main_c_14 (constantI S_ 32 0#32),
    StableHlo.unary main_c_14 main_v40 (broadcastInDim S528 ![] bcast_S_S528 : (⟨S_, .i32⟩ : BufTy).Contents (Elt F) → (⟨S528, .i32⟩ : BufTy).Contents (Elt F)),
    StableHlo.binary main_v24 main_v40 main_v41 (cmpi .slt : (⟨S528, .i32⟩ : BufTy).Contents (Elt F) → (⟨S528, .i32⟩ : BufTy).Contents (Elt F) → (⟨S528, .i1⟩ : BufTy).Contents (Elt F)),
    StableHlo.nullary main_c_15 (constantI S_ 32 32#32),
    StableHlo.unary main_c_15 main_v42 (broadcastInDim S528 ![] bcast_S_S528 : (⟨S_, .i32⟩ : BufTy).Contents (Elt F) → (⟨S528, .i32⟩ : BufTy).Contents (Elt F)),
    StableHlo.binary main_v24 main_v42 main_v43 (addi : (⟨S528, .i32⟩ : BufTy).Contents (Elt F) → (⟨S528, .i32⟩ : BufTy).Contents (Elt F) → (⟨S528, .i32⟩ : BufTy).Contents (Elt F)),
    StableHlo.ternary main_v41 main_v43 main_v24 main_v44 (select : (⟨S528, .i1⟩ : BufTy).Contents (Elt F) → (⟨S528, .i32⟩ : BufTy).Contents (Elt F) → (⟨S528, .i32⟩ : BufTy).Contents (Elt F) → (⟨S528, .i32⟩ : BufTy).Contents (Elt F)),
    StableHlo.nullary main_c_16 (constantI S_ 32 0#32),
    StableHlo.unary main_c_16 main_v45 (broadcastInDim S528 ![] bcast_S_S528 : (⟨S_, .i32⟩ : BufTy).Contents (Elt F) → (⟨S528, .i32⟩ : BufTy).Contents (Elt F)),
    StableHlo.binary main_v22 main_v45 main_v46 (cmpi .slt : (⟨S528, .i32⟩ : BufTy).Contents (Elt F) → (⟨S528, .i32⟩ : BufTy).Contents (Elt F) → (⟨S528, .i1⟩ : BufTy).Contents (Elt F)),
    StableHlo.nullary main_c_17 (constantI S_ 32 32#32),
    StableHlo.unary main_c_17 main_v47 (broadcastInDim S528 ![] bcast_S_S528 : (⟨S_, .i32⟩ : BufTy).Contents (Elt F) → (⟨S528, .i32⟩ : BufTy).Contents (Elt F)),
    StableHlo.binary main_v22 main_v47 main_v48 (addi : (⟨S528, .i32⟩ : BufTy).Contents (Elt F) → (⟨S528, .i32⟩ : BufTy).Contents (Elt F) → (⟨S528, .i32⟩ : BufTy).Contents (Elt F)),
    StableHlo.ternary main_v46 main_v48 main_v22 main_v49 (select : (⟨S528, .i1⟩ : BufTy).Contents (Elt F) → (⟨S528, .i32⟩ : BufTy).Contents (Elt F) → (⟨S528, .i32⟩ : BufTy).Contents (Elt F) → (⟨S528, .i32⟩ : BufTy).Contents (Elt F)),
    StableHlo.unary main_v44 main_v50 (broadcastInDim S528x1 ![0] bcast_S528_S528x1_0 : (⟨S528, .i32⟩ : BufTy).Contents (Elt F) → (⟨S528x1, .i32⟩ : BufTy).Contents (Elt F)),
    StableHlo.unary main_v49 main_v51 (broadcastInDim S528x1 ![0] bcast_S528_S528x1_0 : (⟨S528, .i32⟩ : BufTy).Contents (Elt F) → (⟨S528x1, .i32⟩ : BufTy).Contents (Elt F)),
    StableHlo.binary main_v50 main_v51 main_v52 ((fun a b => concatenate S528x2 1 [⟨S528x1, a⟩, ⟨S528x1, b⟩] concatenates_S528x1_S528x1_S528x2_d1) : (⟨S528x1, .i32⟩ : BufTy).Contents (Elt F) → (⟨S528x1, .i32⟩ : BufTy).Contents (Elt F) → (⟨S528x2, .i32⟩ : BufTy).Contents (Elt F)),
    StableHlo.ternary main_v39 main_v52 main_v4 main_v53 ((fun x i u => Host.scatter scatter_S50000x32x32_S528x2_S50000x528_0_12_12_1 (fun _ b => b) x i u) : (⟨S50000x32x32, .f32⟩ : BufTy).Contents (Elt F) → (⟨S528x2, .i32⟩ : BufTy).Contents (Elt F) → (⟨S50000x528, .f32⟩ : BufTy).Contents (Elt F) → (⟨S50000x32x32, .f32⟩ : BufTy).Contents (Elt F)) ]
abbrev wLo : List (Ref sig .tc) :=
  [main_c_14, main_v40, main_v41, main_c_15, main_v42, main_v43, main_v44, main_c_16, main_v45, main_v46, main_c_17, main_v47, main_v48, main_v49, main_v50, main_v51, main_v52, main_v53]
theorem opsLo_sub : (opsLo : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩

end Cert.ReferenceIdeal.Value

end
-- ==== Proof.LibTypedRead.lean ====
/-
  Host operations on typed references, read back at the value's type.

  A module-local function's operations are stated over typed references (`TRef sig T`: a buffer with a proof that its type
  is `T`), and read and write the buffer through the transport along that proof. Reading a buffer back through the same
  transport (`rd x W`: the contents `W` holds at `x`'s buffer, at the type `T`) undoes it: after a typed operation the
  result reference reads as the operation's function of its operands' typed reads, with no transport left, and every
  other reference reads as before. These are the operations' `result` facts restated for typed reads, for any function
  `f` — so that evaluating a list of typed operations never has to compare a transported term with an untransported one.
-/
import Idealize.ShloMosaic.Lib.StableHlo.Run

noncomputable section

namespace Idealize.ShloMosaic.StableHlo.TRef

open Idealize.ShloMosaic Idealize.ShloMosaic.StableHlo

variable {τ : Topo} {sig : RefSig} {Val : EltTy → Type}
variable {T Tx Ta Tb Tc Ty : BufTy}

/-- The contents `W` holds at a typed reference's buffer, at the value's type. -/
def rd (x : TRef sig T) (W : Valuation τ sig Val) : T.Contents Val := x.ofBuf (W (Proc.devRef .tc x.ref))

/-- Writing at the value's type and reading back is the identity. -/
theorem ofBuf_toBuf (x : TRef sig T) (z : T.Contents Val) : x.ofBuf (Val := Val) (x.toBuf z) = z := by
  obtain ⟨r, h, h2, h3⟩ := x
  subst h
  rfl

/-- A constant: its reference reads as the constant … -/
theorem rd_nullary (y : TRef sig Ty) (v : Ty.Contents Val) (W : Valuation τ sig Val) :
    rd y ((no_index (TRef.nullary (τ := τ) y v)).result W) = v :=
  (congrArg y.ofBuf (nullary_result y.ref (y.toBuf v) y.dev W)).trans (ofBuf_toBuf y v)
/-- … and every other reference as before. -/
theorem rd_nullary_ne (y : TRef sig Ty) (v : Ty.Contents Val) (z : TRef sig T) (W : Valuation τ sig Val) (h : z.ref ≠ y.ref) :
    rd z ((no_index (TRef.nullary (τ := τ) y v)).result W) = rd z W :=
  congrArg z.ofBuf (nullary_result_ne y.ref (y.toBuf v) y.dev W h)

/-- A one-operand operation: its result reads as the function of the operand's read. -/
theorem rd_unary (x : TRef sig Tx) (y : TRef sig Ty) (f : Tx.Contents Val → Ty.Contents Val) (W : Valuation τ sig Val) :
    rd y ((no_index (TRef.unary (τ := τ) x y f)).result W) = f (rd x W) :=
  (congrArg y.ofBuf (unary_result x.ref y.ref (fun u => y.toBuf (f (x.ofBuf u))) x.dev y.dev W)).trans (ofBuf_toBuf y _)
theorem rd_unary_ne (x : TRef sig Tx) (y : TRef sig Ty) (f : Tx.Contents Val → Ty.Contents Val) (z : TRef sig T)
    (W : Valuation τ sig Val) (h : z.ref ≠ y.ref) :
    rd z ((no_index (TRef.unary (τ := τ) x y f)).result W) = rd z W :=
  congrArg z.ofBuf (unary_result_ne x.ref y.ref (fun u => y.toBuf (f (x.ofBuf u))) x.dev y.dev W h)

/-- A two-operand operation. -/
theorem rd_binary (a : TRef sig Ta) (b : TRef sig Tb) (y : TRef sig Ty) (f : Ta.Contents Val → Tb.Contents Val → Ty.Contents Val)
    (W : Valuation τ sig Val) :
    rd y ((no_index (TRef.binary (τ := τ) a b y f)).result W) = f (rd a W) (rd b W) :=
  (congrArg y.ofBuf (binary_result a.ref b.ref y.ref (fun u v => y.toBuf (f (a.ofBuf u) (b.ofBuf v))) a.dev b.dev y.dev W)).trans
    (ofBuf_toBuf y _)
theorem rd_binary_ne (a : TRef sig Ta) (b : TRef sig Tb) (y : TRef sig Ty) (f : Ta.Contents Val → Tb.Contents Val → Ty.Contents Val)
    (z : TRef sig T) (W : Valuation τ sig Val) (h : z.ref ≠ y.ref) :
    rd z ((no_index (TRef.binary (τ := τ) a b y f)).result W) = rd z W :=
  congrArg z.ofBuf (binary_result_ne a.ref b.ref y.ref (fun u v => y.toBuf (f (a.ofBuf u) (b.ofBuf v))) a.dev b.dev y.dev W h)

/-- A three-operand operation. -/
theorem rd_ternary (c : TRef sig Tc) (a : TRef sig Ta) (b : TRef sig Tb) (y : TRef sig Ty)
    (f : Tc.Contents Val → Ta.Contents Val → Tb.Contents Val → Ty.Contents Val) (W : Valuation τ sig Val) :
    rd y ((no_index (TRef.ternary (τ := τ) c a b y f)).result W) = f (rd c W) (rd a W) (rd b W) :=
  (congrArg y.ofBuf (ternary_result c.ref a.ref b.ref y.ref (fun w u v => y.toBuf (f (c.ofBuf w) (a.ofBuf u) (b.ofBuf v)))
    c.dev a.dev b.dev y.dev W)).trans (ofBuf_toBuf y _)
theorem rd_ternary_ne (c : TRef sig Tc) (a : TRef sig Ta) (b : TRef sig Tb) (y : TRef sig Ty)
    (f : Tc.Contents Val → Ta.Contents Val → Tb.Contents Val → Ty.Contents Val) (z : TRef sig T) (W : Valuation τ sig Val)
    (h : z.ref ≠ y.ref) :
    rd z ((no_index (TRef.ternary (τ := τ) c a b y f)).result W) = rd z W :=
  congrArg z.ofBuf (ternary_result_ne a.ref b.ref c.ref y.ref (fun w u v => y.toBuf (f (c.ofBuf w) (a.ofBuf u) (b.ofBuf v)))
    c.dev a.dev b.dev y.dev W h)

end Idealize.ShloMosaic.StableHlo.TRef

end
-- ==== Proof.RefRun.lean ====
/-
  The reference program's run: @main is a straight line of host operations (the helper functions' bodies inlined at
  their calls), so every execution ends with the result buffer at the composed term of the argument arrays.

  The line is read in eleven consecutive stages, each ending at one value the later stages read: the projection; the
  upper-triangle mask; its running count; the histogram of the counts; the histogram's running sum; the quotient by 32
  and from it the row table; the quotient by 1 and from it the column table; the first scatter; the second. A stage's
  result is a function of the few values it reads, by unfolding its operations in order, and a stage leaves every
  buffer it does not write as it found it. Composing the eleven functions gives the stages' composed term.
-/
import proofs.«117816_g68075231641772_cont_9to1c4b_264_8_alg».proof.Proof.RefTerms
import Idealize.ShloMosaic.Lib.StableHlo.Run
import proofs.«117816_g68075231641772_cont_9to1c4b_264_8_alg».proof.Proof.RefOps
import proofs.«117816_g68075231641772_cont_9to1c4b_264_8_alg».proof.Proof.LibTypedRead

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-! ## Lists of operations: general facts -/

/-- Running two lines one after the other is running the first, then the second from what it left. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- A property of every operation of two lists holds of every operation of their concatenation. -/
theorem forall_append {p : HloOp τ sig (Elt F) → Prop} {l₁ l₂ : List (HloOp τ sig (Elt F))}
    (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- An operation writing the one reference `y` writes inside any list of references holding `y`. -/
theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-! ## The stages' operations

Each stage's operations in program order, the references they write and that they touch TensorCore references only are
the imported table (one list per stage). -/

/-- @main's 160 operations, in order. -/
abbrev ops : List (HloOp τ sig (Elt F)) :=
  opsProj ++ (opsMask ++ (opsCount ++ (opsHist ++ (opsFlat ++ (opsDivR ++ (opsRows ++ (opsDivC ++ (opsCols ++ (opsUp ++ opsLo)))))))))

set_option maxRecDepth 16384 in
/-- @main is that straight line: both sides are the same chain of operation steps once the helper functions' bodies
    are unfolded at their calls and sequencing is computed (grafting a continuation onto a step moves it under the
    step). -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append opsProj_sub (forall_append opsMask_sub (forall_append opsCount_sub (forall_append opsHist_sub
    (forall_append opsFlat_sub (forall_append opsDivR_sub (forall_append opsRows_sub (forall_append opsDivC_sub
      (forall_append opsCols_sub (forall_append opsUp_sub opsLo_sub)))))))))

/-! ### Every operation determines its result -/

theorem opsProj_fresh : (opsProj : List (HloOp τ sig (Elt F))).Forall fun op => op.fresh = ∅ := by
  repeat (first | exact rfl | refine ⟨rfl, ?_⟩)
theorem opsMask_fresh : (opsMask : List (HloOp τ sig (Elt F))).Forall fun op => op.fresh = ∅ := by
  repeat (first | exact rfl | refine ⟨rfl, ?_⟩)
theorem opsCount_fresh : (opsCount : List (HloOp τ sig (Elt F))).Forall fun op => op.fresh = ∅ := by
  repeat (first | exact rfl | refine ⟨rfl, ?_⟩)
theorem opsHist_fresh : (opsHist : List (HloOp τ sig (Elt F))).Forall fun op => op.fresh = ∅ := by
  repeat (first | exact rfl | refine ⟨rfl, ?_⟩)
theorem opsFlat_fresh : (opsFlat : List (HloOp τ sig (Elt F))).Forall fun op => op.fresh = ∅ := by
  repeat (first | exact rfl | refine ⟨rfl, ?_⟩)
theorem opsDivR_fresh : (opsDivR : List (HloOp τ sig (Elt F))).Forall fun op => op.fresh = ∅ := by
  repeat (first | exact rfl | refine ⟨rfl, ?_⟩)
theorem opsRows_fresh : (opsRows : List (HloOp τ sig (Elt F))).Forall fun op => op.fresh = ∅ := by
  repeat (first | exact rfl | refine ⟨rfl, ?_⟩)
theorem opsDivC_fresh : (opsDivC : List (HloOp τ sig (Elt F))).Forall fun op => op.fresh = ∅ := by
  repeat (first | exact rfl | refine ⟨rfl, ?_⟩)
theorem opsCols_fresh : (opsCols : List (HloOp τ sig (Elt F))).Forall fun op => op.fresh = ∅ := by
  repeat (first | exact rfl | refine ⟨rfl, ?_⟩)
theorem opsUp_fresh : (opsUp : List (HloOp τ sig (Elt F))).Forall fun op => op.fresh = ∅ := by
  repeat (first | exact rfl | refine ⟨rfl, ?_⟩)
theorem opsLo_fresh : (opsLo : List (HloOp τ sig (Elt F))).Forall fun op => op.fresh = ∅ := by
  repeat (first | exact rfl | refine ⟨rfl, ?_⟩)

theorem ops_fresh : (ops : List (HloOp τ sig (Elt F))).Forall fun op => op.fresh = ∅ :=
  forall_append opsProj_fresh (forall_append opsMask_fresh (forall_append opsCount_fresh (forall_append opsHist_fresh
    (forall_append opsFlat_fresh (forall_append opsDivR_fresh (forall_append opsRows_fresh (forall_append opsDivC_fresh
      (forall_append opsCols_fresh (forall_append opsUp_fresh opsLo_fresh)))))))))

/-! ### What each stage writes

Each operation writes its one result reference, which is in its stage's list. -/

theorem opsProj_writes : (opsProj : List (HloOp τ sig (Elt F))).Forall fun op =>
    op.writes ⊆ (wProj.map (Proc.devRef (τ := τ) .tc)).toFinset := by
  repeat (first | exact wsub (by decide) | refine ⟨wsub (by decide), ?_⟩)
theorem opsMask_writes : (opsMask : List (HloOp τ sig (Elt F))).Forall fun op =>
    op.writes ⊆ (wMask.map (Proc.devRef (τ := τ) .tc)).toFinset := by
  repeat (first | exact wsub (by decide) | refine ⟨wsub (by decide), ?_⟩)
theorem opsCount_writes : (opsCount : List (HloOp τ sig (Elt F))).Forall fun op =>
    op.writes ⊆ (wCount.map (Proc.devRef (τ := τ) .tc)).toFinset := by
  repeat (first | exact wsub (by decide) | refine ⟨wsub (by decide), ?_⟩)
theorem opsHist_writes : (opsHist : List (HloOp τ sig (Elt F))).Forall fun op =>
    op.writes ⊆ (wHist.map (Proc.devRef (τ := τ) .tc)).toFinset := by
  repeat (first | exact wsub (by decide) | refine ⟨wsub (by decide), ?_⟩)
theorem opsFlat_writes : (opsFlat : List (HloOp τ sig (Elt F))).Forall fun op =>
    op.writes ⊆ (wFlat.map (Proc.devRef (τ := τ) .tc)).toFinset := by
  repeat (first | exact wsub (by decide) | refine ⟨wsub (by decide), ?_⟩)
theorem opsDivR_writes : (opsDivR : List (HloOp τ sig (Elt F))).Forall fun op =>
    op.writes ⊆ (wDivR.map (Proc.devRef (τ := τ) .tc)).toFinset := by
  repeat (first | exact wsub (by decide) | refine ⟨wsub (by decide), ?_⟩)
theorem opsRows_writes : (opsRows : List (HloOp τ sig (Elt F))).Forall fun op =>
    op.writes ⊆ (wRows.map (Proc.devRef (τ := τ) .tc)).toFinset := by
  repeat (first | exact wsub (by decide) | refine ⟨wsub (by decide), ?_⟩)
theorem opsDivC_writes : (opsDivC : List (HloOp τ sig (Elt F))).Forall fun op =>
    op.writes ⊆ (wDivC.map (Proc.devRef (τ := τ) .tc)).toFinset := by
  repeat (first | exact wsub (by decide) | refine ⟨wsub (by decide), ?_⟩)
theorem opsCols_writes : (opsCols : List (HloOp τ sig (Elt F))).Forall fun op =>
    op.writes ⊆ (wCols.map (Proc.devRef (τ := τ) .tc)).toFinset := by
  repeat (first | exact wsub (by decide) | refine ⟨wsub (by decide), ?_⟩)
theorem opsUp_writes : (opsUp : List (HloOp τ sig (Elt F))).Forall fun op =>
    op.writes ⊆ (wUp.map (Proc.devRef (τ := τ) .tc)).toFinset := by
  repeat (first | exact wsub (by decide) | refine ⟨wsub (by decide), ?_⟩)
theorem opsLo_writes : (opsLo : List (HloOp τ sig (Elt F))).Forall fun op =>
    op.writes ⊆ (wLo.map (Proc.devRef (τ := τ) .tc)).toFinset := by
  repeat (first | exact wsub (by decide) | refine ⟨wsub (by decide), ?_⟩)

/-! ## The stages' results

The value each stage ends at, as a function of the values it reads: the stage's operations unfolded in order, each
result reference read at its operation's value and every other reference at what was there before (the two references
told apart as references). The helper functions' operations read and write their buffers at the value's own type,
which at these literal references is the buffer's type, so moving a value there and back changes nothing. What is
left is the stage's function written out, equal to the stated one by unfolding the stated one; no array operation is
ever opened. -/

/-- The running count of a bit mask's flattened entries. -/
def countOf (mk : IVec S32x32 1) : IVec S1024 32 :=
  Host.reduceWindow IntOp.addi ![1024] ![1] ![1023] ![0] (extui 32 (shapeCast S1024 mk shapeCasts_S32x32_S1024) natLt_1_32)
    RefTerms.zeroS reduceWindows_S1024_S1024_w1024s1p1023_0 h_S_

/-- Counts clipped below at zero. -/
def clipOf (c : IVec S1024 32) : IVec S1024 32 := maxsi (broadcastInDim S1024 ![] bcast_S_S1024 (constantI S_ 32 0#32)) c

/-- The histogram over 528 bins of clipped, wrapped counts. -/
def histOf (c : IVec S1024 32) : IVec S528 32 :=
  Host.scatter scatter_S528_S1024x1_S1024_n_0_0_1 IntOp.addi (RefTerms.splat528 0#32)
    (broadcastInDim S1024x1 ![0] bcast_S1024_S1024x1_0
      (select (cmpi .slt (clipOf c) (RefTerms.splat1024 0#32)) (addi (clipOf c) (RefTerms.splat1024 528#32)) (clipOf c)))
    (RefTerms.splat1024 1#32)

/-- The running sum of a histogram. -/
def flatOf (h : IVec S528 32) : IVec S528 32 :=
  Host.reduceWindow IntOp.addi ![528] ![1] ![527] ![0] h RefTerms.zeroS reduceWindows_S528_S528_w528s1p527_0 h_S_

/-- One scatter of the projection rows into an array, entry p at the pair (first p, second p) wrapped by 32. -/
def scatOf (acc : FVec F S50000x32x32 .f32) (p q : IVec S528 32) (u : FVec F S50000x528 .f32) : FVec F S50000x32x32 .f32 :=
  Host.scatter scatter_S50000x32x32_S528x2_S50000x528_0_12_12_1 (fun _ v => v) acc
    (concatenate S528x2 1 [⟨S528x1, RefTerms.asCol (RefTerms.wrap32 p)⟩, ⟨S528x1, RefTerms.asCol (RefTerms.wrap32 q)⟩]
      concatenates_S528x1_S528x1_S528x2_d1) u

section Results

attribute [local irreducible] Host.reduceWindow Host.scatter concatenate transpose broadcastInDim addf constant constantI
  iotaInDim addi cmpi select cmpf shapeCast extui maxsi Host.divsi signi Host.remsi andi subi

variable (W : Valuation τ sig (Elt F))

/-- At the mask stage's two buffers that one kind of operation writes and the other reads, a value moved to the
    buffer's type, or back to its own, is the value: the two types are the same type. -/
theorem toBuf_v6 (x : (⟨S32x32, .f32⟩ : BufTy).Contents (Elt F)) :
    (TRef.of main_v6 : TRef sig ⟨S32x32, .f32⟩).toBuf (Val := Elt F) x = x := rfl
theorem ofBuf_v5 (x : (⟨S32x32, .f32⟩ : BufTy).Contents (Elt F)) :
    (TRef.of main_v5 : TRef sig ⟨S32x32, .f32⟩).ofBuf (Val := Elt F) x = x := rfl

/-- The projection: five operations, each reading the arguments or what the ones before it wrote; the fold over them
    computes to the projection's term. -/
theorem proj_res : after opsProj W (main_v4 : DevRef τ sig)
    = RefTerms.proj (W (main_arg0 : DevRef τ sig)) (W (main_arg1 : DevRef τ sig)) (W (main_arg2 : DevRef τ sig)) := rfl

set_option maxRecDepth 4096 in
set_option maxHeartbeats 200000 in
theorem mask_res : after opsMask W (main_v8 : DevRef τ sig) = RefTerms.maskV (F := F) := by
  after_results_simp
  simp only [TRef.ofBuf_toBuf, toBuf_v6, ofBuf_v5]
  rfl

set_option maxRecDepth 4096 in
set_option maxHeartbeats 200000 in
theorem count_res : after opsCount W (main_v9 : DevRef τ sig) = countOf (W (main_v8 : DevRef τ sig)) := by
  after_results_simp
  rfl

set_option maxRecDepth 4096 in
set_option maxHeartbeats 200000 in
theorem hist_res : after opsHist W (main_v19 : DevRef τ sig) = histOf (W (main_v9 : DevRef τ sig)) := by
  after_results_simp
  rfl

set_option maxRecDepth 4096 in
set_option maxHeartbeats 200000 in
theorem flat_res : after opsFlat W (main_v20 : DevRef τ sig) = flatOf (W (main_v19 : DevRef τ sig)) := by
  after_results_simp
  rfl

set_option maxRecDepth 4096 in
set_option maxHeartbeats 200000 in
theorem divR_res : after opsDivR W (main_v21 : DevRef τ sig)
    = RefTerms.floorDiv (W (main_v20 : DevRef τ sig)) (constantI S_ 32 32#32) := by
  after_results_simp
  rfl

set_option maxRecDepth 4096 in
set_option maxHeartbeats 200000 in
theorem rows_res : after opsRows W (main_v22 : DevRef τ sig)
    = RefTerms.remainder (W (main_v21 : DevRef τ sig)) (constantI S_ 32 32#32) := by
  after_results_simp
  rfl

set_option maxRecDepth 4096 in
set_option maxHeartbeats 200000 in
theorem divC_res : after opsDivC W (main_v23 : DevRef τ sig)
    = RefTerms.floorDiv (W (main_v20 : DevRef τ sig)) (constantI S_ 32 1#32) := by
  after_results_simp
  rfl

set_option maxRecDepth 4096 in
set_option maxHeartbeats 200000 in
theorem cols_res : after opsCols W (main_v24 : DevRef τ sig)
    = RefTerms.remainder (W (main_v23 : DevRef τ sig)) (constantI S_ 32 32#32) := by
  after_results_simp
  rfl

set_option maxRecDepth 4096 in
set_option maxHeartbeats 200000 in
theorem up_res : after opsUp W (main_v39 : DevRef τ sig)
    = scatOf RefTerms.zeros3 (W (main_v22 : DevRef τ sig)) (W (main_v24 : DevRef τ sig)) (W (main_v4 : DevRef τ sig)) := by
  after_results_simp
  rfl

set_option maxRecDepth 4096 in
set_option maxHeartbeats 200000 in
theorem lo_res : after opsLo W (main_v53 : DevRef τ sig)
    = scatOf (W (main_v39 : DevRef τ sig)) (W (main_v24 : DevRef τ sig)) (W (main_v22 : DevRef τ sig))
        (W (main_v4 : DevRef τ sig)) := by
  after_results_simp
  rfl

end Results

/-! ## The whole line -/

/-- The line run from `V` is its stages run in turn. -/
theorem ops_after (V : Valuation τ sig (Elt F)) :
    after ops V = after opsLo (after opsUp (after opsCols (after opsDivC (after opsRows (after opsDivR (after opsFlat
      (after opsHist (after opsCount (after opsMask (after opsProj V)))))))))) := by
  simp only [ops, after_append]

/-- A reference no stage writes holds at the end what it held at the start. -/
theorem ops_keep (V : Valuation τ sig (Elt F)) {r : Ref sig .tc} (h0 : r ∉ wProj) (h1 : r ∉ wMask) (h2 : r ∉ wCount)
    (h3 : r ∉ wHist) (h4 : r ∉ wFlat) (h5 : r ∉ wDivR) (h6 : r ∉ wRows) (h7 : r ∉ wDivC) (h8 : r ∉ wCols) (h9 : r ∉ wUp)
    (h10 : r ∉ wLo) : after ops V (Proc.devRef .tc r) = V (Proc.devRef .tc r) := by
  rw [ops_after]
  exact (after_of_writes_sub opsLo _ opsLo_writes h10).trans <| (after_of_writes_sub opsUp _ opsUp_writes h9).trans <|
    (after_of_writes_sub opsCols _ opsCols_writes h8).trans <| (after_of_writes_sub opsDivC _ opsDivC_writes h7).trans <|
    (after_of_writes_sub opsRows _ opsRows_writes h6).trans <| (after_of_writes_sub opsDivR _ opsDivR_writes h5).trans <|
    (after_of_writes_sub opsFlat _ opsFlat_writes h4).trans <| (after_of_writes_sub opsHist _ opsHist_writes h3).trans <|
    (after_of_writes_sub opsCount _ opsCount_writes h2).trans <| (after_of_writes_sub opsMask _ opsMask_writes h1).trans <|
    after_of_writes_sub opsProj _ opsProj_writes h0

/-- The result buffer ends at the stages' composed term of the arguments: stage by stage, the value a stage ends at
    is its function of values earlier stages ended at, which the stages between did not write. -/
theorem out_eq (V : Valuation τ sig (Elt F)) :
    after ops V (main_v53 : DevRef τ sig)
      = RefTerms.out (V (main_arg0 : DevRef τ sig)) (V (main_arg1 : DevRef τ sig)) (V (main_arg2 : DevRef τ sig)) := by
  rw [ops_after]
  -- the projection
  have p4 := proj_res V
  generalize after opsProj V = W0 at p4 ⊢
  -- the mask
  have m8 := mask_res W0
  replace p4 := (after_of_writes_sub opsMask W0 opsMask_writes (r := main_v4) (by decide)).trans p4
  generalize after opsMask W0 = W1 at m8 p4 ⊢
  -- its running count
  have c9 := (count_res W1).trans (congrArg countOf m8)
  replace p4 := (after_of_writes_sub opsCount W1 opsCount_writes (r := main_v4) (by decide)).trans p4
  generalize after opsCount W1 = W2 at c9 p4 ⊢
  -- the histogram
  have b19 := (hist_res W2).trans (congrArg histOf c9)
  replace p4 := (after_of_writes_sub opsHist W2 opsHist_writes (r := main_v4) (by decide)).trans p4
  generalize after opsHist W2 = W3 at b19 p4 ⊢
  -- its running sum
  have f20 := (flat_res W3).trans (congrArg flatOf b19)
  replace p4 := (after_of_writes_sub opsFlat W3 opsFlat_writes (r := main_v4) (by decide)).trans p4
  generalize after opsFlat W3 = W4 at f20 p4 ⊢
  -- the quotient by 32
  have d21 := (divR_res W4).trans (congrArg (RefTerms.floorDiv · (constantI S_ 32 32#32)) f20)
  replace f20 := (after_of_writes_sub opsDivR W4 opsDivR_writes (r := main_v20) (by decide)).trans f20
  replace p4 := (after_of_writes_sub opsDivR W4 opsDivR_writes (r := main_v4) (by decide)).trans p4
  generalize after opsDivR W4 = W5 at d21 f20 p4 ⊢
  -- the row table
  have r22 := (rows_res W5).trans (congrArg (RefTerms.remainder · (constantI S_ 32 32#32)) d21)
  replace f20 := (after_of_writes_sub opsRows W5 opsRows_writes (r := main_v20) (by decide)).trans f20
  replace p4 := (after_of_writes_sub opsRows W5 opsRows_writes (r := main_v4) (by decide)).trans p4
  generalize after opsRows W5 = W6 at r22 f20 p4 ⊢
  -- the quotient by 1
  have d23 := (divC_res W6).trans (congrArg (RefTerms.floorDiv · (constantI S_ 32 1#32)) f20)
  replace r22 := (after_of_writes_sub opsDivC W6 opsDivC_writes (r := main_v22) (by decide)).trans r22
  replace p4 := (after_of_writes_sub opsDivC W6 opsDivC_writes (r := main_v4) (by decide)).trans p4
  generalize after opsDivC W6 = W7 at d23 r22 p4 ⊢
  -- the column table
  have c24 := (cols_res W7).trans (congrArg (RefTerms.remainder · (constantI S_ 32 32#32)) d23)
  replace r22 := (after_of_writes_sub opsCols W7 opsCols_writes (r := main_v22) (by decide)).trans r22
  replace p4 := (after_of_writes_sub opsCols W7 opsCols_writes (r := main_v4) (by decide)).trans p4
  generalize after opsCols W7 = W8 at c24 r22 p4 ⊢
  -- the first scatter
  have u39 : after opsUp W8 (main_v39 : DevRef τ sig)
      = scatOf RefTerms.zeros3 (RefTerms.rowsTbl (F := F)) (RefTerms.colsTbl (F := F))
          (RefTerms.proj (V (main_arg0 : DevRef τ sig)) (V (main_arg1 : DevRef τ sig)) (V (main_arg2 : DevRef τ sig))) := by
    rw [up_res, r22, c24, p4]; rfl
  replace c24 := (after_of_writes_sub opsUp W8 opsUp_writes (r := main_v24) (by decide)).trans c24
  replace r22 := (after_of_writes_sub opsUp W8 opsUp_writes (r := main_v22) (by decide)).trans r22
  replace p4 := (after_of_writes_sub opsUp W8 opsUp_writes (r := main_v4) (by decide)).trans p4
  generalize after opsUp W8 = W9 at u39 c24 r22 p4 ⊢
  -- the second scatter
  rw [lo_res, u39, c24, r22, p4]
  rfl

/-- Every weakly fair execution of @main terminates with the result at the stages' composed term of the arguments,
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53)
          = RefTerms.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v53).trans (out_eq (launchContents m c)),
      (h c main_arg0).trans (ops_keep (launchContents m c) (by decide) (by decide) (by decide) (by decide) (by decide)
        (by decide) (by decide) (by decide) (by decide) (by decide) (by decide)),
      (h c main_arg1).trans (ops_keep (launchContents m c) (by decide) (by decide) (by decide) (by decide) (by decide)
        (by decide) (by decide) (by decide) (by decide) (by decide) (by decide)),
      (h c main_arg2).trans (ops_keep (launchContents m c) (by decide) (by decide) (by decide) (by decide) (by decide)
        (by decide) (by decide) (by decide) (by decide) (by decide) (by decide))⟩)
    (run_seq scopedRefs_eq scopedSems_eq defs main (fun _ => ops) main_eq (fun _ => ops_sub) m ρ
      (fun _ => List.forall_iff_forall_mem.1 ops_fresh))

end Cert.ReferenceIdeal.Value

end
-- ==== Proof.LibHostFold.lean ====
/-
  Three host operations that are folds over a list of positions, read at one index.

  A one-dimensional window sum whose window is the whole length, padded on the low side by the length less one
  (the form a running sum takes): entry j is the sum of the entries at positions ≤ j.
  An integer scatter with addition as its body: an entry ends as what it held plus the updates that land on it.
  A scatter that overwrites: an entry on which exactly one update lands ends as that update, and an entry on which
  none lands is unchanged.
-/
import Idealize.ShloMosaic.PureOps.Ideal
import Idealize.ShloMosaic.Lib.ValueIdx
import Mathlib.Data.BitVec

noncomputable section

namespace Cert.HostFold

open Idealize.ShloMosaic Idealize.ShloMosaic.ValueIdx
open scoped BigOperators

/-! ## Folds of addition -/

/-- A left fold that adds one word per position is the start plus the sum of the words. -/
private theorem foldl_addi {ι : Type} (G : ι → BitVec 32) (L : List ι) (a : BitVec 32) :
    L.foldl (fun r n => IntOp.addi r (G n)) a = a + (L.map G).sum := by
  induction L generalizing a with
  | nil => simp
  | cons n L ih => rw [List.foldl_cons, ih, List.map_cons, List.sum_cons, ← add_assoc]; rfl

/-! ## The running sum -/

/-- The indices of a rank-one shape are its coordinates. -/
private def idxEquiv1 (n : Nat) : (⟨1, ![n]⟩ : Shape).Idx ≃ Fin n where
  toFun k := k 0
  invFun := ix1
  left_inv k := (eq_ix1 k).symm
  right_inv _ := rfl

/-- A choice on a condition that carries its proof into the chosen value is a plain choice on an equivalent
    condition, when the value does not depend on the proof. -/
private theorem dite_eq_ite_of {α : Type} {C D : Prop} [Decidable C] [Decidable D] (hCD : C ↔ D) (A : C → α) (A' B : α)
    (hA : ∀ h : C, A h = A') : (if h : C then A h else B) = if D then A' else B := by
  by_cases hD : D
  · rw [dif_pos (hCD.2 hD), if_pos hD]; exact hA _
  · rw [dif_neg (fun h => hD (hCD.1 h)), if_neg hD]

/-- Re-indexing the window positions. With pad + 1 = n, position k of the window at j reads entry j + k − pad when
    pad ≤ j + k and padding otherwise. The map k ↦ j + k − pad carries the positions with pad ≤ j + k one-to-one onto
    the entries at or below j, its inverse being k' ↦ k' + pad − j (j ≤ pad, so nothing is lost in the subtraction);
    so the sum over the window is the sum of the entries at or below j. -/
private theorem sum_window_reindex {M : Type} [AddCommMonoid M] {n pad : Nat} (hpad : pad + 1 = n) (j : Fin n)
    (y : Fin n → M) :
    (∑ k : Fin n, if pad ≤ j.val + k.val then y ⟨j.val + k.val - pad, by omega⟩ else 0)
      = ∑ k : Fin n, if k ≤ j then y k else 0 := by
  rw [← Finset.sum_filter, ← Finset.sum_filter]
  refine Finset.sum_bij' (fun k _ => ⟨j.val + k.val - pad, by omega⟩)
    (fun k hk => ⟨k.val + pad - j.val, by have := Fin.le_def.1 (Finset.mem_filter.1 hk).2; omega⟩)
    ?_ ?_ ?_ ?_ ?_
  · intro k hk
    have hk' := (Finset.mem_filter.1 hk).2
    exact Finset.mem_filter.2 ⟨Finset.mem_univ _, Fin.le_def.2 (by show j.val + k.val - pad ≤ j.val; omega)⟩
  · intro k hk
    have hk' : k.val ≤ j.val := Fin.le_def.1 (Finset.mem_filter.1 hk).2
    exact Finset.mem_filter.2 ⟨Finset.mem_univ _, by show pad ≤ j.val + (k.val + pad - j.val); omega⟩
  · intro k hk
    have hk' := (Finset.mem_filter.1 hk).2
    apply Fin.ext; show j.val + k.val - pad + pad - j.val = k.val; omega
  · intro k hk
    have hk' : k.val ≤ j.val := Fin.le_def.1 (Finset.mem_filter.1 hk).2
    apply Fin.ext; show j.val + (k.val + pad - j.val) - pad = k.val; omega
  · intro k _; rfl

/-- The running sum: a window of the whole length `n`, stride one, padded `n − 1` low, from the initial value zero,
    at position j is the sum of the entries at positions k ≤ j. -/
theorem reduceWindow_cumsum_apply {n pad : Nat} (hpad : pad + 1 = n) (x : IVec ⟨1, ![n]⟩ 32) (init : IVec ⟨0, ![]⟩ 32)
    (h : (⟨1, ![n]⟩ : Shape).ReduceWindows (![n] : Fin 1 → Nat) ![1] ![pad] ![0] ⟨1, ![n]⟩)
    (hu : 0 < (⟨0, ![]⟩ : Shape).numel) (hinit : init (Shape.Idx.first hu) = 0#32) (j : Fin n) :
    Host.reduceWindow IntOp.addi ![n] ![1] ![pad] ![0] x init h hu (ix1 j)
      = ∑ k : Fin n, if k ≤ j then x (ix1 k) else 0#32 := by
  -- the fold of addition from zero is the sum over the window's positions,
  unfold Host.reduceWindow
  refine (foldl_addi _ _ _).trans ?_
  rw [hinit, BitVec.zero_add, ← Fin.sum_univ_def]
  -- taken over the window's indices, that is over its one coordinate k;
  refine (Equiv.sum_comp ((⟨1, ![n]⟩ : Shape).rowMajor) _).symm.trans ?_
  refine (Equiv.sum_comp (idxEquiv1 n).symm _).symm.trans ?_
  -- position k is inside the operand exactly when pad ≤ j + k, and then reads entry j + k − pad
  refine Eq.trans (Finset.sum_congr rfl fun k _ => ?_) (sum_window_reindex hpad j fun k => x (ix1 k))
  simp only [Equiv.symm_apply_apply]
  refine dite_eq_ite_of ⟨fun hin => ?_, fun hk a => ?_⟩ _ _ _ fun hin => congrArg x (funext fun a => ?_)
  · have h0 := (hin 0).1
    change pad ≤ j.val * 1 + k.val at h0
    omega
  · match a with
    | ⟨0, _⟩ =>
      show pad ≤ j.val * 1 + k.val ∧ j.val * 1 + k.val - pad < n
      constructor <;> omega
  · match a with
    | ⟨0, _⟩ => exact Fin.ext (show j.val * 1 + k.val - pad = j.val + k.val - pad by omega)

/-! ## Scatters -/

/-- A scatter is the left fold, over the row-major list of update positions, of a step that at entry i applies the
    body when the position's update lands on i and leaves the entry alone otherwise. -/
private theorem scatter_eq_foldl {α : Type} {s si u : Shape} {w : Nat} (d : ScatterDims s si u) (f : α → α → α)
    (x : s.Idx → α) (idx : IVec si w) (upd : u.Idx → α) :
    ∃ step : (s.Idx → α) → Fin u.numel → s.Idx → α,
      Host.scatter d f x idx upd = (List.finRange u.numel).foldl step x ∧
      ∀ r n i, step r n i
        = if d.resultIdx? (u.rowMajor.symm n) idx = some i then f (r i) (upd (u.rowMajor.symm n)) else r i := by
  refine ⟨_, rfl, fun r n i => ?_⟩
  generalize d.resultIdx? (u.rowMajor.symm n) idx = o
  cases o with
  | none => simp
  | some i0 =>
    by_cases h : i = i0
    · subst h; simp
    · have h' : ¬ (some i0 = some i) := fun e => h (Option.some.inj e).symm
      simp [h, h']

/-- A fold of steps each of which, at entry i, adds its update when it lands on i and otherwise leaves the entry alone,
    ends at entry i as the start plus the updates of the steps that land on i. By induction on the list, the start
    general: the first step adds its own term, the rest add theirs to whatever it left. -/
private theorem foldl_step_addi {σ ι : Type} (g : ι → Option σ) (upd : ι → BitVec 32)
    (step : (σ → BitVec 32) → ι → σ → BitVec 32) (i : σ) [∀ n, Decidable (g n = some i)]
    (hstep : ∀ r n, step r n i = if g n = some i then IntOp.addi (r i) (upd n) else r i)
    (L : List ι) (x : σ → BitVec 32) :
    L.foldl step x i = x i + (L.map fun n => if g n = some i then upd n else 0#32).sum := by
  induction L generalizing x with
  | nil => simp
  | cons n L ih =>
    rw [List.foldl_cons, ih, hstep, List.map_cons, List.sum_cons, ← add_assoc]
    congr 1
    by_cases h : g n = some i
    · rw [if_pos h, if_pos h]; rfl
    · rw [if_neg h, if_neg h, BitVec.add_zero]

/-- A fold of steps each of which, at entry i, overwrites the entry with its update when it lands on i and otherwise
    leaves it alone, ends at entry i as `v` when every step landing on i writes `v` and either the start already holds
    `v` there or some step lands on i. By induction on the list, the start general: after the first step the entry
    holds `v` (the step wrote it, or it was there and the step passed by), or a later step lands on i. -/
private theorem foldl_step_set {σ ι α : Type} (g : ι → Option σ) (upd : ι → α) (step : (σ → α) → ι → σ → α) (i : σ)
    [∀ n, Decidable (g n = some i)] (hstep : ∀ r n, step r n i = if g n = some i then upd n else r i) (v : α)
    (L : List ι) (hv : ∀ n ∈ L, g n = some i → upd n = v) (x : σ → α)
    (hx : x i = v ∨ ∃ n ∈ L, g n = some i) :
    L.foldl step x i = v := by
  induction L generalizing x with
  | nil =>
    rcases hx with hx | ⟨n, hn, _⟩
    · exact hx
    · exact absurd hn (List.not_mem_nil)
  | cons n L ih =>
    rw [List.foldl_cons]
    refine ih (fun m hm => hv m (List.mem_cons_of_mem _ hm)) _ ?_
    rw [hstep]
    by_cases h : g n = some i
    · left; rw [if_pos h]; exact hv n List.mem_cons_self h
    · rw [if_neg h]
      rcases hx with hx | ⟨m, hm, hmi⟩
      · exact Or.inl hx
      · rcases List.mem_cons.1 hm with rfl | hm
        · exact absurd hmi h
        · exact Or.inr ⟨m, hm, hmi⟩

/-- The adding scatter of integer words: entry i ends as its own value plus every update that lands on i. -/
theorem scatter_addi_apply {s si u : Shape} {w : Nat} (d : ScatterDims s si u) (x : s.Idx → BitVec 32) (idx : IVec si w)
    (upd : u.Idx → BitVec 32) (i : s.Idx) :
    Host.scatter d IntOp.addi x idx upd i = x i + ∑ j : u.Idx, if d.resultIdx? j idx = some i then upd j else 0#32 := by
  obtain ⟨step, hfold, hstep⟩ := scatter_eq_foldl d IntOp.addi x idx upd
  rw [hfold]
  refine (foldl_step_addi (fun n => d.resultIdx? (u.rowMajor.symm n) idx) (fun n => upd (u.rowMajor.symm n)) step i
    (fun r n => hstep r n i) (List.finRange u.numel) x).trans ?_
  -- the sum over row-major positions is the sum over the update's indices
  congr 1
  rw [← Fin.sum_univ_def]
  exact Equiv.sum_comp u.rowMajor.symm (fun j => if d.resultIdx? j idx = some i then upd j else 0#32)

/-- The overwriting scatter where exactly one update lands on entry i: the entry ends as that update. -/
theorem scatter_set_apply_of_unique {α : Type} {s si u : Shape} {w : Nat} (d : ScatterDims s si u) (x : s.Idx → α)
    (idx : IVec si w) (upd : u.Idx → α) (i : s.Idx) (j : u.Idx) (hj : d.resultIdx? j idx = some i)
    (huniq : ∀ j', d.resultIdx? j' idx = some i → j' = j) :
    Host.scatter d (fun _ v => v) x idx upd i = upd j := by
  obtain ⟨step, hfold, hstep⟩ := scatter_eq_foldl d (fun _ v => v) x idx upd
  rw [hfold]
  -- every position landing on i is j's, so writes `upd j`; and j's position is in the list
  refine foldl_step_set (fun n => d.resultIdx? (u.rowMajor.symm n) idx) (fun n => upd (u.rowMajor.symm n)) step i
    (fun r n => hstep r n i) (upd j) (List.finRange u.numel) (fun n _ hn => congrArg upd (huniq _ hn)) x
    (Or.inr ⟨u.rowMajor j, List.mem_finRange _, ?_⟩)
  rw [Equiv.symm_apply_apply]; exact hj

/-- The overwriting scatter where no update lands on entry i: the entry is unchanged. -/
theorem scatter_set_apply_of_none {α : Type} {s si u : Shape} {w : Nat} (d : ScatterDims s si u) (x : s.Idx → α)
    (idx : IVec si w) (upd : u.Idx → α) (i : s.Idx) (h : ∀ j, d.resultIdx? j idx ≠ some i) :
    Host.scatter d (fun _ v => v) x idx upd i = x i := by
  obtain ⟨step, hfold, hstep⟩ := scatter_eq_foldl d (fun _ v => v) x idx upd
  rw [hfold]
  exact foldl_step_set (fun n => d.resultIdx? (u.rowMajor.symm n) idx) (fun n => upd (u.rowMajor.symm n)) step i
    (fun r n => hstep r n i) (x i) (List.finRange u.numel) (fun n _ hn => absurd hn (h _)) x (Or.inl rfl)

end Cert.HostFold

end
-- ==== Proof.RefCsum.lean ====
/-
  The running count of the upper-triangle mask, in closed form.

  The mask at flat position f = 32·i + j is one exactly when i ≤ j; its running sum at f is the number of positions
  ≤ f on or above the diagonal.
-/
import proofs.«117816_g68075231641772_cont_9to1c4b_264_8_alg».proof.Proof.RefTerms
import proofs.«117816_g68075231641772_cont_9to1c4b_264_8_alg».proof.Proof.Spec
import proofs.«117816_g68075231641772_cont_9to1c4b_264_8_alg».proof.Proof.LibHostFold
import Idealize.ShloMosaic.Lib.Pipeline.Value
import Idealize.ShloMosaic.PureOps.Ideal.Laws

noncomputable section

namespace Cert.ReferenceIdeal.RefCsum

open Cert.ReferenceIdeal Cert.ReferenceIdeal.Gen Cert.ReferenceIdeal.RefTerms Idealize.ShloMosaic Idealize.ShloMosaic.ValueIdx
open scoped BigOperators

/-! ## The two float constants, and the two constant matrices at an entry -/

/-- The single-precision pattern 0x3F800000 (sign 0, exponent 127, fraction 0) denotes the real one. -/
private theorem ofBits_one_f32 : Ideal.ofBits .f32 0x3F800000#32 = 1 := by
  simp [Ideal.ofBits, Ideal.ieee, -EReal.coe_mul]; norm_num

/-- Every entry of the zero matrix is the real zero. -/
private theorem zeros32_apply (i j : Fin 32) : zeros32 (F := Ideal) (ix2 i j) = 0 :=
  Ideal.ofBits_zero_f32

/-- Every entry of the ones matrix is the real one. -/
private theorem ones32_apply (i j : Fin 32) : ones32 (F := Ideal) (ix2 i j) = 1 :=
  ofBits_one_f32

/-! ## The mask at (i, j) -/

/-- On the 32 × 32 grid the signed comparison (i − 1 ≥ j), the subtraction done by adding the all-ones word, holds exactly
    when j < i: for i = 0 the left side is −1, below every j; for i ≥ 1 it is the number i − 1. A finite check. -/
private theorem sge_fact : ∀ i j : Fin 32,
    IntOp.cmpi .sge (IntOp.addi (BitVec.ofNat 32 i.val) 4294967295#32) (BitVec.ofNat 32 j.val)
      = if j < i then 1#1 else 0#1 := by decide +kernel

/-- The triangle matrix at (i, j): zero strictly below the diagonal, one on or above it. -/
private theorem triuM_apply (i j : Fin 32) :
    triuM (F := Ideal) (ix2 i j) = if j < i then (0 : EReal) else 1 := by
  have h : triuM (F := Ideal) (ix2 i j)
      = Scalar.select (IntOp.cmpi .sge (IntOp.addi (BitVec.ofNat 32 i.val) 4294967295#32) (BitVec.ofNat 32 j.val))
          (zeros32 (F := Ideal) (ix2 i j)) (ones32 (F := Ideal) (ix2 i j)) := rfl
  rw [h, sge_fact, zeros32_apply, ones32_apply]
  by_cases hij : j < i
  · rw [if_pos hij, if_pos hij, select_one]
  · rw [if_neg hij, if_neg hij, select_zero]

/-- Its nonzero test at (i, j): the bit is set exactly when i ≤ j, since 0 ≠ 0 fails and 1 ≠ 0 holds. -/
private theorem maskV_apply (i j : Fin 32) :
    maskV (F := Ideal) (ix2 i j) = if i ≤ j then 1#1 else 0#1 := by
  unfold maskV
  rw [cmpf_apply, Ideal.cmpf_def, triuM_apply, zeros32_apply]
  by_cases hij : j < i
  · rw [if_pos hij, if_neg (not_le.mpr hij)]
    simp [Ideal.cmp]
  · rw [if_neg hij, if_pos (not_lt.mp hij)]
    simp [Ideal.cmp]

/-! ## The flattened mask -/

/-- Flat position f of the row-major 32 × 32 grid is row f / 32, column f mod 32, because 32·(f / 32) + f mod 32 = f;
    the flattened mask there is that entry's bit, widened. -/
private theorem maskFlat_eq (f : Fin 1024) :
    maskFlat (F := Ideal) (ix1 f)
      = (maskV (F := Ideal) (ix2 (⟨f.val / 32, by omega⟩ : Fin 32) (⟨f.val % 32, by omega⟩ : Fin 32))).setWidth 32 := by
  unfold maskFlat
  rw [extui_apply]
  refine congrArg (BitVec.setWidth 32) ?_
  refine shapeCast_apply _ _ _ _ ?_
  rw [Shape.rowMajor_val_two, Shape.rowMajor_val_one]
  show f.val / 32 * 32 + f.val % 32 = f.val
  omega

/-- The flattened, widened mask: one on or above the diagonal, zero below. -/
theorem maskFlat_apply (f : Fin 1024) :
    maskFlat (F := Ideal) (ix1 f) = if Cert.Spec.upper f.val then 1#32 else 0#32 := by
  rw [maskFlat_eq, maskV_apply]
  unfold Cert.Spec.upper
  by_cases h : f.val / 32 ≤ f.val % 32
  · rw [if_pos (show (⟨f.val / 32, by omega⟩ : Fin 32) ≤ ⟨f.val % 32, by omega⟩ from h), if_pos (decide_eq_true h)]
    rfl
  · rw [if_neg (show ¬ (⟨f.val / 32, by omega⟩ : Fin 32) ≤ ⟨f.val % 32, by omega⟩ from h), if_neg (by simpa using h)]
    rfl

/-! ## The running count -/

/-- Adding a one for every position k < m on or above the diagonal counts them: by induction on m, the position m
    itself adding one to both sides when it is on or above the diagonal and nothing otherwise. -/
private theorem sum_upper (m : Nat) :
    ∑ k ∈ Finset.range m, (if Cert.Spec.upper k then 1#32 else 0#32)
      = BitVec.ofNat 32 (((List.range m).filter Cert.Spec.upper).length) := by
  induction m with
  | zero => rfl
  | succ m ih =>
    rw [Finset.sum_range_succ, ih, List.range_succ, List.filter_append, List.length_append]
    by_cases h : Cert.Spec.upper m = true
    · rw [if_pos h, List.filter_cons_of_pos h, List.filter_nil, List.length_singleton, BitVec.ofNat_add]
    · rw [if_neg h, List.filter_cons_of_neg h, List.filter_nil, List.length_nil, Nat.add_zero, BitVec.add_zero]

/-- The running sums start from the integer zero. -/
private theorem zeroS_first : zeroS (Shape.Idx.first h_S_) = 0#32 := rfl

/-- The running count at f is the number of positions ≤ f on or above the diagonal: the running sum at f adds the mask
    over the positions k ≤ f, that is over k < f + 1, and the mask is one exactly on or above the diagonal. -/
theorem csum1_apply (f : Fin 1024) : csum1 (F := Ideal) (ix1 f) = BitVec.ofNat 32 (Cert.Spec.cntN f.val) := by
  unfold csum1
  rw [Cert.HostFold.reduceWindow_cumsum_apply (n := 1024) (pad := 1023) rfl (maskFlat (F := Ideal)) zeroS
    reduceWindows_S1024_S1024_w1024s1p1023_0 h_S_ zeroS_first f]
  unfold Cert.Spec.cntN
  rw [← sum_upper]
  have h1 : ∀ k : Fin 1024, (if k ≤ f then maskFlat (F := Ideal) (ix1 k) else 0#32)
      = (fun n : Nat => if n ≤ f.val then (if Cert.Spec.upper n then 1#32 else 0#32) else 0#32) k.val := by
    intro k
    rw [maskFlat_apply]
    rfl
  rw [Finset.sum_congr rfl (fun k _ => h1 k),
    Fin.sum_univ_eq_sum_range (fun n : Nat => if n ≤ f.val then (if Cert.Spec.upper n then 1#32 else 0#32) else 0#32) 1024]
  have hr : Finset.range (f.val + 1) = (Finset.range 1024).filter (fun n => n ≤ f.val) := by
    ext n
    simp only [Finset.mem_filter, Finset.mem_range]
    omega
  rw [hr, Finset.sum_filter]
  exact Finset.sum_congr rfl (fun _ _ => rfl)

end Cert.ReferenceIdeal.RefCsum

end
-- ==== Proof.RefFlat.lean ====
/-
  The running sum of the histogram of the running counts is the position table.

  The count c(f) of mask bits at positions ≤ f is nondecreasing and steps by one exactly at the positions on or above
  the diagonal. The histogram has, in bin q, the number of positions with c(f) = q; its running sum at p is the
  number of positions with c(f) ≤ p, which is the position at which the count first exceeds p: the position of the
  p-th entry (from zero) on or above the diagonal.

  The counts lie between 1 and 1024, so as 32-bit words read signed they are nonnegative: clipping them below at
  zero and wrapping the negative ones changes nothing. A count of 528 or more names no bin and its update is dropped.
  Sums of words are taken in the commutative ring of 32-bit words; a sum of indicator words is the word of a
  cardinality.
-/
import proofs.«117816_g68075231641772_cont_9to1c4b_264_8_alg».proof.Proof.RefCsum
import proofs.«117816_g68075231641772_cont_9to1c4b_264_8_alg».proof.Proof.LibScatterGather
import Mathlib.Data.BitVec
import Mathlib.Algebra.BigOperators.Ring.Finset
import Mathlib.Data.Fintype.Fin

noncomputable section

namespace Cert.ReferenceIdeal.RefFlat

open Cert.ReferenceIdeal Cert.ReferenceIdeal.Gen Cert.ReferenceIdeal.RefTerms Idealize.ShloMosaic Idealize.ShloMosaic.ValueIdx
open Cert.Spec
open scoped BigOperators

/-! ## Words below 2³¹, read signed -/

/-- The word of a number below 2³¹, read signed, is that number. -/
theorem toInt_word (c : Nat) (hc : c < 2147483648) : (BitVec.ofNat 32 c).toInt = (c : Int) := by
  have hn : (BitVec.ofNat 32 c).toNat = c := by
    rw [BitVec.toNat_ofNat]; omega
  rw [BitVec.toInt_eq_toNat_of_lt (by rw [hn]; omega), hn]

/-- Such a word is not below zero in the signed order. -/
theorem not_slt_zero_word (c : Nat) (hc : c < 2147483648) : (BitVec.ofNat 32 c).slt 0#32 = false := by
  rw [BitVec.slt_eq_decide, toInt_word c hc]
  have h0 : (0#32).toInt = 0 := rfl
  rw [h0]
  exact decide_eq_false (by omega)

/-- The signed maximum of zero and such a word is the word. -/
theorem maxsi_zero_word (c : Nat) (hc : c < 2147483648) :
    IntOp.maxsi 0#32 (BitVec.ofNat 32 c) = BitVec.ofNat 32 c := by
  unfold IntOp.maxsi
  rw [not_slt_zero_word c hc]
  rfl

/-- Wrapping the negative words by 528 leaves such a word as it is. -/
theorem wrap_word (c : Nat) (hc : c < 2147483648) :
    Scalar.select (IntOp.cmpi .slt (BitVec.ofNat 32 c) 0#32) (IntOp.addi (BitVec.ofNat 32 c) 528#32) (BitVec.ofNat 32 c)
      = BitVec.ofNat 32 c := by
  have h : IntOp.cmpi .slt (BitVec.ofNat 32 c) 0#32 = 0#1 := by
    show BitVec.ofBool ((BitVec.ofNat 32 c).slt 0#32) = 0#1
    rw [not_slt_zero_word c hc]
    rfl
  rw [h]
  exact select_zero _ _

/-! ## The counts -/

/-- At most f + 1 of the positions 0, …, f lie on or above the diagonal. -/
theorem cntN_le (f : Nat) : cntN f ≤ f + 1 := by
  unfold cntN
  exact (List.length_filter_le _ _).trans (by rw [List.length_range])

/-- The count steps by one exactly at the positions on or above the diagonal. -/
theorem cntN_succ (f : Nat) : cntN (f + 1) = cntN f + (if upper (f + 1) then 1 else 0) := by
  unfold cntN
  rw [List.range_succ, List.filter_append, List.length_append]
  congr 1
  cases h : upper (f + 1) <;> simp [h]

/-- The count is nondecreasing. -/
theorem cntN_mono {a b : Nat} (h : a ≤ b) : cntN a ≤ cntN b := by
  induction h with
  | refl => exact Nat.le_refl _
  | step _ ih => rw [cntN_succ]; omega

/-- The entries of the list of positions below n that satisfy P, in increasing order: entry p satisfies P, is
    below n, and is the position at which the running count of P reaches p + 1. By induction on n: the list for
    n + 1 is the list for n, followed by n when P n; an old entry keeps its three properties, and the new last
    entry n has as its number the length of the old list, which is the count of P below n. -/
theorem filter_range_spec (P : Nat → Bool) (n p f : Nat) (h : ((List.range n).filter P)[p]? = some f) :
    P f = true ∧ f < n ∧ ((List.range (f + 1)).filter P).length = p + 1 := by
  induction n with
  | zero => simp at h
  | succ n ih =>
    rw [List.range_succ, List.filter_append] at h
    by_cases hp : p < ((List.range n).filter P).length
    · rw [List.getElem?_append_left hp] at h
      obtain ⟨h1, h2, h3⟩ := ih h
      exact ⟨h1, by omega, h3⟩
    · rw [List.getElem?_append_right (by omega)] at h
      cases hP : P n with
      | false => simp [hP] at h
      | true =>
        have hl : [n].filter P = [n] := by simp [hP]
        rw [hl] at h
        rcases Nat.eq_zero_or_pos (p - ((List.range n).filter P).length) with h0 | h0
        · rw [h0] at h
          have hf : n = f := by simpa using h
          subst hf
          refine ⟨hP, by omega, ?_⟩
          rw [List.range_succ, List.filter_append, List.length_append, hl]
          simp only [List.length_singleton]
          omega
        · have hnone : [n][p - ((List.range n).filter P).length]? = none := by
            rw [List.getElem?_eq_none_iff]
            simp only [List.length_singleton]
            omega
          rw [hnone] at h
          exact absurd h (by simp)

/-- There are 528 positions on or above the diagonal of the 32 × 32 grid. -/
theorem nzList_length : nzList.length = 528 := by decide +kernel

/-- The p-th entry on or above the diagonal lies on or above the diagonal, is the position at which the count
    reaches p + 1, and is a position of the grid. -/
theorem nz_facts (p : Fin 528) : upper (nzN p.val) = true ∧ cntN (nzN p.val) = p.val + 1 ∧ nzN p.val < 1024 := by
  have hp : p.val < nzList.length := by rw [nzList_length]; exact p.isLt
  have hget : nzList[p.val]? = some (nzN p.val) := by
    unfold nzN
    rw [List.getD_eq_getElem?_getD, List.getElem?_eq_getElem hp]
    rfl
  obtain ⟨h1, h2, h3⟩ := filter_range_spec upper 1024 p.val (nzN p.val) hget
  exact ⟨h1, h3, h2⟩

/-- The positions whose count is at most p are the positions before the p-th entry f* on or above the diagonal:
    the count is nondecreasing, it is p + 1 at f*, and it is p just before f* (it steps by one at f*). So there
    are f* of them. -/
theorem card_le (p : Fin 528) :
    (Finset.univ.filter (fun f : Fin 1024 => cntN f.val ≤ p.val)).card = nzN p.val := by
  obtain ⟨hu, hc, hlt⟩ := nz_facts p
  have hiff : ∀ f : Fin 1024, cntN f.val ≤ p.val ↔ f.val < nzN p.val := by
    intro f
    constructor
    · intro h
      by_contra hge
      have := cntN_mono (Nat.le_of_not_lt hge)
      omega
    · intro h
      obtain ⟨m, hm⟩ : ∃ m, nzN p.val = m + 1 := ⟨nzN p.val - 1, by omega⟩
      have h1 := cntN_succ m
      rw [← hm, hu] at h1
      have h2 := cntN_mono (show f.val ≤ m by omega)
      simp at h1
      omega
  rw [Finset.filter_congr (fun f _ => hiff f), Fin.card_filter_val_lt]
  omega

/-! ## The stages read at one position -/

/-- A vector as a one-column matrix reads, at (f, 0), the vector at f. -/
theorem col_apply (v : IVec S1024 32) (f : Fin 1024) :
    broadcastInDim S1024x1 ![0] bcast_S1024_S1024x1_0 v (ix2 f 0) = v (ix1 f) := by
  unfold broadcastInDim
  refine congrArg v (funext fun a => ?_)
  obtain rfl : a = 0 := Subsingleton.elim _ _
  rfl

/-- The clipped count at f is the count: it is nonnegative. -/
theorem clipped_apply (f : Fin 1024) : clipped (F := Ideal) (ix1 f) = BitVec.ofNat 32 (cntN f.val) := by
  have h : clipped (F := Ideal) (ix1 f) = IntOp.maxsi 0#32 (csum1 (F := Ideal) (ix1 f)) := rfl
  have hc := cntN_le f.val
  rw [h, RefCsum.csum1_apply, maxsi_zero_word _ (by omega)]

/-- The wrapped count at f is the count: it is nonnegative. -/
theorem wrapped_apply (f : Fin 1024) : wrapped (F := Ideal) (ix1 f) = BitVec.ofNat 32 (cntN f.val) := by
  have h : wrapped (F := Ideal) (ix1 f)
      = Scalar.select (IntOp.cmpi .slt (clipped (F := Ideal) (ix1 f)) 0#32)
          (IntOp.addi (clipped (F := Ideal) (ix1 f)) 528#32) (clipped (F := Ideal) (ix1 f)) := rfl
  have hc := cntN_le f.val
  rw [h, clipped_apply, wrap_word _ (by omega)]

/-- A row, if any, names the bin q exactly when it is q. -/
theorem map_ix1_eq_some {N : Nat} (o : Option (Fin N)) (q : Fin N) :
    o.map (ix1 (n := N)) = some (ix1 q) ↔ o = some q := by
  cases o with
  | none => simp
  | some r =>
    simp only [Option.map_some, Option.some.injEq]
    constructor
    · intro h'
      exact congrFun h' 0
    · intro h'
      rw [h']

/-- The word of a number c below 2³¹ names bin q of the 528 bins exactly when c = q (and no bin when c ≥ 528). -/
theorem tgtW_word (c : Nat) (hc : c < 2147483648) (q : Fin 528) :
    Cert.ScatterGather.tgtW 528 (BitVec.ofNat 32 c) = some q ↔ c = q.val := by
  have ht := toInt_word c hc
  have hq := q.isLt
  unfold Cert.ScatterGather.tgtW
  split
  · next hx =>
    rw [Option.some.injEq]
    constructor
    · intro h'
      have h2 := congrArg Fin.val h'
      simp only [ht] at h2
      omega
    · intro h'
      apply Fin.ext
      simp only [ht]
      omega
  · next hx =>
    constructor
    · intro h'
      exact absurd h' (by simp)
    · intro h'
      exfalso
      apply hx
      rw [ht]
      omega

/-- Bin q of the histogram holds a one for every position whose count is q. -/
theorem binc_apply (q : Fin 528) :
    binc (F := Ideal) (ix1 q) = ∑ f : Fin 1024, if cntN f.val = q.val then 1#32 else 0#32 := by
  unfold binc
  rw [Cert.HostFold.scatter_addi_apply, Cert.ScatterGather.sum_idx1]
  have h0 : splat528 0#32 (ix1 q) = 0#32 := rfl
  rw [h0, BitVec.zero_add]
  refine Finset.sum_congr rfl fun f _ => ?_
  have hr := Cert.ScatterGather.resultIdx?_vec scatter_S528_S1024x1_S1024_n_0_0_1 rfl rfl rfl
      (broadcastInDim S1024x1 ![0] bcast_S1024_S1024x1_0 (wrapped (F := Ideal))) f
  have h1 : splat1024 1#32 (ix1 f) = 1#32 := rfl
  have hc := cntN_le f.val
  rw [hr, col_apply, wrapped_apply, h1]
  exact if_congr ((map_ix1_eq_some _ q).trans (tgtW_word _ (by omega) q)) rfl rfl

/-! ## The running sum of the histogram counts the positions whose count is at most p -/

/-- The running sum at p adds the bins q ≤ p; exchanging the two sums, a position f contributes a one for the
    one bin q = c(f) when c(f) ≤ p, and nothing otherwise. -/
theorem flatIdx_sum (p : Fin 528) :
    flatIdx (F := Ideal) (ix1 p) = ∑ f : Fin 1024, if cntN f.val ≤ p.val then 1#32 else 0#32 := by
  unfold flatIdx
  refine (Cert.HostFold.reduceWindow_cumsum_apply (n := 528) (pad := 527) rfl (binc (F := Ideal)) zeroS _ _ rfl p).trans ?_
  have h1 : ∀ k : Fin 528, (if k ≤ p then binc (F := Ideal) (ix1 k) else 0#32)
      = ∑ f : Fin 1024, if (k ≤ p ∧ cntN f.val = k.val) then 1#32 else 0#32 := by
    intro k
    by_cases hk : k ≤ p
    · rw [if_pos hk, binc_apply]
      refine Finset.sum_congr rfl fun f _ => ?_
      exact if_congr ⟨fun h => ⟨hk, h⟩, fun h => h.2⟩ rfl rfl
    · rw [if_neg hk]
      symm
      refine Finset.sum_eq_zero fun f _ => ?_
      rw [if_neg (fun h => hk h.1)]
      rfl
  rw [Finset.sum_congr rfl (fun k _ => h1 k), Finset.sum_comm]
  refine Finset.sum_congr rfl fun f _ => ?_
  have hp := p.isLt
  by_cases hc : cntN f.val ≤ p.val
  · rw [if_pos hc, Finset.sum_eq_single (⟨cntN f.val, by omega⟩ : Fin 528)]
    · rw [if_pos ⟨Fin.le_def.2 hc, rfl⟩]
    · intro k _ hk
      rw [if_neg]
      · rfl
      · rintro ⟨_, h2⟩
        exact hk (Fin.ext h2.symm)
    · intro h
      exact absurd (Finset.mem_univ _) h
  · rw [if_neg hc]
    refine Finset.sum_eq_zero fun k _ => ?_
    rw [if_neg]
    · rfl
    · rintro ⟨h1', h2⟩
      apply hc
      rw [h2]
      exact Fin.le_def.1 h1'

/-- A sum of indicator words over the 1024 positions is the word of the number of positions indicated. -/
theorem sum_boole_word (P : Fin 1024 → Prop) [DecidablePred P] :
    (∑ f : Fin 1024, if P f then 1#32 else 0#32) = BitVec.ofNat 32 (Finset.univ.filter P).card := by
  rw [← BitVec.natCast_eq_ofNat]
  exact Finset.sum_boole (R := BitVec 32) P (Finset.univ : Finset (Fin 1024))

/-- Entry p of the position table is the flat position of the p-th entry on or above the diagonal. -/
theorem flatIdx_apply (p : Fin 528) : flatIdx (F := Ideal) (ix1 p) = BitVec.ofNat 32 (Cert.Spec.nzN p.val) := by
  rw [flatIdx_sum, sum_boole_word, card_le]

end Cert.ReferenceIdeal.RefFlat

end
-- ==== Proof.RefIndex.lean ====
/-
  The row and column tables: quotient and remainder of the position table by 32.

  On the nonnegative words below 1024 that the position table holds, jnp's sign-correcting floor division and
  remainder are the plain quotient and remainder, and the wrap of a negative index changes nothing.

  Every operation of the floor division, the remainder and the wrap acts index by index on 32-bit words, and a
  rank-zero constant broadcast along the vector reads as its one word. So each table at p is one scalar function of
  the word the position table holds at p. That word is the word of a number below 1024, and on those 1024 words the
  scalar functions are the quotient and the remainder by 32: a finite check.
-/
import proofs.«117816_g68075231641772_cont_9to1c4b_264_8_alg».proof.Proof.RefFlat

noncomputable section

namespace Cert.ReferenceIdeal.RefIndex

open Cert.ReferenceIdeal Cert.ReferenceIdeal.Gen Cert.ReferenceIdeal.RefTerms Idealize.ShloMosaic Idealize.ShloMosaic.ValueIdx

/-! ## The scalar functions the tables apply at every index -/

/-- The sign of a word read signed: 0, −1 or 1. -/
def sgnS (a : BitVec 32) : BitVec 32 := if a = 0 then 0 else if a.msb then -1 else 1

/-- The floor division of one word by a divisor word: the truncating quotient, less one where the signs differ and
    the division is inexact. -/
def floorDivS (a c : BitVec 32) : BitVec 32 :=
  Scalar.select
    (IntOp.andi (IntOp.cmpi .ne (sgnS a) (sgnS c)) (IntOp.cmpi .ne (IntOp.remsi .host a c) 0#32))
    (IntOp.subi (IntOp.divsi .host a c) 1#32)
    (IntOp.divsi .host a c)

/-- The divisor the remainder uses: the word, or one where the word is zero. -/
def safeS (c : BitVec 32) : BitVec 32 := Scalar.select (IntOp.cmpi .eq c 0#32) 1#32 c

/-- The remainder of one word by a divisor word: the truncating remainder, plus the divisor where it is nonzero and
    its sign differs from the divisor's. -/
def remainderS (a c : BitVec 32) : BitVec 32 :=
  Scalar.select
    (IntOp.andi
      (IntOp.cmpi .ne (IntOp.cmpi .slt (IntOp.remsi .host a (safeS c)) 0#32) (IntOp.cmpi .slt (safeS c) 0#32))
      (IntOp.cmpi .ne (IntOp.remsi .host a (safeS c)) 0#32))
    (IntOp.addi (IntOp.remsi .host a (safeS c)) (safeS c))
    (IntOp.remsi .host a (safeS c))

/-- The wrap of one word: 32 added where it is negative. -/
def wrapS (a : BitVec 32) : BitVec 32 := Scalar.select (IntOp.cmpi .slt a 0#32) (IntOp.addi a 32#32) a

/-! ## Each table operation read at an index is its scalar function of the operand's word there -/

theorem floorDiv_apply (a : IVec S528 32) (c : BitVec 32) (p : Fin 528) :
    floorDiv a (constantI S_ 32 c) (ix1 p) = floorDivS (a (ix1 p)) c := rfl

theorem remainder_apply (a : IVec S528 32) (c : BitVec 32) (p : Fin 528) :
    remainder a (constantI S_ 32 c) (ix1 p) = remainderS (a (ix1 p)) c := rfl

theorem wrap32_apply (a : IVec S528 32) (p : Fin 528) : wrap32 a (ix1 p) = wrapS (a (ix1 p)) := rfl

/-! ## The finite checks over the words of the numbers below 1024 -/

/-- On the word of v < 1024: floor division by 32, remainder by 32 and the wrap give the word of v / 32. -/
theorem rowS_word : ∀ v : Fin 1024,
    wrapS (remainderS (floorDivS (BitVec.ofNat 32 v.val) 32#32) 32#32) = BitVec.ofNat 32 (v.val / 32) := by
  decide +kernel

/-- On the word of v < 1024: floor division by 1, remainder by 32 and the wrap give the word of v mod 32. -/
theorem colS_word : ∀ v : Fin 1024,
    wrapS (remainderS (floorDivS (BitVec.ofNat 32 v.val) 1#32) 32#32) = BitVec.ofNat 32 (v.val % 32) := by
  decide +kernel

/-! ## The tables -/

/-- The (wrapped) row table at p: the row of the p-th entry on or above the diagonal. -/
theorem wrap_rows_apply (p : Fin 528) :
    wrap32 (rowsTbl (F := Ideal)) (ix1 p) = BitVec.ofNat 32 (Cert.Spec.nzN p.val / 32) := by
  have hv : Cert.Spec.nzN p.val < 1024 := (Cert.Spec.tri_nz p).1
  have h := rowS_word ⟨Cert.Spec.nzN p.val, hv⟩
  refine Eq.trans ?_ h
  refine (wrap32_apply _ p).trans ?_
  refine congrArg wrapS ?_
  refine (remainder_apply _ 32#32 p).trans ?_
  refine congrArg (fun w => remainderS w 32#32) ?_
  refine (floorDiv_apply _ 32#32 p).trans ?_
  exact congrArg (fun w => floorDivS w 32#32) (Cert.ReferenceIdeal.RefFlat.flatIdx_apply p)

/-- The (wrapped) column table at p: the column of the p-th entry on or above the diagonal. -/
theorem wrap_cols_apply (p : Fin 528) :
    wrap32 (colsTbl (F := Ideal)) (ix1 p) = BitVec.ofNat 32 (Cert.Spec.nzN p.val % 32) := by
  have hv : Cert.Spec.nzN p.val < 1024 := (Cert.Spec.tri_nz p).1
  have h := colS_word ⟨Cert.Spec.nzN p.val, hv⟩
  refine Eq.trans ?_ h
  refine (wrap32_apply _ p).trans ?_
  refine congrArg wrapS ?_
  refine (remainder_apply _ 32#32 p).trans ?_
  refine congrArg (fun w => remainderS w 32#32) ?_
  refine (floorDiv_apply _ 1#32 p).trans ?_
  exact congrArg (fun w => floorDivS w 1#32) (Cert.ReferenceIdeal.RefFlat.flatIdx_apply p)

end Cert.ReferenceIdeal.RefIndex

end
-- ==== Proof.LibScatterPair.lean ====
/-
  Where an update lands, for a scatter of rows into a rank-3 array by PAIRS of index words.

  The operand is [N, A, B]; the updates are [N, E]; the indices are [E, 2]. Update (n, e) is written at
  (n, r, c), where (r, c) are the two index words of row e read signed — when r lies in [0, A) and c in [0, B);
  otherwise the update is dropped.

  The updates' axis 0 is the one window axis and goes to the operand's axis 0, the only one not inserted: the window
  coordinate there is n, and 0 on the operand's axes 1 and 2. The updates' axis 1 is the scatter axis and reads row e
  of the indices; the operand's axes 1 and 2 take their starts from the two words of that row, read signed, and axis 0
  starts at 0. The landing index is start plus window coordinate on every axis, kept when it is inside the operand on
  every axis: axis 0 always is (n < N), so it is kept exactly when both words name a row and a column.
-/
import Idealize.ShloMosaic.PureOps.Ideal
import Idealize.ShloMosaic.Lib.ValueIdx
import proofs.«117816_g68075231641772_cont_9to1c4b_264_8_alg».proof.Proof.LibScatterGather

noncomputable section

namespace Cert.ScatterPair

open Idealize.ShloMosaic Idealize.ShloMosaic.ValueIdx Cert.ScatterGather

/-- A statement about the three axes of a rank-3 array holds on all of them when it holds on each. -/
theorem forall_fin3 {P : Fin 3 → Prop} (h0 : P 0) (h1 : P 1) (h2 : P 2) : ∀ a, P a := by
  intro a
  match a with
  | ⟨0, _⟩ => exact h0
  | ⟨1, _⟩ => exact h1
  | ⟨2, _⟩ => exact h2

section Pair

variable {N A B E w : Nat} (d : ScatterDims ⟨3, ![N, A, B]⟩ ⟨2, ![E, 2]⟩ ⟨2, ![N, E]⟩)

/-- The updates' scatter axis is axis 1 (axis 0 is the window axis). -/
theorem uScatter_pair (hu : d.updateWindowDims = [0]) : d.uScatter = [1] := by
  show (List.finRange 2).filter (fun a => a ∉ d.updateWindowDims) = [1]
  rw [hu]
  exact (by decide : (List.finRange 2).filter (fun a : Fin 2 => a ∉ [(0 : Fin 2)]) = [(1 : Fin 2)])

/-- The operand's kept axis is axis 0 (axes 1 and 2 are inserted). -/
theorem sKept_pair (hi : d.insertedWindowDims = [1, 2]) : d.sKept = [0] := by
  show (List.finRange 3).filter (fun a => a ∉ d.insertedWindowDims) = [0]
  rw [hi]
  exact (by decide : (List.finRange 3).filter (fun a : Fin 3 => a ∉ [(1 : Fin 3), 2]) = [(0 : Fin 3)])

/-- Update (n, e) reads component k of its start index at (e, k) of the indices. -/
theorem siIdx_pair (hu : d.updateWindowDims = [0]) (hv : d.indexVectorDim = 1) (n : Fin N) (e : Fin E)
    (c : Fin d.scatterDimsToOperandDims.length) (k : Fin 2) (hck : c.val = k.val) :
    d.siIdx (ix2 n e) c = ix2 e k := by
  funext b
  match b with
  | ⟨0, _⟩ =>
    unfold ScatterDims.siIdx
    rw [dif_neg (by rw [hv]; simp)]
    unfold ScatterDims.siCoord
    apply Fin.ext
    simp only [Fin.val_cast]
    refine ix2_val_axis1 n e _ ?_
    have hall : ∀ X ∈ d.uScatter, X = 1 := by
      rw [uScatter_pair d hu]; intro X hX; exact List.mem_singleton.mp hX
    exact hall _ (List.getElem_mem _)
  | ⟨1, _⟩ =>
    unfold ScatterDims.siIdx
    rw [dif_pos (by rw [hv])]
    apply Fin.ext
    show c.val = k.val
    exact hck

/-- The start index names no slab: the window starts at slab 0. -/
theorem start_pair0 (hs : d.scatterDimsToOperandDims = [1, 2])
    (idx : IVec ⟨2, ![E, 2]⟩ w) (j : (⟨2, ![N, E]⟩ : Shape).Idx) : d.start j idx 0 = 0 := by
  have hm : (0 : Fin 3) ∉ d.scatterDimsToOperandDims := by
    rw [hs]; exact (by decide : (0 : Fin 3) ∉ [(1 : Fin 3), 2])
  unfold ScatterDims.start
  rw [dif_neg hm]

/-- The start of update (n, e)'s window on the operand's row axis: the first word of row e, read signed. -/
theorem start_pair1 (hu : d.updateWindowDims = [0])
    (hs : d.scatterDimsToOperandDims = [1, 2]) (hv : d.indexVectorDim = 1)
    (idx : IVec ⟨2, ![E, 2]⟩ w) (n : Fin N) (e : Fin E) :
    d.start (ix2 n e) idx 1 = (idx (ix2 e 0)).toInt := by
  have hm : (1 : Fin 3) ∈ d.scatterDimsToOperandDims := by
    rw [hs]; exact (by decide : (1 : Fin 3) ∈ [(1 : Fin 3), 2])
  unfold ScatterDims.start
  rw [dif_pos hm]
  congr 2
  refine siIdx_pair d hu hv n e _ 0 ?_
  show List.idxOf (1 : Fin 3) d.scatterDimsToOperandDims = 0
  rw [hs]
  exact (by decide : List.idxOf (1 : Fin 3) [(1 : Fin 3), 2] = 0)

/-- The start of update (n, e)'s window on the operand's column axis: the second word of row e, read signed. -/
theorem start_pair2 (hu : d.updateWindowDims = [0])
    (hs : d.scatterDimsToOperandDims = [1, 2]) (hv : d.indexVectorDim = 1)
    (idx : IVec ⟨2, ![E, 2]⟩ w) (n : Fin N) (e : Fin E) :
    d.start (ix2 n e) idx 2 = (idx (ix2 e 1)).toInt := by
  have hm : (2 : Fin 3) ∈ d.scatterDimsToOperandDims := by
    rw [hs]; exact (by decide : (2 : Fin 3) ∈ [(1 : Fin 3), 2])
  unfold ScatterDims.start
  rw [dif_pos hm]
  congr 2
  refine siIdx_pair d hu hv n e _ 1 ?_
  show List.idxOf (2 : Fin 3) d.scatterDimsToOperandDims = 1
  rw [hs]
  exact (by decide : List.idxOf (2 : Fin 3) [(1 : Fin 3), 2] = 1)

/-- The operand's slab axis is the window axis: the window coordinate there is the update's slab. -/
theorem window_pair0 (hu : d.updateWindowDims = [0]) (hi : d.insertedWindowDims = [1, 2]) (n : Fin N) (e : Fin E) :
    d.window (ix2 n e) 0 = n.val := by
  have hk : (0 : Fin 3) ∈ d.sKept := by rw [sKept_pair d hi]; exact List.mem_singleton.mpr rfl
  unfold ScatterDims.window
  rw [dif_pos hk]
  refine ix2_val_axis0 n e _ ?_
  have hall : ∀ X ∈ d.updateWindowDims, X = 0 := by
    rw [hu]; intro X hX; exact List.mem_singleton.mp hX
  exact hall _ (List.getElem_mem _)

/-- The operand's row and column axes are inserted: the window coordinate there is 0. -/
theorem window_pair12 (hi : d.insertedWindowDims = [1, 2]) (j : (⟨2, ![N, E]⟩ : Shape).Idx) (a : Fin 3) (ha : a ≠ 0) :
    d.window j a = 0 := by
  have hk : a ∉ d.sKept := by
    rw [sKept_pair d hi]; intro h; exact ha (List.mem_singleton.mp h)
  unfold ScatterDims.window
  rw [dif_neg hk]

end Pair

/-- Where update (n, e) lands: at (n, r, c) for the row and column its two index words name, when both name one. -/
theorem resultIdx?_pair {N A B E w : Nat} (d : ScatterDims ⟨3, ![N, A, B]⟩ ⟨2, ![E, 2]⟩ ⟨2, ![N, E]⟩)
    (hu : d.updateWindowDims = [0]) (hi : d.insertedWindowDims = [1, 2])
    (hs : d.scatterDimsToOperandDims = [1, 2]) (hv : d.indexVectorDim = 1)
    (idx : IVec ⟨2, ![E, 2]⟩ w) (n : Fin N) (e : Fin E) :
    d.resultIdx? (ix2 n e) idx
      = (tgtW A (idx (ix2 e 0))).bind fun r => (tgtW B (idx (ix2 e 1))).map fun c => ix3 n r c := by
  have hst0 := start_pair0 d hs idx (ix2 n e)
  have hst1 := start_pair1 d hu hs hv idx n e
  have hst2 := start_pair2 d hu hs hv idx n e
  have hwi0 := window_pair0 d hu hi n e
  have hwi1 := window_pair12 d hi (ix2 n e) 1 (by decide)
  have hwi2 := window_pair12 d hi (ix2 n e) 2 (by decide)
  have hn := n.isLt
  unfold ScatterDims.resultIdx? tgtW
  by_cases hx : 0 ≤ (idx (ix2 e 0)).toInt ∧ (idx (ix2 e 0)).toInt < (A : Int)
  · by_cases hy : 0 ≤ (idx (ix2 e 1)).toInt ∧ (idx (ix2 e 1)).toInt < (B : Int)
    · have hall : ∀ a : Fin 3, 0 ≤ d.start (ix2 n e) idx a + d.window (ix2 n e) a ∧
          d.start (ix2 n e) idx a + d.window (ix2 n e) a < (⟨3, ![N, A, B]⟩ : Shape).size a := by
        refine forall_fin3 ?_ ?_ ?_
        · rw [hst0, hwi0]
          show 0 ≤ (0 : Int) + (n.val : Int) ∧ (0 : Int) + (n.val : Int) < (N : Int)
          omega
        · rw [hst1, hwi1]
          show 0 ≤ (idx (ix2 e 0)).toInt + ((0 : Nat) : Int) ∧ (idx (ix2 e 0)).toInt + ((0 : Nat) : Int) < (A : Int)
          omega
        · rw [hst2, hwi2]
          show 0 ≤ (idx (ix2 e 1)).toInt + ((0 : Nat) : Int) ∧ (idx (ix2 e 1)).toInt + ((0 : Nat) : Int) < (B : Int)
          omega
      rw [dif_pos hall, dif_pos hx, dif_pos hy]
      show some _ = some _
      congr 1
      have hpt : ∀ a : Fin 3,
          (⟨(d.start (ix2 n e) idx a + d.window (ix2 n e) a).toNat, by have := hall a; omega⟩ :
            Fin ((⟨3, ![N, A, B]⟩ : Shape).size a))
          = (ix3 n (⟨(idx (ix2 e 0)).toInt.toNat, by omega⟩ : Fin A) (⟨(idx (ix2 e 1)).toInt.toNat, by omega⟩ : Fin B) :
              (⟨3, ![N, A, B]⟩ : Shape).Idx) a := by
        refine forall_fin3 ?_ ?_ ?_
        · apply Fin.ext
          show (d.start (ix2 n e) idx 0 + d.window (ix2 n e) 0).toNat = n.val
          rw [hst0, hwi0]
          simp
        · apply Fin.ext
          show (d.start (ix2 n e) idx 1 + d.window (ix2 n e) 1).toNat = (idx (ix2 e 0)).toInt.toNat
          rw [hst1, hwi1]
          simp
        · apply Fin.ext
          show (d.start (ix2 n e) idx 2 + d.window (ix2 n e) 2).toNat = (idx (ix2 e 1)).toInt.toNat
          rw [hst2, hwi2]
          simp
      funext a
      exact hpt a
    · have hnall : ¬ ∀ a : Fin 3, 0 ≤ d.start (ix2 n e) idx a + d.window (ix2 n e) a ∧
          d.start (ix2 n e) idx a + d.window (ix2 n e) a < (⟨3, ![N, A, B]⟩ : Shape).size a := fun hall => by
        have h2 := hall 2
        rw [hst2, hwi2] at h2
        apply hy
        have h2' : 0 ≤ (idx (ix2 e 1)).toInt + ((0 : Nat) : Int) ∧ (idx (ix2 e 1)).toInt + ((0 : Nat) : Int) < (B : Int) := h2
        omega
      rw [dif_neg hnall, dif_pos hx, dif_neg hy]
      rfl
  · have hnall : ¬ ∀ a : Fin 3, 0 ≤ d.start (ix2 n e) idx a + d.window (ix2 n e) a ∧
        d.start (ix2 n e) idx a + d.window (ix2 n e) a < (⟨3, ![N, A, B]⟩ : Shape).size a := fun hall => by
      have h1 := hall 1
      rw [hst1, hwi1] at h1
      apply hx
      have h1' : 0 ≤ (idx (ix2 e 0)).toInt + ((0 : Nat) : Int) ∧ (idx (ix2 e 0)).toInt + ((0 : Nat) : Int) < (A : Int) := h1
      omega
    rw [dif_neg hnall, dif_neg hx]
    rfl

end Cert.ScatterPair

end
-- ==== Proof.RefValue.lean ====
/-
  The reference's result, index by index, is the common function.

  The first scatter writes projection entry p of node n at (n, row p, col p), the second at (n, col p, row p).
  (row p, col p) runs over the pairs i ≤ j exactly once, p = tri (i, j). So (n, i, j) with i ≤ j receives entry
  tri (i, j) from the first scatter and, when i = j, the same entry again from the second; (n, i, j) with i > j
  receives entry tri (j, i) from the second. Either way the entry is projection entry tri {i, j} of node n.
-/
import proofs.«117816_g68075231641772_cont_9to1c4b_264_8_alg».proof.Proof.RefIndex
import proofs.«117816_g68075231641772_cont_9to1c4b_264_8_alg».proof.Proof.LibScatterPair
import proofs.«117816_g68075231641772_cont_9to1c4b_264_8_alg».proof.Proof.LibDotPlain
import proofs.«117816_g68075231641772_cont_9to1c4b_264_8_alg».proof.Proof.LibHostFold
import Idealize.ShloMosaic.Lib.ValueLayout
import Idealize.ShloMosaic.Lib.Pipeline.Value

noncomputable section

namespace Cert.ReferenceIdeal.RefValue

open Cert.ReferenceIdeal Cert.ReferenceIdeal.Gen Cert.ReferenceIdeal.RefTerms Idealize.ShloMosaic Idealize.ShloMosaic.ValueIdx
open Cert.Spec Cert.ScatterGather
open scoped BigOperators

/-! ## The projection at an index -/

/-- Entry p of node n's projection row: the inner product of x's row n with W's row p, plus the bias entry p. -/
theorem proj_apply (x : FVec Ideal S50000x128 .f32) (W : FVec Ideal S528x128 .f32) (b : FVec Ideal S528 .f32)
    (n : Fin 50000) (p : Fin 528) :
    proj (F := Ideal) x W b (ix2 n p) = (∑ k : Fin 128, x (ix2 n k) * W (ix2 p k)) + b (ix1 p) := by
  unfold proj
  refine (addf_apply _ _ _).trans ?_
  refine congrArg₂ (· + ·) ?_ ?_
  · simp only [Host.dotGeneral]
    refine (Cert.DotPlain.dotGeneral_rows_cols dot_S50000x128_S128x528_S50000x528_1_0_0_1_n_n rfl rfl rfl rfl rfl rfl
      none .single x _ n p).trans ?_
    refine Finset.sum_congr rfl fun k _ => ?_
    refine congrArg (x (ix2 n k) * ·) ?_
    exact transpose_ix2_apply W transposes_S528x128_S128x528_1_0 k p
  · refine (broadcastInDim_apply _ _ _ (ix2 n p) (ix2 (0 : Fin 1) p) ?_).trans ?_
    · intro a
      match a with
      | ⟨0, _⟩ => rfl
      | ⟨1, _⟩ => rfl
    · exact broadcastInDim_apply _ _ _ (ix2 (0 : Fin 1) p) (ix1 p) (fun a => match a with | ⟨0, _⟩ => rfl)

/-! ## The index tables at an index -/

/-- A vector as a one-column matrix reads, at (p, 0), the vector at p. -/
theorem asCol_apply (a : IVec S528 32) (p : Fin 528) : asCol a (ix2 p (0 : Fin 1)) = a (ix1 p) := by
  unfold asCol
  exact broadcastInDim_apply _ _ _ (ix2 p (0 : Fin 1)) (ix1 p) (fun c => match c with | ⟨0, _⟩ => rfl)

/-- Two one-column matrices side by side: column 0 is the first. -/
theorem concat_col0 (a c : IVec S528x1 32) (p : Fin 528) :
    concatenate S528x2 1 [⟨S528x1, a⟩, ⟨S528x1, c⟩] concatenates_S528x1_S528x1_S528x2_d1 (ix2 p (0 : Fin 2))
      = a (ix2 p (0 : Fin 1)) :=
  concatenate_pair_apply_left 1 a c _ (ix2 p (0 : Fin 2)) rfl (ix2 p (0 : Fin 1))
    (fun b => match b with | ⟨0, _⟩ => rfl | ⟨1, _⟩ => rfl)

/-- Two one-column matrices side by side: column 1 is the second. -/
theorem concat_col1 (a c : IVec S528x1 32) (p : Fin 528) :
    concatenate S528x2 1 [⟨S528x1, a⟩, ⟨S528x1, c⟩] concatenates_S528x1_S528x1_S528x2_d1 (ix2 p (1 : Fin 2))
      = c (ix2 p (0 : Fin 1)) :=
  concatenate_pair_apply_right 1 a c _ (ix2 p (1 : Fin 2)) rfl rfl (ix2 p (0 : Fin 1))
    (fun b hb => match b, hb with | ⟨0, _⟩, _ => rfl | ⟨1, _⟩, hb => absurd rfl hb) rfl

/-! ## Row and column of the p-th pair -/

/-- The row of the pair numbered p. -/
def rowF (p : Fin 528) : Fin 32 := ⟨nzN p.val / 32, by have := (tri_nz p).1; omega⟩

/-- The column of the pair numbered p. -/
def colF (p : Fin 528) : Fin 32 := ⟨nzN p.val % 32, Nat.mod_lt _ (by decide)⟩

/-- A pair lies on or above the diagonal. -/
theorem rowF_le_colF (p : Fin 528) : rowF p ≤ colF p := (tri_nz p).2.1

/-- A pair's number is determined by its row and column. -/
theorem tri_rowF_colF (p : Fin 528) : tri (rowF p) (colF p) = p := Fin.ext (tri_nz p).2.2

/-- For i ≤ j the pair numbered tri (i, j) has row i. -/
theorem rowF_tri (i j : Fin 32) (h : i ≤ j) : rowF (tri i j) = i := by
  apply Fin.ext
  show nzN (triN i.val j.val) / 32 = i.val
  rw [nzN_tri i j h]
  have := j.isLt
  omega

/-- For i ≤ j the pair numbered tri (i, j) has column j. -/
theorem colF_tri (i j : Fin 32) (h : i ≤ j) : colF (tri i j) = j := by
  apply Fin.ext
  show nzN (triN i.val j.val) % 32 = j.val
  rw [nzN_tri i j h]
  have := j.isLt
  omega

/-- Row p of the upper-triangle index table is (row p, col p). -/
theorem idxUp_col0 (p : Fin 528) : idxUp (F := Ideal) (ix2 p (0 : Fin 2)) = BitVec.ofNat 32 (rowF p).val := by
  unfold idxUp
  refine (concat_col0 _ _ p).trans ?_
  refine (asCol_apply _ p).trans ?_
  exact RefIndex.wrap_rows_apply p

/-- Its second word is the column. -/
theorem idxUp_col1 (p : Fin 528) : idxUp (F := Ideal) (ix2 p (1 : Fin 2)) = BitVec.ofNat 32 (colF p).val := by
  unfold idxUp
  refine (concat_col1 _ _ p).trans ?_
  refine (asCol_apply _ p).trans ?_
  exact RefIndex.wrap_cols_apply p

/-- Row p of the lower-triangle index table is (col p, row p). -/
theorem idxLo_col0 (p : Fin 528) : idxLo (F := Ideal) (ix2 p (0 : Fin 2)) = BitVec.ofNat 32 (colF p).val := by
  unfold idxLo
  refine (concat_col0 _ _ p).trans ?_
  refine (asCol_apply _ p).trans ?_
  exact RefIndex.wrap_cols_apply p

/-- Its second word is the row. -/
theorem idxLo_col1 (p : Fin 528) : idxLo (F := Ideal) (ix2 p (1 : Fin 2)) = BitVec.ofNat 32 (rowF p).val := by
  unfold idxLo
  refine (concat_col1 _ _ p).trans ?_
  refine (asCol_apply _ p).trans ?_
  exact RefIndex.wrap_rows_apply p

/-! ## Where the updates land -/

/-- A word below 32 names itself as a row (or column) of a 32-long axis. -/
theorem tgtW_ofNat (v : Fin 32) : tgtW 32 (BitVec.ofNat 32 v.val) = some v := by
  have hv := v.isLt
  have hn : (BitVec.ofNat 32 v.val).toNat = v.val := by
    rw [BitVec.toNat_ofNat]; omega
  have ht : (BitVec.ofNat 32 v.val).toInt = (v.val : Int) := by
    rw [BitVec.toInt_eq_toNat_of_lt (by rw [hn]; omega), hn]
  unfold tgtW
  rw [dif_pos (by rw [ht]; omega)]
  refine congrArg some (Fin.ext ?_)
  show (BitVec.ofNat 32 v.val).toInt.toNat = v.val
  rw [ht]; omega

/-- Three coordinates are determined by the index they spell. -/
theorem ix3_inj {n0 n1 n2 : Nat} {a a' : Fin n0} {b b' : Fin n1} {c c' : Fin n2}
    (h : (ix3 a b c : (⟨3, ![n0, n1, n2]⟩ : Shape).Idx) = ix3 a' b' c') : a = a' ∧ b = b' ∧ c = c' :=
  ⟨congrFun h 0, congrFun h 1, congrFun h 2⟩

/-- The first scatter writes update (n, p) at (n, row p, col p). -/
theorem hitUp (n : Fin 50000) (p : Fin 528) :
    scatter_S50000x32x32_S528x2_S50000x528_0_12_12_1.resultIdx? (ix2 n p) (idxUp (F := Ideal))
      = some (ix3 n (rowF p) (colF p)) := by
  refine (Cert.ScatterPair.resultIdx?_pair scatter_S50000x32x32_S528x2_S50000x528_0_12_12_1 rfl rfl rfl rfl
    (idxUp (F := Ideal)) n p).trans ?_
  rw [idxUp_col0, idxUp_col1, tgtW_ofNat, tgtW_ofNat]
  rfl

/-- The second scatter writes update (n, p) at (n, col p, row p). -/
theorem hitLo (n : Fin 50000) (p : Fin 528) :
    scatter_S50000x32x32_S528x2_S50000x528_0_12_12_1.resultIdx? (ix2 n p) (idxLo (F := Ideal))
      = some (ix3 n (colF p) (rowF p)) := by
  refine (Cert.ScatterPair.resultIdx?_pair scatter_S50000x32x32_S528x2_S50000x528_0_12_12_1 rfl rfl rfl rfl
    (idxLo (F := Ideal)) n p).trans ?_
  rw [idxLo_col0, idxLo_col1, tgtW_ofNat, tgtW_ofNat]
  rfl

/-! ## The two scatters at an index -/

/-- On or above the diagonal the first scatter leaves projection entry tri (i, j). -/
theorem up_apply_of_le (x : FVec Ideal S50000x128 .f32) (W : FVec Ideal S528x128 .f32) (b : FVec Ideal S528 .f32)
    (n : Fin 50000) (i j : Fin 32) (h : i ≤ j) :
    up (F := Ideal) x W b (ix3 n i j) = proj (F := Ideal) x W b (ix2 n (tri i j)) := by
  unfold up
  refine Cert.HostFold.scatter_set_apply_of_unique _ _ _ _ (ix3 n i j) (ix2 n (tri i j)) ?_ ?_
  · rw [hitUp, rowF_tri i j h, colF_tri i j h]
  · intro j' hj'
    obtain ⟨n', p', rfl⟩ : ∃ (n' : Fin 50000) (p' : Fin 528), j' = ix2 n' p' := ⟨j' 0, j' 1, eq_ix2 j'⟩
    rw [hitUp] at hj'
    obtain ⟨hn, hr, hc⟩ := ix3_inj (Option.some.inj hj')
    rw [hn, ← tri_rowF_colF p', hr, hc]

/-- On or below the diagonal the second scatter leaves projection entry tri (j, i). -/
theorem out_apply_of_ge (x : FVec Ideal S50000x128 .f32) (W : FVec Ideal S528x128 .f32) (b : FVec Ideal S528 .f32)
    (n : Fin 50000) (i j : Fin 32) (h : j ≤ i) :
    out (F := Ideal) x W b (ix3 n i j) = proj (F := Ideal) x W b (ix2 n (tri j i)) := by
  unfold out
  refine Cert.HostFold.scatter_set_apply_of_unique _ _ _ _ (ix3 n i j) (ix2 n (tri j i)) ?_ ?_
  · rw [hitLo, rowF_tri j i h, colF_tri j i h]
  · intro j' hj'
    obtain ⟨n', p', rfl⟩ : ∃ (n' : Fin 50000) (p' : Fin 528), j' = ix2 n' p' := ⟨j' 0, j' 1, eq_ix2 j'⟩
    rw [hitLo] at hj'
    obtain ⟨hn, hc, hr⟩ := ix3_inj (Option.some.inj hj')
    rw [hn, ← tri_rowF_colF p', hr, hc]

/-- Strictly above the diagonal the second scatter writes nothing. -/
theorem out_apply_of_lt (x : FVec Ideal S50000x128 .f32) (W : FVec Ideal S528x128 .f32) (b : FVec Ideal S528 .f32)
    (n : Fin 50000) (i j : Fin 32) (h : i < j) :
    out (F := Ideal) x W b (ix3 n i j) = up (F := Ideal) x W b (ix3 n i j) := by
  unfold out
  refine Cert.HostFold.scatter_set_apply_of_none _ _ _ _ (ix3 n i j) ?_
  intro j' hj'
  obtain ⟨n', p', rfl⟩ : ∃ (n' : Fin 50000) (p' : Fin 528), j' = ix2 n' p' := ⟨j' 0, j' 1, eq_ix2 j'⟩
  rw [hitLo] at hj'
  obtain ⟨_, hc, hr⟩ := ix3_inj (Option.some.inj hj')
  have := rowF_le_colF p'
  rw [hc, hr] at this
  exact absurd h (not_lt.mpr this)

/-- The reference's result at (n, i, j). -/
theorem out_apply (x : FVec Ideal S50000x128 .f32) (W : FVec Ideal S528x128 .f32) (b : FVec Ideal S528 .f32)
    (n : Fin 50000) (i j : Fin 32) :
    out (F := Ideal) x W b (ix3 n i j) = Cert.Spec.Gat x W b n i j := by
  rcases lt_or_ge i j with h | h
  · rw [out_apply_of_lt x W b n i j h, up_apply_of_le x W b n i j (le_of_lt h)]
    exact proj_apply x W b n (tri i j)
  · rw [out_apply_of_ge x W b n i j h, tri_comm j i]
    exact proj_apply x W b n (tri i j)

/-- The reference's result is the common function of its arguments. -/
theorem out_eq (x : FVec Ideal S50000x128 .f32) (W : FVec Ideal S528x128 .f32) (b : FVec Ideal S528 .f32) :
    out (F := Ideal) x W b = Cert.Spec.G x W b := by
  funext y
  obtain ⟨n, i, j, rfl⟩ : ∃ (n : Fin 50000) (i j : Fin 32), y = ix3 n i j := ⟨y 0, y 1, y 2, eq_ix3 y⟩
  exact out_apply x W b n i j

end Cert.ReferenceIdeal.RefValue

end
-- ==== Proof.lean ====
/-
  The certificate: a symmetric-matrix projection kernel against its scatter reference.

  The reference projects each node's 128 features to 528 numbers, one per unordered pair {i, j} of 0 ≤ i, j < 32, and
  scatters them into a symmetric 32 × 32 matrix (upper triangle, then lower). The kernel folds that scatter into the
  weights: it gathers the rows of W and the entries of b by the pair number of each of the 1024 matrix positions and
  computes the whole matrix by one product. Both compute, at (n, i, j),
      Σ_k x (n, k) · W (tri {i, j}, k) + b (tri {i, j})
  with the same sum over k, so the two results are equal on the extended reals with no appeal to finiteness.
  The frames of the two kernel programs are the generated ones; the reference's frame is its run with the result
  dropped; the idealization rewrote nothing.
-/
import proofs.«117816_g68075231641772_cont_9to1c4b_264_8_alg».proof.Defs
import proofs.«117816_g68075231641772_cont_9to1c4b_264_8_alg».proof.Proof.Gen.Kernel
import proofs.«117816_g68075231641772_cont_9to1c4b_264_8_alg».proof.Proof.Gen.Kernel.Frame
import proofs.«117816_g68075231641772_cont_9to1c4b_264_8_alg».proof.Proof.Gen.KernelIdeal
import proofs.«117816_g68075231641772_cont_9to1c4b_264_8_alg».proof.Proof.Gen.KernelIdeal.Frame
import proofs.«117816_g68075231641772_cont_9to1c4b_264_8_alg».proof.Proof.Gen.ReferenceIdeal
import proofs.«117816_g68075231641772_cont_9to1c4b_264_8_alg».proof.Proof.Gen.Pre_finite_inputs
import proofs.«117816_g68075231641772_cont_9to1c4b_264_8_alg».proof.Proof.KerValue
import proofs.«117816_g68075231641772_cont_9to1c4b_264_8_alg».proof.Proof.RefRun
import proofs.«117816_g68075231641772_cont_9to1c4b_264_8_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the common function of the arguments, and the reference's at its stages'
    composed term of arguments that agree, which is the same function. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.out_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
